-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x2000x481x2 : Shape := ⟨5, ![16, 1, 2000, 481, 2]⟩
abbrev S16x2000x5x96x2 : Shape := ⟨5, ![16, 2000, 5, 96, 2]⟩
abbrev S16x2000x1 : Shape := ⟨3, ![16, 2000, 1]⟩
abbrev S_ : Shape := ⟨0, ![]⟩

class Facts : Prop where
  bcast_S_S16x1x2000x481x2 : S_.BroadcastsInDim S16x1x2000x481x2 (![] : Fin 0 → Fin S16x1x2000x481x2.rank)
  reducesTo_S16x1x2000x481x2_S_d0_1_2_3_4 : S16x1x2000x481x2.ReducesTo [0, 1, 2, 3, 4] S_
  h_S_ : 0 < S_.numel
  bcast_S_S16x2000x5x96x2 : S_.BroadcastsInDim S16x2000x5x96x2 (![] : Fin 0 → Fin S16x2000x5x96x2.rank)
  reducesTo_S16x2000x5x96x2_S_d0_1_2_3_4 : S16x2000x5x96x2.ReducesTo [0, 1, 2, 3, 4] S_
  bcast_S_S16x2000x1 : S_.BroadcastsInDim S16x2000x1 (![] : Fin 0 → Fin S16x2000x1.rank)
  reducesTo_S16x2000x1_S_d0_1_2 : S16x2000x1.ReducesTo [0, 1, 2] S_

variable [Facts]

def fn {F : FTy → Type} [FloatOps F] (main_arg0 : FVec F S16x1x2000x481x2 .f32) (main_arg1 : FVec F S16x2000x5x96x2 .f32) (main_arg2 : FVec F S16x2000x1 .f32) : IVec S_ 1 :=
  let main_v0 : FVec F S16x1x2000x481x2 .f32 := Host.absf main_arg0
  let main_cst : FVec F S_ .f32 := constant S_ .f32 0x7F800000#32
  let main_v1 : FVec F S16x1x2000x481x2 .f32 := broadcastInDim S16x1x2000x481x2 ![] bcast_S_S16x1x2000x481x2 main_cst
  let main_v2 : IVec S16x1x2000x481x2 1 := cmpf .olt main_v0 main_v1
  let main_c : IVec S_ 1 := constantI S_ 1 1#1
  let main_v3 : IVec S_ 1 := (fun x v => Host.reduce IntOp.andi x v reducesTo_S16x1x2000x481x2_S_d0_1_2_3_4 h_S_) main_v2 main_c
  let main_v4 : FVec F S16x2000x5x96x2 .f32 := Host.absf main_arg1
  let main_cst_0 : FVec F S_ .f32 := constant S_ .f32 0x7F800000#32
  let main_v5 : FVec F S16x2000x5x96x2 .f32 := broadcastInDim S16x2000x5x96x2 ![] bcast_S_S16x2000x5x96x2 main_cst_0
  let main_v6 : IVec S16x2000x5x96x2 1 := cmpf .olt main_v4 main_v5
  let main_c_1 : IVec S_ 1 := constantI S_ 1 1#1
  let main_v7 : IVec S_ 1 := (fun x v => Host.reduce IntOp.andi x v reducesTo_S16x2000x5x96x2_S_d0_1_2_3_4 h_S_) main_v6 main_c_1
  let main_v8 : IVec S_ 1 := andi main_v3 main_v7
  let main_v9 : FVec F S16x2000x1 .f32 := Host.absf main_arg2
  let main_cst_2 : FVec F S_ .f32 := constant S_ .f32 0x7F800000#32
  let main_v10 : FVec F S16x2000x1 .f32 := broadcastInDim S16x2000x1 ![] bcast_S_S16x2000x1 main_cst_2
  let main_v11 : IVec S16x2000x1 1 := cmpf .olt main_v9 main_v10
  let main_c_3 : IVec S_ 1 := constantI S_ 1 1#1
  let main_v12 : IVec S_ 1 := (fun x v => Host.reduce IntOp.andi x v reducesTo_S16x2000x1_S_d0_1_2 h_S_) main_v11 main_c_3
  let main_v13 : IVec S_ 1 := andi main_v8 main_v12
  main_v13
-- ==== Kernel.lean ====
abbrev S16x1x2000x481x2 : Shape := ⟨5, ![16, 1, 2000, 481, 2]⟩
abbrev S16x2000x5x96x2 : Shape := ⟨5, ![16, 2000, 5, 96, 2]⟩
abbrev S16x2000x1 : Shape := ⟨3, ![16, 2000, 1]⟩
abbrev S16x2000x481x2 : Shape := ⟨4, ![16, 2000, 481, 2]⟩
abbrev S16x2x2000x481 : Shape := ⟨4, ![16, 2, 2000, 481]⟩
abbrev S16x2x5x2000x96 : Shape := ⟨5, ![16, 2, 5, 2000, 96]⟩
abbrev S16x2x2000x96 : Shape := ⟨4, ![16, 2, 2000, 96]⟩
abbrev S_ : Shape := ⟨0, ![]⟩
abbrev S16x2x2004x96 : Shape := ⟨4, ![16, 2, 2004, 96]⟩
abbrev S16x2x404x96 : Shape := ⟨4, ![16, 2, 404, 96]⟩
abbrev S16x2x1x404x96 : Shape := ⟨5, ![16, 2, 1, 404, 96]⟩
abbrev S16x2x5x404x96 : Shape := ⟨5, ![16, 2, 5, 404, 96]⟩
abbrev S1x2x400x481 : Shape := ⟨4, ![1, 2, 400, 481]⟩
abbrev S1x2x5x400x96 : Shape := ⟨5, ![1, 2, 5, 400, 96]⟩
abbrev S1x2x1x404x96 : Shape := ⟨5, ![1, 2, 1, 404, 96]⟩
abbrev S1x400x1 : Shape := ⟨3, ![1, 400, 1]⟩
abbrev S1x1x1x404x96 : Shape := ⟨5, ![1, 1, 1, 404, 96]⟩
abbrev S404x96 : Shape := ⟨2, ![404, 96]⟩
abbrev S400x96 : Shape := ⟨2, ![400, 96]⟩
abbrev S1x1x1x400x96 : Shape := ⟨5, ![1, 1, 1, 400, 96]⟩
abbrev S400x1 : Shape := ⟨2, ![400, 1]⟩
abbrev S1x1x400x96 : Shape := ⟨4, ![1, 1, 400, 96]⟩
abbrev S1x1x400x385 : Shape := ⟨4, ![1, 1, 400, 385]⟩
abbrev S400x385 : Shape := ⟨2, ![400, 385]⟩

abbrev nBuf : Space → Nat
  | .hbm => 24
  | .vmem => 10
  | .smem => 0
  | _ => 0

abbrev bufTy : (tb : Table) → Fin (tcTables nBuf tb) → BufTy
  | .hbm, ⟨0, _⟩ => ⟨S16x1x2000x481x2, .f32⟩
  | .hbm, ⟨1, _⟩ => ⟨S16x2000x5x96x2, .f32⟩
  | .hbm, ⟨2, _⟩ => ⟨S16x2000x1, .f32⟩
  | .hbm, ⟨3, _⟩ => ⟨S16x2000x481x2, .f32⟩
  | .hbm, ⟨4, _⟩ => ⟨S16x2x2000x481, .f32⟩
  | .hbm, ⟨5, _⟩ => ⟨S16x2x5x2000x96, .f32⟩
  | .hbm, ⟨6, _⟩ => ⟨S16x2x2000x96, .f32⟩
  | .hbm, ⟨7, _⟩ => ⟨S_, .i32⟩
  | .hbm, ⟨8, _⟩ => ⟨S_, .f32⟩
  | .hbm, ⟨9, _⟩ => ⟨S16x2x2004x96, .f32⟩
  | .hbm, ⟨10, _⟩ => ⟨S16x2x404x96, .f32⟩
  | .hbm, ⟨11, _⟩ => ⟨S16x2x404x96, .f32⟩
  | .hbm, ⟨12, _⟩ => ⟨S16x2x404x96, .f32⟩
  | .hbm, ⟨13, _⟩ => ⟨S16x2x404x96, .f32⟩
  | .hbm, ⟨14, _⟩ => ⟨S16x2x404x96, .f32⟩
  | .hbm, ⟨15, _⟩ => ⟨S16x2x1x404x96, .f32⟩
  | .hbm, ⟨16, _⟩ => ⟨S16x2x1x404x96, .f32⟩
  | .hbm, ⟨17, _⟩ => ⟨S16x2x1x404x96, .f32⟩
  | .hbm, ⟨18, _⟩ => ⟨S16x2x1x404x96, .f32⟩
  | .hbm, ⟨19, _⟩ => ⟨S16x2x1x404x96, .f32⟩
  | .hbm, ⟨20, _⟩ => ⟨S16x2x5x404x96, .f32⟩
  | .hbm, ⟨21, _⟩ => ⟨S16x2x2000x481, .f32⟩
  | .hbm, ⟨22, _⟩ => ⟨S16x2000x481x2, .f32⟩
  | .hbm, ⟨23, _⟩ => ⟨S16x1x2000x481x2, .f32⟩
  | .local _ .vmem, ⟨0, _⟩ => ⟨S1x2x400x481, .f32⟩
  | .local _ .vmem, ⟨1, _⟩ => ⟨S1x2x400x481, .f32⟩
  | .local _ .vmem, ⟨2, _⟩ => ⟨S1x2x5x400x96, .f32⟩
  | .local _ .vmem, ⟨3, _⟩ => ⟨S1x2x5x400x96, .f32⟩
  | .local _ .vmem, ⟨4, _⟩ => ⟨S1x2x1x404x96, .f32⟩
  | .local _ .vmem, ⟨5, _⟩ => ⟨S1x2x1x404x96, .f32⟩
  | .local _ .vmem, ⟨6, _⟩ => ⟨S1x400x1, .f32⟩
  | .local _ .vmem, ⟨7, _⟩ => ⟨S1x400x1, .f32⟩
  | .local _ .vmem, ⟨8, _⟩ => ⟨S1x2x400x481, .f32⟩
  | .local _ .vmem, ⟨9, _⟩ => ⟨S1x2x400x481, .f32⟩
  | _, _ => ⟨S16x1x2000x481x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x400x481 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x5x400x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1x404x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x400x481 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x1x2000x481x2_S16x2000x481x2 : S16x1x2000x481x2.ShapeCasts S16x2000x481x2
  transposes_S16x2000x481x2_S16x2x2000x481_0_3_1_2 : S16x2000x481x2.Transposes [0, 3, 1, 2] S16x2x2000x481
  transposes_S16x2000x5x96x2_S16x2x5x2000x96_0_4_2_1_3 : S16x2000x5x96x2.Transposes [0, 4, 2, 1, 3] S16x2x5x2000x96
  slices_S16x2x2000x481_S16x2x2000x96_0_0_0_0 : S16x2x2000x481.Slices ![0, 0, 0, 0] S16x2x2000x96
  pads_S16x2x2000x96_S16x2x2004x96_000_000_400_000 : S16x2x2000x96.Pads (![0, 0, 4, 0] : Fin 4 → Nat) ![0, 0, 0, 0] ![0, 0, 0, 0] S16x2x2004x96
  h_S_ : 0 < S_.numel
  slices_S16x2x2004x96_S16x2x404x96_0_0_0_0 : S16x2x2004x96.Slices ![0, 0, 0, 0] S16x2x404x96
  slices_S16x2x2004x96_S16x2x404x96_0_0_400_0 : S16x2x2004x96.Slices ![0, 0, 400, 0] S16x2x404x96
  slices_S16x2x2004x96_S16x2x404x96_0_0_800_0 : S16x2x2004x96.Slices ![0, 0, 800, 0] S16x2x404x96
  slices_S16x2x2004x96_S16x2x404x96_0_0_1200_0 : S16x2x2004x96.Slices ![0, 0, 1200, 0] S16x2x404x96
  slices_S16x2x2004x96_S16x2x404x96_0_0_1600_0 : S16x2x2004x96.Slices ![0, 0, 1600, 0] S16x2x404x96
  bcast_S16x2x404x96_S16x2x1x404x96_0_1_3_4 : S16x2x404x96.BroadcastsInDim S16x2x1x404x96 (![0, 1, 3, 4] : Fin 4 → Fin S16x2x1x404x96.rank)
  concatenates_S16x2x1x404x96_S16x2x1x404x96_S16x2x1x404x96_S16x2x1x404x96_S16x2x1x404x96_S16x2x5x404x96_d2 : Shape.Concatenates [S16x2x1x404x96, S16x2x1x404x96, S16x2x1x404x96, S16x2x1x404x96, S16x2x1x404x96] S16x2x5x404x96 2
  inb_S1x2x1x404x96_S1x1x1x404x96_0_0_0_0_0 : ∀ a, (![0, 0, 0, 0, 0] : Fin 5 → Nat) a + S1x1x1x404x96.size a ≤ S1x2x1x404x96.size a
  h_S1x1x1x404x96 : 0 < S1x1x1x404x96.numel
  shapeCasts_S1x1x1x404x96_S404x96 : S1x1x1x404x96.ShapeCasts S404x96
  inb_S1x2x1x404x96_S1x1x1x404x96_0_1_0_0_0 : ∀ a, (![0, 1, 0, 0, 0] : Fin 5 → Nat) a + S1x1x1x404x96.size a ≤ S1x2x1x404x96.size a
  slices_S404x96_o0_0_S400x96 : S404x96.Slices ![0, 0] S400x96
  inb_S1x2x5x400x96_S1x1x1x400x96_0_0_0_0_0 : ∀ a, (![0, 0, 0, 0, 0] : Fin 5 → Nat) a + S1x1x1x400x96.size a ≤ S1x2x5x400x96.size a
  h_S1x1x1x400x96 : 0 < S1x1x1x400x96.numel
  shapeCasts_S1x1x1x400x96_S400x96 : S1x1x1x400x96.ShapeCasts S400x96
  inb_S1x2x5x400x96_S1x1x1x400x96_0_1_0_0_0 : ∀ a, (![0, 1, 0, 0, 0] : Fin 5 → Nat) a + S1x1x1x400x96.size a ≤ S1x2x5x400x96.size a
  slices_S404x96_o1_0_S400x96 : S404x96.Slices ![1, 0] S400x96
  inb_S1x2x5x400x96_S1x1x1x400x96_0_0_1_0_0 : ∀ a, (![0, 0, 1, 0, 0] : Fin 5 → Nat) a + S1x1x1x400x96.size a ≤ S1x2x5x400x96.size a
  inb_S1x2x5x400x96_S1x1x1x400x96_0_1_1_0_0 : ∀ a, (![0, 1, 1, 0, 0] : Fin 5 → Nat) a + S1x1x1x400x96.size a ≤ S1x2x5x400x96.size a
  slices_S404x96_o2_0_S400x96 : S404x96.Slices ![2, 0] S400x96
  inb_S1x2x5x400x96_S1x1x1x400x96_0_0_2_0_0 : ∀ a, (![0, 0, 2, 0, 0] : Fin 5 → Nat) a + S1x1x1x400x96.size a ≤ S1x2x5x400x96.size a
  inb_S1x2x5x400x96_S1x1x1x400x96_0_1_2_0_0 : ∀ a, (![0, 1, 2, 0, 0] : Fin 5 → Nat) a + S1x1x1x400x96.size a ≤ S1x2x5x400x96.size a
  slices_S404x96_o3_0_S400x96 : S404x96.Slices ![3, 0] S400x96
  inb_S1x2x5x400x96_S1x1x1x400x96_0_0_3_0_0 : ∀ a, (![0, 0, 3, 0, 0] : Fin 5 → Nat) a + S1x1x1x400x96.size a ≤ S1x2x5x400x96.size a
  inb_S1x2x5x400x96_S1x1x1x400x96_0_1_3_0_0 : ∀ a, (![0, 1, 3, 0, 0] : Fin 5 → Nat) a + S1x1x1x400x96.size a ≤ S1x2x5x400x96.size a
  slices_S404x96_o4_0_S400x96 : S404x96.Slices ![4, 0] S400x96
  inb_S1x2x5x400x96_S1x1x1x400x96_0_0_4_0_0 : ∀ a, (![0, 0, 4, 0, 0] : Fin 5 → Nat) a + S1x1x1x400x96.size a ≤ S1x2x5x400x96.size a
  inb_S1x2x5x400x96_S1x1x1x400x96_0_1_4_0_0 : ∀ a, (![0, 1, 4, 0, 0] : Fin 5 → Nat) a + S1x1x1x400x96.size a ≤ S1x2x5x400x96.size a
  inb_S1x400x1_S1x400x1_0_0_0 : ∀ a, (![0, 0, 0] : Fin 3 → Nat) a + S1x400x1.size a ≤ S1x400x1.size a
  h_S1x400x1 : 0 < S1x400x1.numel
  shapeCasts_S1x400x1_S400x1 : S1x400x1.ShapeCasts S400x1
  inb_S1x2x400x481_S1x1x400x96_0_0_0_0 : ∀ a, (![0, 0, 0, 0] : Fin 4 → Nat) a + S1x1x400x96.size a ≤ S1x2x400x481.size a
  h_S1x1x400x96 : 0 < S1x1x400x96.numel
  shapeCasts_S1x1x400x96_S400x96 : S1x1x400x96.ShapeCasts S400x96
  inb_S1x2x400x481_S1x1x400x96_0_1_0_0 : ∀ a, (![0, 1, 0, 0] : Fin 4 → Nat) a + S1x1x400x96.size a ≤ S1x2x400x481.size a
  broadcasts_S400x1_S400x96 : S400x1.Broadcasts S400x96
  shapeCasts_S400x96_S1x1x400x96 : S400x96.ShapeCasts S1x1x400x96
  inb_S1x2x400x481_S1x1x400x385_0_0_0_96 : ∀ a, (![0, 0, 0, 96] : Fin 4 → Nat) a + S1x1x400x385.size a ≤ S1x2x400x481.size a
  h_S1x1x400x385 : 0 < S1x1x400x385.numel
  shapeCasts_S1x1x400x385_S400x385 : S1x1x400x385.ShapeCasts S400x385
  shapeCasts_S400x385_S1x1x400x385 : S400x385.ShapeCasts S1x1x400x385
  inb_S1x2x400x481_S1x1x400x385_0_1_0_96 : ∀ a, (![0, 1, 0, 96] : Fin 4 → Nat) a + S1x1x400x385.size a ≤ S1x2x400x481.size a
  transposes_S16x2x2000x481_S16x2000x481x2_0_2_3_1 : S16x2x2000x481.Transposes [0, 2, 3, 1] S16x2000x481x2
  bcast_S16x2000x481x2_S16x1x2000x481x2_0_2_3_4 : S16x2000x481x2.BroadcastsInDim S16x1x2000x481x2 (![0, 2, 3, 4] : Fin 4 → Fin S16x1x2000x481x2.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x400x481.size a ≤ S16x2x2000x481.size a
  hwx0_0 : ∀ i : grid0.Coords, EltTy.bits .f32 = 32 ∨ (Rect.block (s := S16x2x2000x481) S1x2x400x481.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x5x400x96.size a ≤ S16x2x5x2000x96.size a
  hwx0_1 : ∀ i : grid0.Coords, EltTy.bits .f32 = 32 ∨ (Rect.block (s := S16x2x5x2000x96) S1x2x5x400x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x1x404x96.size a ≤ S16x2x5x404x96.size a
  hwx0_2 : ∀ i : grid0.Coords, EltTy.bits .f32 = 32 ∨ (Rect.block (s := S16x2x5x404x96) S1x2x1x404x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x400x1.size a ≤ S16x2000x1.size a
  hwx0_3 : ∀ i : grid0.Coords, EltTy.bits .f32 = 32 ∨ (Rect.block (s := S16x2000x1) S1x400x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x400x481.size a ≤ S16x2x2000x481.size a
  hwx0_4 : ∀ i : grid0.Coords, EltTy.bits .f32 = 32 ∨ (Rect.block (s := S16x2x2000x481) S1x2x400x481.size (cc0_transform_4 i) (hinb0_4 i)).WholeWords (EltTy.packing .f32)

variable [Facts₀]

abbrev win0_0 : Pipeline.Window sig grid0 :=
  Pipeline.Window.ofSpec (Memref.whole main_v1) S1x2x400x481.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2x5x400x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x2x1x404x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x2x400x481.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1x2000x481x2 : Shape := ⟨5, ![16, 1, 2000, 481, 2]⟩
abbrev S16x2000x5x96x2 : Shape := ⟨5, ![16, 2000, 5, 96, 2]⟩
abbrev S16x2000x1 : Shape := ⟨3, ![16, 2000, 1]⟩
abbrev S16x1x2000x96x2 : Shape := ⟨5, ![16, 1, 2000, 96, 2]⟩
abbrev S16x2000x96x2 : Shape := ⟨4, ![16, 2000, 96, 2]⟩
abbrev S_ : Shape := ⟨0, ![]⟩
abbrev S16x2004x96x2 : Shape := ⟨4, ![16, 2004, 96, 2]⟩
abbrev S16x2000x1x96x2 : Shape := ⟨5, ![16, 2000, 1, 96, 2]⟩
abbrev S16x2000x5x96x1 : Shape := ⟨5, ![16, 2000, 5, 96, 1]⟩
abbrev S16x2000x5x96 : Shape := ⟨4, ![16, 2000, 5, 96]⟩
abbrev S16x1x2000x1x1 : Shape := ⟨5, ![16, 1, 2000, 1, 1]⟩
abbrev S1 : Shape := ⟨1, ![1]⟩

abbrev nBuf : Space → Nat
  | .hbm => 60
  | .vmem => 0
  | .smem => 0
  | _ => 0

abbrev bufTy : (tb : Table) → Fin (tcTables nBuf tb) → BufTy
  | .hbm, ⟨0, _⟩ => ⟨S16x1x2000x481x2, .f32⟩
  | .hbm, ⟨1, _⟩ => ⟨S16x2000x5x96x2, .f32⟩
  | .hbm, ⟨2, _⟩ => ⟨S16x2000x1, .f32⟩
  | .hbm, ⟨3, _⟩ => ⟨S16x1x2000x96x2, .f32⟩
  | .hbm, ⟨4, _⟩ => ⟨S16x2000x96x2, .f32⟩
  | .hbm, ⟨5, _⟩ => ⟨S_, .i32⟩
  | .hbm, ⟨6, _⟩ => ⟨S_, .f32⟩
  | .hbm, ⟨7, _⟩ => ⟨S16x2004x96x2, .f32⟩
  | .hbm, ⟨8, _⟩ => ⟨S16x2000x96x2, .f32⟩
  | .hbm, ⟨9, _⟩ => ⟨S16x2000x96x2, .f32⟩
  | .hbm, ⟨10, _⟩ => ⟨S16x2000x96x2, .f32⟩
  | .hbm, ⟨11, _⟩ => ⟨S16x2000x96x2, .f32⟩
  | .hbm, ⟨12, _⟩ => ⟨S16x2000x96x2, .f32⟩
  | .hbm, ⟨13, _⟩ => ⟨S16x2000x1x96x2, .f32⟩
  | .hbm, ⟨14, _⟩ => ⟨S16x2000x1x96x2, .f32⟩
  | .hbm, ⟨15, _⟩ => ⟨S16x2000x1x96x2, .f32⟩
  | .hbm, ⟨16, _⟩ => ⟨S16x2000x1x96x2, .f32⟩
  | .hbm, ⟨17, _⟩ => ⟨S16x2000x1x96x2, .f32⟩
  | .hbm, ⟨18, _⟩ => ⟨S16x2000x5x96x2, .f32⟩
  | .hbm, ⟨19, _⟩ => ⟨S16x2000x5x96x1, .f32⟩
  | .hbm, ⟨20, _⟩ => ⟨S16x2000x5x96, .f32⟩
  | .hbm, ⟨21, _⟩ => ⟨S16x2000x5x96x1, .f32⟩
  | .hbm, ⟨22, _⟩ => ⟨S16x2000x5x96, .f32⟩
  | .hbm, ⟨23, _⟩ => ⟨S16x2000x5x96, .f32⟩
  | .hbm, ⟨24, _⟩ => ⟨S16x2000x5x96x1, .f32⟩
  | .hbm, ⟨25, _⟩ => ⟨S16x2000x5x96, .f32⟩
  | .hbm, ⟨26, _⟩ => ⟨S16x2000x5x96x1, .f32⟩
  | .hbm, ⟨27, _⟩ => ⟨S16x2000x5x96, .f32⟩
  | .hbm, ⟨28, _⟩ => ⟨S16x2000x5x96, .f32⟩
  | .hbm, ⟨29, _⟩ => ⟨S16x2000x5x96, .f32⟩
  | .hbm, ⟨30, _⟩ => ⟨S16x2000x5x96x1, .f32⟩
  | .hbm, ⟨31, _⟩ => ⟨S16x2000x5x96, .f32⟩
  | .hbm, ⟨32, _⟩ => ⟨S16x2000x5x96x1, .f32⟩
  | .hbm, ⟨33, _⟩ => ⟨S16x2000x5x96, .f32⟩
  | .hbm, ⟨34, _⟩ => ⟨S16x2000x5x96, .f32⟩
  | .hbm, ⟨35, _⟩ => ⟨S16x2000x5x96x1, .f32⟩
  | .hbm, ⟨36, _⟩ => ⟨S16x2000x5x96, .f32⟩
  | .hbm, ⟨37, _⟩ => ⟨S16x2000x5x96x1, .f32⟩
  | .hbm, ⟨38, _⟩ => ⟨S16x2000x5x96, .f32⟩
  | .hbm, ⟨39, _⟩ => ⟨S16x2000x5x96, .f32⟩
  | .hbm, ⟨40, _⟩ => ⟨S16x2000x5x96, .f32⟩
  | .hbm, ⟨41, _⟩ => ⟨S16x2000x5x96x1, .f32⟩
  | .hbm, ⟨42, _⟩ => ⟨S16x2000x5x96x1, .f32⟩
  | .hbm, ⟨43, _⟩ => ⟨S16x2000x5x96x2, .f32⟩
  | .hbm, ⟨44, _⟩ => ⟨S_, .f32⟩
  | .hbm, ⟨45, _⟩ => ⟨S16x2000x96x2, .f32⟩
  | .hbm, ⟨46, _⟩ => ⟨S16x1x2000x1x1, .f32⟩
  | .hbm, ⟨47, _⟩ => ⟨S16x1x2000x96x2, .f32⟩
  | .hbm, ⟨48, _⟩ => ⟨S16x1x2000x96x2, .f32⟩
  | .hbm, ⟨49, _⟩ => ⟨S16x1x2000x96x2, .f32⟩
  | .hbm, ⟨50, _⟩ => ⟨S16x1x2000x96x2, .f32⟩
  | .hbm, ⟨51, _⟩ => ⟨S_, .f32⟩
  | .hbm, ⟨52, _⟩ => ⟨S16x1x2000x1x1, .f32⟩
  | .hbm, ⟨53, _⟩ => ⟨S16x1x2000x1x1, .f32⟩
  | .hbm, ⟨54, _⟩ => ⟨S16x1x2000x96x2, .f32⟩
  | .hbm, ⟨55, _⟩ => ⟨S16x1x2000x96x2, .f32⟩
  | .hbm, ⟨56, _⟩ => ⟨S16x1x2000x96x2, .f32⟩
  | .hbm, ⟨57, _⟩ => ⟨S_, .i32⟩
  | .hbm, ⟨58, _⟩ => ⟨S1, .i32⟩
  | .hbm, ⟨59, _⟩ => ⟨S16x1x2000x481x2, .f32⟩
  | _, _ => ⟨S16x1x2000x481x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_0 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_c_1 : Ref sig .tc := ⟨.hbm, 57, rfl⟩
abbrev main_v50 : Ref sig .tc := ⟨.hbm, 58, rfl⟩
abbrev main_v51 : Ref sig .tc := ⟨.hbm, 59, rfl⟩

abbrev nD : Nat := 1
abbrev τ : Topo := Topo.v7x

variable {F : FTy → Type} [FloatOps F]

class Facts₀ : Prop where
  slices_S16x1x2000x481x2_S16x1x2000x96x2_0_0_0_0_0 : S16x1x2000x481x2.Slices ![0, 0, 0, 0, 0] S16x1x2000x96x2
  shapeCasts_S16x1x2000x96x2_S16x2000x96x2 : S16x1x2000x96x2.ShapeCasts S16x2000x96x2
  pads_S16x2000x96x2_S16x2004x96x2_000_400_000_000 : S16x2000x96x2.Pads (![0, 4, 0, 0] : Fin 4 → Nat) ![0, 0, 0, 0] ![0, 0, 0, 0] S16x2004x96x2
  h_S_ : 0 < S_.numel
  slices_S16x2004x96x2_S16x2000x96x2_0_0_0_0 : S16x2004x96x2.Slices ![0, 0, 0, 0] S16x2000x96x2
  slices_S16x2004x96x2_S16x2000x96x2_0_1_0_0 : S16x2004x96x2.Slices ![0, 1, 0, 0] S16x2000x96x2
  slices_S16x2004x96x2_S16x2000x96x2_0_2_0_0 : S16x2004x96x2.Slices ![0, 2, 0, 0] S16x2000x96x2
  slices_S16x2004x96x2_S16x2000x96x2_0_3_0_0 : S16x2004x96x2.Slices ![0, 3, 0, 0] S16x2000x96x2
  slices_S16x2004x96x2_S16x2000x96x2_0_4_0_0 : S16x2004x96x2.Slices ![0, 4, 0, 0] S16x2000x96x2
  bcast_S16x2000x96x2_S16x2000x1x96x2_0_1_3_4 : S16x2000x96x2.BroadcastsInDim S16x2000x1x96x2 (![0, 1, 3, 4] : Fin 4 → Fin S16x2000x1x96x2.rank)
  concatenates_S16x2000x1x96x2_S16x2000x1x96x2_S16x2000x1x96x2_S16x2000x1x96x2_S16x2000x1x96x2_S16x2000x5x96x2_d2 : Shape.Concatenates [S16x2000x1x96x2, S16x2000x1x96x2, S16x2000x1x96x2, S16x2000x1x96x2, S16x2000x1x96x2] S16x2000x5x96x2 2
  slices_S16x2000x5x96x2_S16x2000x5x96x1_0_0_0_0_0 : S16x2000x5x96x2.Slices ![0, 0, 0, 0, 0] S16x2000x5x96x1
  shapeCasts_S16x2000x5x96x1_S16x2000x5x96 : S16x2000x5x96x1.ShapeCasts S16x2000x5x96
  slices_S16x2000x5x96x2_S16x2000x5x96x1_0_0_0_0_1 : S16x2000x5x96x2.Slices ![0, 0, 0, 0, 1] S16x2000x5x96x1
  bcast_S16x2000x5x96_S16x2000x5x96x1_0_1_2_3 : S16x2000x5x96.BroadcastsInDim S16x2000x5x96x1 (![0, 1, 2, 3] : Fin 4 → Fin S16x2000x5x96x1.rank)
  concatenates_S16x2000x5x96x1_S16x2000x5x96x1_S16x2000x5x96x2_d4 : Shape.Concatenates [S16x2000x5x96x1, S16x2000x5x96x1] S16x2000x5x96x2 4
  reducesTo_S16x2000x5x96x2_S16x2000x96x2_d2 : S16x2000x5x96x2.ReducesTo [2] S16x2000x96x2
  shapeCasts_S16x2000x1_S16x1x2000x1x1 : S16x2000x1.ShapeCasts S16x1x2000x1x1
  bcast_S16x2000x96x2_S16x1x2000x96x2_0_2_3_4 : S16x2000x96x2.BroadcastsInDim S16x1x2000x96x2 (![0, 2, 3, 4] : Fin 4 → Fin S16x1x2000x96x2.rank)
  bcast_S16x1x2000x1x1_S16x1x2000x96x2_0_1_2_3_4 : S16x1x2000x1x1.BroadcastsInDim S16x1x2000x96x2 (![0, 1, 2, 3, 4] : Fin 5 → Fin S16x1x2000x96x2.rank)
  bcast_S_S16x1x2000x1x1 : S_.BroadcastsInDim S16x1x2000x1x1 (![] : Fin 0 → Fin S16x1x2000x1x1.rank)
  bcast_S_S1 : S_.BroadcastsInDim S1 (![] : Fin 0 → Fin S1.rank)
  scatter_S16x1x2000x481x2_S1_S16x1x2000x96x2_01234_n_3_0_wf : ScatterDims.WF S16x1x2000x481x2 S1 S16x1x2000x96x2 [0, 1, 2, 3, 4] [] [3] 0

variable [Facts₀]

def scatter_S16x1x2000x481x2_S1_S16x1x2000x96x2_01234_n_3_0 : ScatterDims S16x1x2000x481x2 S1 S16x1x2000x96x2 where
  updateWindowDims := [0, 1, 2, 3, 4]
  insertedWindowDims := []
  scatterDimsToOperandDims := [3]
  indexVectorDim := 0
  wf := scatter_S16x1x2000x481x2_S1_S16x1x2000x96x2_01234_n_3_0_wf

class Facts : Prop extends Facts₀ where

variable [Facts]
-- ==== Proof.RegionKernel.lean ====
/-
  The one pallas_call of the kernel's program, as a region the launch library can run.

  The program transposes the spectrum to channel-first, builds per time-tile the 404-row haloed taps, launches one
  pipeline over the grid 16 × 5 (batch × time-tile) and transposes the result back. Here: the buffers' contents when
  the region is entered (the host lines before it folded over the launch memory); what the body leaves in the output
  window's staging buffer at a point, as a function of the four input blocks — four stores that tile the block
  [1, 2, 400, 481]: the two blended low bands (bins 0–95, real and imaginary) and the two copied high bands (bins
  96–480) —; the body's triple; the proof data; the run of @main to the library's frame post; and the frame claim:
  the three argument arrays end as launched. Everything is stated at any float instance.
-/
import proofs.«131335_j30185030156318_1_alg».proof.Proof.Gen.Kernel.Launch
import proofs.«131335_j30185030156318_1_alg».proof.Proof.Gen.Kernel.Skeleton
import proofs.«131335_j30185030156318_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the eighteen host lines before it (the layout transposes,
    the low-band slice, the causal zero padding, the five haloed tiles and their concatenation) applied to the launch
    memory. -/
abbrev entry0 (c : Dev nD) : Valuation τ sig (Elt F) := StableHlo.after (List.flatten [hostOps0, hostOps0_1, hostOps0_2]) (fun b => m (c, b))
/-- The same read at a TensorCore reference. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three host stretches, the region, and the two host lines after it: it reduces to the region continued
    by the later lines. -/
theorem hmain (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The two lines after the region touch the pipeline's arrays and the other unscoped buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, the transposed result and its rank-5 form. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton] <;> exact StableHlo.devRef_ne_of_ne (by decide)

/-- No host operation before the region writes `main_arg0`: the region finds it as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host operation before the region writes `main_arg1`: the region finds it as launched. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host operation before the region writes `main_arg2`: the region finds it as launched. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))

/-- No host operation after the region writes `main_arg0`, and `main_arg0` is no array the region writes back: it ends as launched. -/
theorem exit_main_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
      repeat' apply And.intro
      all_goals exact StableHlo.devRef_ne_of_ne (by decide))),
    Pipeline.withArrays_of_ne _ c (entry0 m c) _ main_arg0 (by exact (by decide : ∀ w, Pipeline.arrRef spec0 w ≠ main_arg0))]
  exact entry_main_arg0 m c
/-- No host operation after the region writes `main_arg1`, and `main_arg1` is no array the region writes back: it ends as launched. -/
theorem exit_main_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
      repeat' apply And.intro
      all_goals exact StableHlo.devRef_ne_of_ne (by decide))),
    Pipeline.withArrays_of_ne _ c (entry0 m c) _ main_arg1 (by exact (by decide : ∀ w, Pipeline.arrRef spec0 w ≠ main_arg1))]
  exact entry_main_arg1 m c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, fetched there or not, for any proof data whose
    array is the region-entry contents and whose body leaves the block in place. -/
theorem before0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not, for any proof data whose
    array is the region-entry contents and whose body leaves the block in place. -/
theorem before1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not, for any proof data whose
    array is the region-entry contents and whose body leaves the block in place. -/
theorem before2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not, for any proof data whose
    array is the region-entry contents and whose body leaves the block in place. -/
theorem before3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a frame run's -/

/-- For any proof data whose arrays are the region-entry contents, a run to the library's frame post read at the three
    argument arrays — the spectrum and the coefficients are staged by no window (their transposes are), so the post's
    second clause and the two lemmas above give them back; alpha is window 3's array, an input the pipeline never
    writes — is the frame claim's post. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (exit_main_arg0 m dats c),
      ((h c).2 main_arg1 (Pipeline.mem_restRefs_of main_arg1 (by decide) (by decide))).trans (exit_main_arg1 m dats c),
      ((h c).1 3).trans (((dats 0 c).arrAt_in 3 rfl _).trans ((hA c 3).trans (entry_main_arg2 m c)))⟩) h

/-! ## The body's accesses -/

/-- The real and the imaginary plane of the haloed tap block [1, 2, 1, 404, 96]. -/
abbrev rTapRe : Rect S1x2x1x404x96 := Rect.unit (s := S1x2x1x404x96) ![0, 0, 0, 0, 0] S1x1x1x404x96.size inb_S1x2x1x404x96_S1x1x1x404x96_0_0_0_0_0
abbrev rTapIm : Rect S1x2x1x404x96 := Rect.unit (s := S1x2x1x404x96) ![0, 1, 0, 0, 0] S1x1x1x404x96.size inb_S1x2x1x404x96_S1x1x1x404x96_0_1_0_0_0
/-- Tap `k`'s real and imaginary coefficient plane of the coefficient block [1, 2, 5, 400, 96]. -/
abbrev rCoefRe0 : Rect S1x2x5x400x96 := Rect.unit (s := S1x2x5x400x96) ![0, 0, 0, 0, 0] S1x1x1x400x96.size inb_S1x2x5x400x96_S1x1x1x400x96_0_0_0_0_0
abbrev rCoefIm0 : Rect S1x2x5x400x96 := Rect.unit (s := S1x2x5x400x96) ![0, 1, 0, 0, 0] S1x1x1x400x96.size inb_S1x2x5x400x96_S1x1x1x400x96_0_1_0_0_0
abbrev rCoefRe1 : Rect S1x2x5x400x96 := Rect.unit (s := S1x2x5x400x96) ![0, 0, 1, 0, 0] S1x1x1x400x96.size inb_S1x2x5x400x96_S1x1x1x400x96_0_0_1_0_0
abbrev rCoefIm1 : Rect S1x2x5x400x96 := Rect.unit (s := S1x2x5x400x96) ![0, 1, 1, 0, 0] S1x1x1x400x96.size inb_S1x2x5x400x96_S1x1x1x400x96_0_1_1_0_0
abbrev rCoefRe2 : Rect S1x2x5x400x96 := Rect.unit (s := S1x2x5x400x96) ![0, 0, 2, 0, 0] S1x1x1x400x96.size inb_S1x2x5x400x96_S1x1x1x400x96_0_0_2_0_0
abbrev rCoefIm2 : Rect S1x2x5x400x96 := Rect.unit (s := S1x2x5x400x96) ![0, 1, 2, 0, 0] S1x1x1x400x96.size inb_S1x2x5x400x96_S1x1x1x400x96_0_1_2_0_0
abbrev rCoefRe3 : Rect S1x2x5x400x96 := Rect.unit (s := S1x2x5x400x96) ![0, 0, 3, 0, 0] S1x1x1x400x96.size inb_S1x2x5x400x96_S1x1x1x400x96_0_0_3_0_0
abbrev rCoefIm3 : Rect S1x2x5x400x96 := Rect.unit (s := S1x2x5x400x96) ![0, 1, 3, 0, 0] S1x1x1x400x96.size inb_S1x2x5x400x96_S1x1x1x400x96_0_1_3_0_0
abbrev rCoefRe4 : Rect S1x2x5x400x96 := Rect.unit (s := S1x2x5x400x96) ![0, 0, 4, 0, 0] S1x1x1x400x96.size inb_S1x2x5x400x96_S1x1x1x400x96_0_0_4_0_0
abbrev rCoefIm4 : Rect S1x2x5x400x96 := Rect.unit (s := S1x2x5x400x96) ![0, 1, 4, 0, 0] S1x1x1x400x96.size inb_S1x2x5x400x96_S1x1x1x400x96_0_1_4_0_0
/-- The blend weights [1, 400, 1], whole. -/
abbrev rAlpha : Rect S1x400x1 := Rect.unit (s := S1x400x1) ![0, 0, 0] S1x400x1.size inb_S1x400x1_S1x400x1_0_0_0
/-- In a spectrum block [1, 2, 400, 481]: the low band (bins 0–95) and the high band (bins 96–480) of each plane. -/
abbrev rLowRe : Rect S1x2x400x481 := Rect.unit (s := S1x2x400x481) ![0, 0, 0, 0] S1x1x400x96.size inb_S1x2x400x481_S1x1x400x96_0_0_0_0
abbrev rLowIm : Rect S1x2x400x481 := Rect.unit (s := S1x2x400x481) ![0, 1, 0, 0] S1x1x400x96.size inb_S1x2x400x481_S1x1x400x96_0_1_0_0
abbrev rHighRe : Rect S1x2x400x481 := Rect.unit (s := S1x2x400x481) ![0, 0, 0, 96] S1x1x400x385.size inb_S1x2x400x481_S1x1x400x385_0_0_0_96
abbrev rHighIm : Rect S1x2x400x481 := Rect.unit (s := S1x2x400x481) ![0, 1, 0, 96] S1x1x400x385.size inb_S1x2x400x481_S1x1x400x385_0_1_0_96

/-! ## What the body leaves in the output window's buffer -/

/-- The blended real low band, from the loaded planes: the five-tap accumulation of re·re − im·im, times alpha, plus the
    input's real low band times (1 − alpha). -/
def lowRe (tr ti : Vec F S1x1x1x404x96 .f32) (cr0 ci0 cr1 ci1 cr2 ci2 cr3 ci3 cr4 ci4 : Vec F S1x1x1x400x96 .f32)
    (al : Vec F S1x400x1 .f32) (xr : Vec F S1x1x400x96 .f32) : Vec F S1x1x400x96 .f32 :=
  k0_pay33 (k0_pay24 (k0_pay4 tr) (k0_pay5 ti) (k0_pay10 tr ti cr0 ci0) (k0_pay12 tr) (k0_pay13 ti) (k0_pay14 cr1) (k0_pay15 ci1) cr2 ci2 cr3 ci3)
    (k0_pay26 (k0_pay4 tr)) (k0_pay27 (k0_pay5 ti)) cr4 ci4 al xr

/-- The blended imaginary low band: the accumulation of im·re + re·im, times alpha, plus the input's imaginary low band
    times (1 − alpha). -/
def lowIm (tr ti : Vec F S1x1x1x404x96 .f32) (cr0 ci0 cr1 ci1 cr2 ci2 cr3 ci3 cr4 ci4 : Vec F S1x1x1x400x96 .f32)
    (al : Vec F S1x400x1 .f32) (xi : Vec F S1x1x400x96 .f32) : Vec F S1x1x400x96 .f32 :=
  k0_pay1 (k0_pay32 (k0_pay25 (k0_pay4 tr) (k0_pay5 ti) (k0_pay11 tr ti cr0 ci0) (k0_pay12 tr) (k0_pay13 ti) (k0_pay14 cr1) (k0_pay15 ci1) cr2 ci2 cr3 ci3)
    (k0_pay26 (k0_pay4 tr)) (k0_pay27 (k0_pay5 ti)) cr4 ci4 al xi)

/-- The output window's staging buffer after the body, from the four input blocks (spectrum, coefficients, haloed taps,
    alpha): its four stores as pieces, last first. -/
def leftInOut (x0 : Vec F S1x2x400x481 .f32) (x1 : Vec F S1x2x5x400x96 .f32) (x2 : Vec F S1x2x1x404x96 .f32) (x3 : Vec F S1x400x1 .f32) :
    Vec F S1x2x400x481 .f32 :=
  View.canon [⟨rHighIm, k0_pay3 (View.ld x0 rHighIm)⟩, ⟨rHighRe, k0_pay2 (View.ld x0 rHighRe)⟩,
    ⟨rLowIm, lowIm (View.ld x2 rTapRe) (View.ld x2 rTapIm) (View.ld x1 rCoefRe0) (View.ld x1 rCoefIm0) (View.ld x1 rCoefRe1) (View.ld x1 rCoefIm1)
      (View.ld x1 rCoefRe2) (View.ld x1 rCoefIm2) (View.ld x1 rCoefRe3) (View.ld x1 rCoefIm3) (View.ld x1 rCoefRe4) (View.ld x1 rCoefIm4)
      (View.ld x3 rAlpha) (View.ld x0 rLowIm)⟩,
    ⟨rLowRe, lowRe (View.ld x2 rTapRe) (View.ld x2 rTapIm) (View.ld x1 rCoefRe0) (View.ld x1 rCoefIm0) (View.ld x1 rCoefRe1) (View.ld x1 rCoefIm1)
      (View.ld x1 rCoefRe2) (View.ld x1 rCoefIm2) (View.ld x1 rCoefRe3) (View.ld x1 rCoefIm3) (View.ld x1 rCoefRe4) (View.ld x1 rCoefIm4)
      (View.ld x3 rAlpha) (View.ld x0 rLowRe)⟩]

/-- The four stores cover the block: cut along the bin axis into single-bin columns [1, 1, 400, 1] (96 and 385 have no
    common divisor), the pieces tile it. -/
theorem stores_cover (p0 p1 : Vec F S1x1x400x385 .f32) (p2 p3 : Vec F S1x1x400x96 .f32) (y : S1x2x400x481.Idx) :
    ∃ pc ∈ ([⟨rHighIm, p0⟩, ⟨rHighRe, p1⟩, ⟨rLowIm, p2⟩, ⟨rLowRe, p3⟩] : List (View.Piece (Elt F) S1x2x400x481 .f32)), y ∈ pc.1.set :=
  View.cover_of_tiledBy [⟨rHighIm, p0⟩, ⟨rHighRe, p1⟩, ⟨rLowIm, p2⟩, ⟨rLowRe, p3⟩] ![1, 1, 400, 1] (by sl_kernel_rfl) y

/-! ## The body's triple -/

set_option maxHeartbeats 4000000 in
/-- The kernel body on whole staging memrefs, the inputs' at read contents and the output's at anything, runs to the
    continuation holding the inputs' as they were and the output's at `leftInOut` of the inputs' (the body also loads the
    output buffer before each store; nothing it stores depends on what it finds there). -/
theorem sound_kernel (c : Dev nD) (E : Set ℕ) (i : grid0.Coords) (arg2 : Memref sig .tc .vmem S1x2x400x481 .f32) (harg2 : arg2.IsWhole) (arg3 : Memref sig .tc .vmem S1x2x5x400x96 .f32) (harg3 : arg3.IsWhole) (arg4 : Memref sig .tc .vmem S1x2x1x404x96 .f32) (harg4 : arg4.IsWhole) (arg5 : Memref sig .tc .vmem S1x400x1 .f32) (harg5 : arg5.IsWhole) (arg6 : Memref sig .tc .vmem S1x2x400x481 .f32) (harg6 : arg6.IsWhole)
    (x0 : Vec F S1x2x400x481 .f32) (x1 : Vec F S1x2x5x400x96 .f32) (x2 : Vec F S1x2x1x404x96 .f32) (x3 : Vec F S1x400x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (leftInOut x0 x1 x2 x3)) -∗ K ⟨⟩))
      ⊢ wp frame (wpE (defs₀ (F := F)) Variants.none c none) E (cc0__df_kernel i arg2 harg2 arg3 harg3 arg4 harg4 arg5 harg5 arg6 harg6) K := by
  simp only [cc0__df_kernel_eq_skeleton]; unfold cc0__df_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (stores_cover _ _ _ _)

/-! ## The pipeline's proof data -/

/-- The proof data of the pipeline on core `c`: the arrays as the region finds them; after the body at point `t` each
    input's buffer at its block and the output's at `leftInOut` of the four input blocks; the invariant the scoped rest and
    the generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => leftInOut (blockAt m c 0 t) (blockAt m c 1 t) (blockAt m c 2 t) (blockAt m c 3 t)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = entry m c (Pipeline.arrRef spec0 w) := by
  dsimp only [dats]

/-- What the body leaves, window by window. -/
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) :
    (dats m 0 c).after 4 t = leftInOut (blockAt m c 0 t) (blockAt m c 1 t) (blockAt m c 2 t) (blockAt m c 3 t) := by dsimp only [dats]

/-- Each input's current staging buffer holds its block at every point. -/
theorem before0 (c : Dev nD) (t : Fin cfg0.N) (d) : (dats m 0 c).before 0 t d = blockAt m c 0 t :=
  before0_of m (dats m 0 c) (A_eq m c 0) (after0 m c) t d
theorem before1 (c : Dev nD) (t : Fin cfg0.N) (d) : (dats m 0 c).before 1 t d = blockAt m c 1 t :=
  before1_of m (dats m 0 c) (A_eq m c 1) (after1 m c) t d
theorem before2 (c : Dev nD) (t : Fin cfg0.N) (d) : (dats m 0 c).before 2 t d = blockAt m c 2 t :=
  before2_of m (dats m 0 c) (A_eq m c 2) (after2 m c) t d
theorem before3 (c : Dev nD) (t : Fin cfg0.N) (d) : (dats m 0 c).before 3 t d = blockAt m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the two lines
    after the region leave it. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := hmain m Variants.none) (hA := A_eq m) (hΦ := fun _ _ => rfl)

/-- The frame: @main runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Region

end
-- ==== Proof.RegionIdeal.lean ====
/-
  The one pallas_call of the kernel's program, as a region the launch library can run.

  The program transposes the spectrum to channel-first, builds per time-tile the 404-row haloed taps, launches one
  pipeline over the grid 16 × 5 (batch × time-tile) and transposes the result back. Here: the buffers' contents when
  the region is entered (the host lines before it folded over the launch memory); what the body leaves in the output
  window's staging buffer at a point, as a function of the four input blocks — four stores that tile the block
  [1, 2, 400, 481]: the two blended low bands (bins 0–95, real and imaginary) and the two copied high bands (bins
  96–480) —; the body's triple; the proof data; the run of @main to the library's frame post; and the frame claim:
  the three argument arrays end as launched. Everything is stated at any float instance.
-/
import proofs.«131335_j30185030156318_1_alg».proof.Proof.Gen.KernelIdeal.Launch
import proofs.«131335_j30185030156318_1_alg».proof.Proof.Gen.KernelIdeal.Skeleton
import proofs.«131335_j30185030156318_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the eighteen host lines before it (the layout transposes,
    the low-band slice, the causal zero padding, the five haloed tiles and their concatenation) applied to the launch
    memory. -/
abbrev entry0 (c : Dev nD) : Valuation τ sig (Elt F) := StableHlo.after (List.flatten [hostOps0, hostOps0_1, hostOps0_2]) (fun b => m (c, b))
/-- The same read at a TensorCore reference. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three host stretches, the region, and the two host lines after it: it reduces to the region continued
    by the later lines. -/
theorem hmain (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The two lines after the region touch the pipeline's arrays and the other unscoped buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, the transposed result and its rank-5 form. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton] <;> exact StableHlo.devRef_ne_of_ne (by decide)

/-- No host operation before the region writes `main_arg0`: the region finds it as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host operation before the region writes `main_arg1`: the region finds it as launched. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
/-- No host operation before the region writes `main_arg2`: the region finds it as launched. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))

/-- No host operation after the region writes `main_arg0`, and `main_arg0` is no array the region writes back: it ends as launched. -/
theorem exit_main_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
      repeat' apply And.intro
      all_goals exact StableHlo.devRef_ne_of_ne (by decide))),
    Pipeline.withArrays_of_ne _ c (entry0 m c) _ main_arg0 (by exact (by decide : ∀ w, Pipeline.arrRef spec0 w ≠ main_arg0))]
  exact entry_main_arg0 m c
/-- No host operation after the region writes `main_arg1`, and `main_arg1` is no array the region writes back: it ends as launched. -/
theorem exit_main_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
      repeat' apply And.intro
      all_goals exact StableHlo.devRef_ne_of_ne (by decide))),
    Pipeline.withArrays_of_ne _ c (entry0 m c) _ main_arg1 (by exact (by decide : ∀ w, Pipeline.arrRef spec0 w ≠ main_arg1))]
  exact entry_main_arg1 m c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, fetched there or not, for any proof data whose
    array is the region-entry contents and whose body leaves the block in place. -/
theorem before0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not, for any proof data whose
    array is the region-entry contents and whose body leaves the block in place. -/
theorem before1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not, for any proof data whose
    array is the region-entry contents and whose body leaves the block in place. -/
theorem before2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not, for any proof data whose
    array is the region-entry contents and whose body leaves the block in place. -/
theorem before3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a frame run's -/

/-- For any proof data whose arrays are the region-entry contents, a run to the library's frame post read at the three
    argument arrays — the spectrum and the coefficients are staged by no window (their transposes are), so the post's
    second clause and the two lemmas above give them back; alpha is window 3's array, an input the pipeline never
    writes — is the frame claim's post. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (exit_main_arg0 m dats c),
      ((h c).2 main_arg1 (Pipeline.mem_restRefs_of main_arg1 (by decide) (by decide))).trans (exit_main_arg1 m dats c),
      ((h c).1 3).trans (((dats 0 c).arrAt_in 3 rfl _).trans ((hA c 3).trans (entry_main_arg2 m c)))⟩) h

/-! ## The body's accesses -/

/-- The real and the imaginary plane of the haloed tap block [1, 2, 1, 404, 96]. -/
abbrev rTapRe : Rect S1x2x1x404x96 := Rect.unit (s := S1x2x1x404x96) ![0, 0, 0, 0, 0] S1x1x1x404x96.size inb_S1x2x1x404x96_S1x1x1x404x96_0_0_0_0_0
abbrev rTapIm : Rect S1x2x1x404x96 := Rect.unit (s := S1x2x1x404x96) ![0, 1, 0, 0, 0] S1x1x1x404x96.size inb_S1x2x1x404x96_S1x1x1x404x96_0_1_0_0_0
/-- Tap `k`'s real and imaginary coefficient plane of the coefficient block [1, 2, 5, 400, 96]. -/
abbrev rCoefRe0 : Rect S1x2x5x400x96 := Rect.unit (s := S1x2x5x400x96) ![0, 0, 0, 0, 0] S1x1x1x400x96.size inb_S1x2x5x400x96_S1x1x1x400x96_0_0_0_0_0
abbrev rCoefIm0 : Rect S1x2x5x400x96 := Rect.unit (s := S1x2x5x400x96) ![0, 1, 0, 0, 0] S1x1x1x400x96.size inb_S1x2x5x400x96_S1x1x1x400x96_0_1_0_0_0
abbrev rCoefRe1 : Rect S1x2x5x400x96 := Rect.unit (s := S1x2x5x400x96) ![0, 0, 1, 0, 0] S1x1x1x400x96.size inb_S1x2x5x400x96_S1x1x1x400x96_0_0_1_0_0
abbrev rCoefIm1 : Rect S1x2x5x400x96 := Rect.unit (s := S1x2x5x400x96) ![0, 1, 1, 0, 0] S1x1x1x400x96.size inb_S1x2x5x400x96_S1x1x1x400x96_0_1_1_0_0
abbrev rCoefRe2 : Rect S1x2x5x400x96 := Rect.unit (s := S1x2x5x400x96) ![0, 0, 2, 0, 0] S1x1x1x400x96.size inb_S1x2x5x400x96_S1x1x1x400x96_0_0_2_0_0
abbrev rCoefIm2 : Rect S1x2x5x400x96 := Rect.unit (s := S1x2x5x400x96) ![0, 1, 2, 0, 0] S1x1x1x400x96.size inb_S1x2x5x400x96_S1x1x1x400x96_0_1_2_0_0
abbrev rCoefRe3 : Rect S1x2x5x400x96 := Rect.unit (s := S1x2x5x400x96) ![0, 0, 3, 0, 0] S1x1x1x400x96.size inb_S1x2x5x400x96_S1x1x1x400x96_0_0_3_0_0
abbrev rCoefIm3 : Rect S1x2x5x400x96 := Rect.unit (s := S1x2x5x400x96) ![0, 1, 3, 0, 0] S1x1x1x400x96.size inb_S1x2x5x400x96_S1x1x1x400x96_0_1_3_0_0
abbrev rCoefRe4 : Rect S1x2x5x400x96 := Rect.unit (s := S1x2x5x400x96) ![0, 0, 4, 0, 0] S1x1x1x400x96.size inb_S1x2x5x400x96_S1x1x1x400x96_0_0_4_0_0
abbrev rCoefIm4 : Rect S1x2x5x400x96 := Rect.unit (s := S1x2x5x400x96) ![0, 1, 4, 0, 0] S1x1x1x400x96.size inb_S1x2x5x400x96_S1x1x1x400x96_0_1_4_0_0
/-- The blend weights [1, 400, 1], whole. -/
abbrev rAlpha : Rect S1x400x1 := Rect.unit (s := S1x400x1) ![0, 0, 0] S1x400x1.size inb_S1x400x1_S1x400x1_0_0_0
/-- In a spectrum block [1, 2, 400, 481]: the low band (bins 0–95) and the high band (bins 96–480) of each plane. -/
abbrev rLowRe : Rect S1x2x400x481 := Rect.unit (s := S1x2x400x481) ![0, 0, 0, 0] S1x1x400x96.size inb_S1x2x400x481_S1x1x400x96_0_0_0_0
abbrev rLowIm : Rect S1x2x400x481 := Rect.unit (s := S1x2x400x481) ![0, 1, 0, 0] S1x1x400x96.size inb_S1x2x400x481_S1x1x400x96_0_1_0_0
abbrev rHighRe : Rect S1x2x400x481 := Rect.unit (s := S1x2x400x481) ![0, 0, 0, 96] S1x1x400x385.size inb_S1x2x400x481_S1x1x400x385_0_0_0_96
abbrev rHighIm : Rect S1x2x400x481 := Rect.unit (s := S1x2x400x481) ![0, 1, 0, 96] S1x1x400x385.size inb_S1x2x400x481_S1x1x400x385_0_1_0_96

/-! ## What the body leaves in the output window's buffer -/

/-- The blended real low band, from the loaded planes: the five-tap accumulation of re·re − im·im, times alpha, plus the
    input's real low band times (1 − alpha). -/
def lowRe (tr ti : Vec F S1x1x1x404x96 .f32) (cr0 ci0 cr1 ci1 cr2 ci2 cr3 ci3 cr4 ci4 : Vec F S1x1x1x400x96 .f32)
    (al : Vec F S1x400x1 .f32) (xr : Vec F S1x1x400x96 .f32) : Vec F S1x1x400x96 .f32 :=
  k0_pay33 (k0_pay24 (k0_pay4 tr) (k0_pay5 ti) (k0_pay10 tr ti cr0 ci0) (k0_pay12 tr) (k0_pay13 ti) (k0_pay14 cr1) (k0_pay15 ci1) cr2 ci2 cr3 ci3)
    (k0_pay26 (k0_pay4 tr)) (k0_pay27 (k0_pay5 ti)) cr4 ci4 al xr

/-- The blended imaginary low band: the accumulation of im·re + re·im, times alpha, plus the input's imaginary low band
    times (1 − alpha). -/
def lowIm (tr ti : Vec F S1x1x1x404x96 .f32) (cr0 ci0 cr1 ci1 cr2 ci2 cr3 ci3 cr4 ci4 : Vec F S1x1x1x400x96 .f32)
    (al : Vec F S1x400x1 .f32) (xi : Vec F S1x1x400x96 .f32) : Vec F S1x1x400x96 .f32 :=
  k0_pay1 (k0_pay32 (k0_pay25 (k0_pay4 tr) (k0_pay5 ti) (k0_pay11 tr ti cr0 ci0) (k0_pay12 tr) (k0_pay13 ti) (k0_pay14 cr1) (k0_pay15 ci1) cr2 ci2 cr3 ci3)
    (k0_pay26 (k0_pay4 tr)) (k0_pay27 (k0_pay5 ti)) cr4 ci4 al xi)

/-- The output window's staging buffer after the body, from the four input blocks (spectrum, coefficients, haloed taps,
    alpha): its four stores as pieces, last first. -/
def leftInOut (x0 : Vec F S1x2x400x481 .f32) (x1 : Vec F S1x2x5x400x96 .f32) (x2 : Vec F S1x2x1x404x96 .f32) (x3 : Vec F S1x400x1 .f32) :
    Vec F S1x2x400x481 .f32 :=
  View.canon [⟨rHighIm, k0_pay3 (View.ld x0 rHighIm)⟩, ⟨rHighRe, k0_pay2 (View.ld x0 rHighRe)⟩,
    ⟨rLowIm, lowIm (View.ld x2 rTapRe) (View.ld x2 rTapIm) (View.ld x1 rCoefRe0) (View.ld x1 rCoefIm0) (View.ld x1 rCoefRe1) (View.ld x1 rCoefIm1)
      (View.ld x1 rCoefRe2) (View.ld x1 rCoefIm2) (View.ld x1 rCoefRe3) (View.ld x1 rCoefIm3) (View.ld x1 rCoefRe4) (View.ld x1 rCoefIm4)
      (View.ld x3 rAlpha) (View.ld x0 rLowIm)⟩,
    ⟨rLowRe, lowRe (View.ld x2 rTapRe) (View.ld x2 rTapIm) (View.ld x1 rCoefRe0) (View.ld x1 rCoefIm0) (View.ld x1 rCoefRe1) (View.ld x1 rCoefIm1)
      (View.ld x1 rCoefRe2) (View.ld x1 rCoefIm2) (View.ld x1 rCoefRe3) (View.ld x1 rCoefIm3) (View.ld x1 rCoefRe4) (View.ld x1 rCoefIm4)
      (View.ld x3 rAlpha) (View.ld x0 rLowRe)⟩]

/-- The four stores cover the block: cut along the bin axis into single-bin columns [1, 1, 400, 1] (96 and 385 have no
    common divisor), the pieces tile it. -/
theorem stores_cover (p0 p1 : Vec F S1x1x400x385 .f32) (p2 p3 : Vec F S1x1x400x96 .f32) (y : S1x2x400x481.Idx) :
    ∃ pc ∈ ([⟨rHighIm, p0⟩, ⟨rHighRe, p1⟩, ⟨rLowIm, p2⟩, ⟨rLowRe, p3⟩] : List (View.Piece (Elt F) S1x2x400x481 .f32)), y ∈ pc.1.set :=
  View.cover_of_tiledBy [⟨rHighIm, p0⟩, ⟨rHighRe, p1⟩, ⟨rLowIm, p2⟩, ⟨rLowRe, p3⟩] ![1, 1, 400, 1] (by sl_kernel_rfl) y

/-! ## The body's triple -/

set_option maxHeartbeats 4000000 in
/-- The kernel body on whole staging memrefs, the inputs' at read contents and the output's at anything, runs to the
    continuation holding the inputs' as they were and the output's at `leftInOut` of the inputs' (the body also loads the
    output buffer before each store; nothing it stores depends on what it finds there). -/
theorem sound_kernel (c : Dev nD) (E : Set ℕ) (i : grid0.Coords) (arg2 : Memref sig .tc .vmem S1x2x400x481 .f32) (harg2 : arg2.IsWhole) (arg3 : Memref sig .tc .vmem S1x2x5x400x96 .f32) (harg3 : arg3.IsWhole) (arg4 : Memref sig .tc .vmem S1x2x1x404x96 .f32) (harg4 : arg4.IsWhole) (arg5 : Memref sig .tc .vmem S1x400x1 .f32) (harg5 : arg5.IsWhole) (arg6 : Memref sig .tc .vmem S1x2x400x481 .f32) (harg6 : arg6.IsWhole)
    (x0 : Vec F S1x2x400x481 .f32) (x1 : Vec F S1x2x5x400x96 .f32) (x2 : Vec F S1x2x1x404x96 .f32) (x3 : Vec F S1x400x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (leftInOut x0 x1 x2 x3)) -∗ K ⟨⟩))
      ⊢ wp frame (wpE (defs₀ (F := F)) Variants.none c none) E (cc0__df_kernel i arg2 harg2 arg3 harg3 arg4 harg4 arg5 harg5 arg6 harg6) K := by
  simp only [cc0__df_kernel_eq_skeleton]; unfold cc0__df_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (stores_cover _ _ _ _)

/-! ## The pipeline's proof data -/

/-- The proof data of the pipeline on core `c`: the arrays as the region finds them; after the body at point `t` each
    input's buffer at its block and the output's at `leftInOut` of the four input blocks; the invariant the scoped rest and
    the generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => leftInOut (blockAt m c 0 t) (blockAt m c 1 t) (blockAt m c 2 t) (blockAt m c 3 t)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = entry m c (Pipeline.arrRef spec0 w) := by
  dsimp only [dats]

/-- What the body leaves, window by window. -/
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) :
    (dats m 0 c).after 4 t = leftInOut (blockAt m c 0 t) (blockAt m c 1 t) (blockAt m c 2 t) (blockAt m c 3 t) := by dsimp only [dats]

/-- Each input's current staging buffer holds its block at every point. -/
theorem before0 (c : Dev nD) (t : Fin cfg0.N) (d) : (dats m 0 c).before 0 t d = blockAt m c 0 t :=
  before0_of m (dats m 0 c) (A_eq m c 0) (after0 m c) t d
theorem before1 (c : Dev nD) (t : Fin cfg0.N) (d) : (dats m 0 c).before 1 t d = blockAt m c 1 t :=
  before1_of m (dats m 0 c) (A_eq m c 1) (after1 m c) t d
theorem before2 (c : Dev nD) (t : Fin cfg0.N) (d) : (dats m 0 c).before 2 t d = blockAt m c 2 t :=
  before2_of m (dats m 0 c) (A_eq m c 2) (after2 m c) t d
theorem before3 (c : Dev nD) (t : Fin cfg0.N) (d) : (dats m 0 c).before 3 t d = blockAt m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the two lines
    after the region leave it. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := hmain m Variants.none) (hA := A_eq m) (hΦ := fun _ _ => rfl)

/-- The frame: @main runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Region

end
-- ==== Proof.Spec.lean ====
/-
  The mathematics of the filter, with no program in sight.

  A spectrum x[b, 0, t, f, c] (c = 0 real, c = 1 imaginary), per-frame coefficients cf[b, t, k, n, c] of an order-5
  causal complex FIR on the first 96 bins, and a blend weight a[b, t, 0]. Padded four frames deep with the value z, the
  low band's tap k at frame t is the padded sample t + k. The filtered sample is the sum over the five taps of the
  complex product tap · coefficient, started from the word o; the result is  acc · a + x · (one − a)  on bins 0–95 and x
  itself on bins 96–480. The kernel adds the ten real products one after the other (subtracting the im·im ones); the
  reference sums the five per-tap differences. Both are the same sum, re-bracketed.

  The same expression is stated at three sizes: over one grid point's blocks, over the channel-first arrays the
  pipeline works on, and over the argument arrays.
-/
import Idealize.ShloMosaic.PureOps.Ideal
import Idealize.ShloMosaic.Lib.ValueIdx

noncomputable section

open scoped BigOperators

namespace Cert.FirBlend

open Idealize.ShloMosaic Idealize.ShloMosaic.ValueIdx

/-! ## Shapes -/

/-- The spectrum and the result: [batch, 1, frame, bin, re/im]. -/
abbrev SpecS : Shape := ⟨5, ![16, 1, 2000, 481, 2]⟩
/-- The coefficients: [batch, frame, tap, bin, re/im]. -/
abbrev CoefS : Shape := ⟨5, ![16, 2000, 5, 96, 2]⟩
/-- The blend weights: [batch, frame, 1]. -/
abbrev AlphaS : Shape := ⟨3, ![16, 2000, 1]⟩
/-- Channel-first spectrum: [batch, re/im, frame, bin]. -/
abbrev ChanS : Shape := ⟨4, ![16, 2, 2000, 481]⟩
/-- Channel-first coefficients: [batch, re/im, tap, frame, bin]. -/
abbrev CoefT : Shape := ⟨5, ![16, 2, 5, 2000, 96]⟩
/-- The haloed taps, one 404-frame stretch per 400-frame tile: [batch, re/im, tile, frame in stretch, bin]. -/
abbrev HaloS : Shape := ⟨5, ![16, 2, 5, 404, 96]⟩
/-- One grid point's blocks. -/
abbrev ChanB : Shape := ⟨4, ![1, 2, 400, 481]⟩
abbrev CoefB : Shape := ⟨5, ![1, 2, 5, 400, 96]⟩
abbrev HaloB : Shape := ⟨5, ![1, 2, 1, 404, 96]⟩
abbrev AlphaB : Shape := ⟨3, ![1, 400, 1]⟩

/-! ## The literals, never evaluated: both programs print the same words -/

/-- The accumulators' starting word and the reduction's initial value. -/
abbrev zeroLit : EReal := Ideal.ofBits .f32 0x00000000#32
/-- The one of `1 − a`. -/
abbrev oneLit : EReal := Ideal.ofBits .f32 0x3F800000#32

/-- The padding value: the integer zero converted to a float (both programs pad with the same word). -/
abbrev padLit : EReal := FloatOps.sitofp (F := Ideal) .f32 (0#32 : BitVec 32)

/-! ## One output sample from its twenty-two inputs -/

/-- The real accumulator as the kernel builds it: from `o`, per tap add re·re, then subtract im·im. -/
def chainRe (o : EReal) (wr wi cr ci : Fin 5 → EReal) : EReal :=
  ((((((((((o + wr 0 * cr 0) - wi 0 * ci 0) + wr 1 * cr 1) - wi 1 * ci 1) + wr 2 * cr 2) - wi 2 * ci 2)
    + wr 3 * cr 3) - wi 3 * ci 3) + wr 4 * cr 4) - wi 4 * ci 4)

/-- The imaginary accumulator as the kernel builds it: from `o`, per tap add im·re, then add re·im. -/
def chainIm (o : EReal) (wr wi cr ci : Fin 5 → EReal) : EReal :=
  ((((((((((o + wi 0 * cr 0) + wr 0 * ci 0) + wi 1 * cr 1) + wr 1 * ci 1) + wi 2 * cr 2) + wr 2 * ci 2)
    + wi 3 * cr 3) + wr 3 * ci 3) + wi 4 * cr 4) + wr 4 * ci 4)

/-- The real part as the reference sums it: `o` plus the five per-tap differences. -/
def sumRe (o : EReal) (wr wi cr ci : Fin 5 → EReal) : EReal := o + ∑ k : Fin 5, (wr k * cr k - wi k * ci k)

/-- The imaginary part as the reference sums it. -/
def sumIm (o : EReal) (wr wi cr ci : Fin 5 → EReal) : EReal := o + ∑ k : Fin 5, (wi k * cr k + wr k * ci k)

/-- The blend of a filtered sample with the input sample. -/
def blend (acc a xv : EReal) : EReal := acc * a + xv * (oneLit - a)

/-- The kernel's blended sample of plane `ch`. -/
def mixK (ch : Fin 2) (wr wi cr ci : Fin 5 → EReal) (a xv : EReal) : EReal :=
  blend (if ch.val = 0 then chainRe zeroLit wr wi cr ci else chainIm zeroLit wr wi cr ci) a xv

/-- The reference's blended sample of plane `ch`. -/
def mixR (ch : Fin 2) (wr wi cr ci : Fin 5 → EReal) (a xv : EReal) : EReal :=
  blend (if ch.val = 0 then sumRe zeroLit wr wi cr ci else sumIm zeroLit wr wi cr ci) a xv

/-! ## Over one grid point's blocks -/

/-- What a grid point leaves in the output block, from its four input blocks: blended on bins 0–95, copied above. -/
def blockOut (x0 : ChanB.Idx → EReal) (x1 : CoefB.Idx → EReal) (x2 : HaloB.Idx → EReal) (x3 : AlphaB.Idx → EReal)
    (ch : Fin 2) (r : Fin 400) (f : Fin 481) : EReal :=
  if h : f.val < 96 then
    mixK ch (fun k => x2 (ix5 0 0 0 ⟨r.val + k.val, by omega⟩ ⟨f.val, h⟩)) (fun k => x2 (ix5 0 1 0 ⟨r.val + k.val, by omega⟩ ⟨f.val, h⟩))
      (fun k => x1 (ix5 0 0 k r ⟨f.val, h⟩)) (fun k => x1 (ix5 0 1 k r ⟨f.val, h⟩)) (x3 (ix3 0 r 0)) (x0 (ix4 0 ch r f))
  else x0 (ix4 0 ch r f)

/-! ## Over the channel-first arrays -/

/-- What the pipeline leaves in the channel-first result, from the four arrays its windows stage: frame `t` lies in tile
    `t / 400` at row `t % 400`, and its tap `k` is row `t % 400 + k` of that tile's haloed stretch. -/
def regionOut (a1 : ChanS.Idx → EReal) (a2 : CoefT.Idx → EReal) (a15 : HaloS.Idx → EReal) (aal : AlphaS.Idx → EReal)
    (b : Fin 16) (ch : Fin 2) (t : Fin 2000) (f : Fin 481) : EReal :=
  if h : f.val < 96 then
    mixK ch (fun k => a15 (ix5 b 0 ⟨t.val / 400, by omega⟩ ⟨t.val % 400 + k.val, by omega⟩ ⟨f.val, h⟩))
      (fun k => a15 (ix5 b 1 ⟨t.val / 400, by omega⟩ ⟨t.val % 400 + k.val, by omega⟩ ⟨f.val, h⟩))
      (fun k => a2 (ix5 b 0 k t ⟨f.val, h⟩)) (fun k => a2 (ix5 b 1 k t ⟨f.val, h⟩)) (aal (ix3 b t 0)) (a1 (ix4 b ch t f))
  else a1 (ix4 b ch t f)

/-! ## Over the argument arrays -/

/-- Sample `s` of the low band padded four frames deep with `z`. -/
def padded (x : SpecS.Idx → EReal) (z : EReal) (b : Fin 16) (ch : Fin 2) (s : Fin 2004) (n : Fin 96) : EReal :=
  if h : 4 ≤ s.val then x (ix5 b 0 ⟨s.val - 4, by omega⟩ ⟨n.val, by omega⟩ ch) else z

/-- The channel-first spectrum. -/
def chanFirst (x : SpecS.Idx → EReal) : ChanS.Idx → EReal := fun j => x (ix5 (j 0) 0 (j 2) (j 3) (j 1))
/-- The channel-first coefficients. -/
def coefFirst (cf : CoefS.Idx → EReal) : CoefT.Idx → EReal := fun j => cf (ix5 (j 0) (j 3) (j 2) (j 4) (j 1))
/-- The haloed taps: stretch `j` is padded samples 400 j … 400 j + 403. -/
def halo (x : SpecS.Idx → EReal) (z : EReal) : HaloS.Idx → EReal :=
  fun j => padded x z (j 0) (j 1) ⟨400 * (j 2).val + (j 3).val, by have := (j 2).isLt; have := (j 3).isLt; simp only [Matrix.cons_val] at *; omega⟩ (j 4)

/-- The four arguments of a sample's taps: the padded samples and the coefficients of frame `t`, bin `n`. -/
def tapRe (x : SpecS.Idx → EReal) (z : EReal) (b : Fin 16) (t : Fin 2000) (n : Fin 96) : Fin 5 → EReal :=
  fun k => padded x z b 0 ⟨t.val + k.val, by omega⟩ n
def tapIm (x : SpecS.Idx → EReal) (z : EReal) (b : Fin 16) (t : Fin 2000) (n : Fin 96) : Fin 5 → EReal :=
  fun k => padded x z b 1 ⟨t.val + k.val, by omega⟩ n
def coefRe (cf : CoefS.Idx → EReal) (b : Fin 16) (t : Fin 2000) (n : Fin 96) : Fin 5 → EReal := fun k => cf (ix5 b t k n 0)
def coefIm (cf : CoefS.Idx → EReal) (b : Fin 16) (t : Fin 2000) (n : Fin 96) : Fin 5 → EReal := fun k => cf (ix5 b t k n 1)

/-- The kernel's result at [b, 0, t, f, ch]. -/
def resultK (x : SpecS.Idx → EReal) (cf : CoefS.Idx → EReal) (al : AlphaS.Idx → EReal) (z : EReal)
    (b : Fin 16) (t : Fin 2000) (f : Fin 481) (ch : Fin 2) : EReal :=
  if h : f.val < 96 then
    mixK ch (tapRe x z b t ⟨f.val, h⟩) (tapIm x z b t ⟨f.val, h⟩) (coefRe cf b t ⟨f.val, h⟩) (coefIm cf b t ⟨f.val, h⟩)
      (al (ix3 b t 0)) (x (ix5 b 0 t f ch))
  else x (ix5 b 0 t f ch)

/-- The reference's result at [b, 0, t, f, ch]. -/
def resultR (x : SpecS.Idx → EReal) (cf : CoefS.Idx → EReal) (al : AlphaS.Idx → EReal) (z : EReal)
    (b : Fin 16) (t : Fin 2000) (f : Fin 481) (ch : Fin 2) : EReal :=
  if h : f.val < 96 then
    mixR ch (tapRe x z b t ⟨f.val, h⟩) (tapIm x z b t ⟨f.val, h⟩) (coefRe cf b t ⟨f.val, h⟩) (coefIm cf b t ⟨f.val, h⟩)
      (al (ix3 b t 0)) (x (ix5 b 0 t f ch))
  else x (ix5 b 0 t f ch)

/-- The two results as arrays. -/
def specK (x : SpecS.Idx → EReal) (cf : CoefS.Idx → EReal) (al : AlphaS.Idx → EReal) (z : EReal) : SpecS.Idx → EReal :=
  fun i => resultK x cf al z (i 0) (i 2) (i 3) (i 4)
def specR (x : SpecS.Idx → EReal) (cf : CoefS.Idx → EReal) (al : AlphaS.Idx → EReal) (z : EReal) : SpecS.Idx → EReal :=
  fun i => resultR x cf al z (i 0) (i 2) (i 3) (i 4)

/-- The channel-first result taken back to the argument layout. -/
def lastAgain (y : Fin 16 → Fin 2 → Fin 2000 → Fin 481 → EReal) : SpecS.Idx → EReal := fun i => y (i 0) (i 4) (i 2) (i 3)

end Cert.FirBlend

end
-- ==== Proof.BlockValue.lean ====
/-
  What one grid point leaves in the output block, read at an index: on bins 0–95 the blended sample of the five taps,
  above them the input sample.
-/
import proofs.«131335_j30185030156318_1_alg».proof.Proof.RegionIdeal
import proofs.«131335_j30185030156318_1_alg».proof.Proof.Spec
import Idealize.ShloMosaic.Lib.ValueIdx
import Idealize.ShloMosaic.Lib.ValueLayout
import Idealize.ShloMosaic.Lib.Pipeline.Value

noncomputable section

open scoped BigOperators

namespace Cert.KernelIdeal.BlockValue

open Idealize.ShloMosaic Idealize.ShloMosaic.TcCoe Idealize.ShloMosaic.ValueIdx Idealize.SL.Sem
open Cert.KernelIdeal Cert.KernelIdeal.Gen Cert.KernelIdeal.Region

/-! ## A load through a unit-stride rectangle, and the rectangle's placement, at coordinates

An element of the rectangle with corner `off` sits in the parent at `off` plus its own coordinates. -/

section Coordinates
variable {α : Type}

/-- Rank 3: the load at `(a0, a1, a2)` is the parent at `(b0, b1, b2)`, each `b = off + a`. -/
private theorem ld3 {Val : EltTy → Type} {e : EltTy} {n0 n1 n2 m0 m1 m2 : ℕ} (X : (⟨3, ![n0, n1, n2]⟩ : Shape).Idx → Val e) (off : Fin 3 → ℕ)
    (inb : ∀ a, off a + (![m0, m1, m2] : Fin 3 → ℕ) a ≤ (⟨3, ![n0, n1, n2]⟩ : Shape).size a)
    (a0 : Fin m0) (a1 : Fin m1) (a2 : Fin m2) (b0 : Fin n0) (b1 : Fin n1) (b2 : Fin n2)
    (h0 : off 0 + a0.val = b0.val) (h1 : off 1 + a1.val = b1.val) (h2 : off 2 + a2.val = b2.val) :
    View.ld X (Rect.unit (s := ⟨3, ![n0, n1, n2]⟩) off ![m0, m1, m2] inb) (ix3 a0 a1 a2) = X (ix3 b0 b1 b2) :=
  congrArg X (funext fun a => Fin.ext (by
    match a with
    | ⟨0, _⟩ => show off 0 + 1 * a0.val = b0.val; omega
    | ⟨1, _⟩ => show off 1 + 1 * a1.val = b1.val; omega
    | ⟨2, _⟩ => show off 2 + 1 * a2.val = b2.val; omega))

/-- Rank 4. -/
private theorem ld4 {Val : EltTy → Type} {e : EltTy} {n0 n1 n2 n3 m0 m1 m2 m3 : ℕ} (X : (⟨4, ![n0, n1, n2, n3]⟩ : Shape).Idx → Val e) (off : Fin 4 → ℕ)
    (inb : ∀ a, off a + (![m0, m1, m2, m3] : Fin 4 → ℕ) a ≤ (⟨4, ![n0, n1, n2, n3]⟩ : Shape).size a)
    (a0 : Fin m0) (a1 : Fin m1) (a2 : Fin m2) (a3 : Fin m3) (b0 : Fin n0) (b1 : Fin n1) (b2 : Fin n2) (b3 : Fin n3)
    (h0 : off 0 + a0.val = b0.val) (h1 : off 1 + a1.val = b1.val) (h2 : off 2 + a2.val = b2.val) (h3 : off 3 + a3.val = b3.val) :
    View.ld X (Rect.unit (s := ⟨4, ![n0, n1, n2, n3]⟩) off ![m0, m1, m2, m3] inb) (ix4 a0 a1 a2 a3) = X (ix4 b0 b1 b2 b3) :=
  congrArg X (funext fun a => Fin.ext (by
    match a with
    | ⟨0, _⟩ => show off 0 + 1 * a0.val = b0.val; omega
    | ⟨1, _⟩ => show off 1 + 1 * a1.val = b1.val; omega
    | ⟨2, _⟩ => show off 2 + 1 * a2.val = b2.val; omega
    | ⟨3, _⟩ => show off 3 + 1 * a3.val = b3.val; omega))

/-- Rank 5. -/
private theorem ld5 {Val : EltTy → Type} {e : EltTy} {n0 n1 n2 n3 n4 m0 m1 m2 m3 m4 : ℕ} (X : (⟨5, ![n0, n1, n2, n3, n4]⟩ : Shape).Idx → Val e) (off : Fin 5 → ℕ)
    (inb : ∀ a, off a + (![m0, m1, m2, m3, m4] : Fin 5 → ℕ) a ≤ (⟨5, ![n0, n1, n2, n3, n4]⟩ : Shape).size a)
    (a0 : Fin m0) (a1 : Fin m1) (a2 : Fin m2) (a3 : Fin m3) (a4 : Fin m4)
    (b0 : Fin n0) (b1 : Fin n1) (b2 : Fin n2) (b3 : Fin n3) (b4 : Fin n4)
    (h0 : off 0 + a0.val = b0.val) (h1 : off 1 + a1.val = b1.val) (h2 : off 2 + a2.val = b2.val) (h3 : off 3 + a3.val = b3.val)
    (h4 : off 4 + a4.val = b4.val) :
    View.ld X (Rect.unit (s := ⟨5, ![n0, n1, n2, n3, n4]⟩) off ![m0, m1, m2, m3, m4] inb) (ix5 a0 a1 a2 a3 a4) = X (ix5 b0 b1 b2 b3 b4) :=
  congrArg X (funext fun a => Fin.ext (by
    match a with
    | ⟨0, _⟩ => show off 0 + 1 * a0.val = b0.val; omega
    | ⟨1, _⟩ => show off 1 + 1 * a1.val = b1.val; omega
    | ⟨2, _⟩ => show off 2 + 1 * a2.val = b2.val; omega
    | ⟨3, _⟩ => show off 3 + 1 * a3.val = b3.val; omega
    | ⟨4, _⟩ => show off 4 + 1 * a4.val = b4.val; omega))

/-- The rectangle's element `(a0, a1, a2, a3)` placed in a rank-4 parent is `(b0, b1, b2, b3)`, each `b = off + a`. -/
private theorem emb4 {n0 n1 n2 n3 m0 m1 m2 m3 : ℕ} (off : Fin 4 → ℕ)
    (inb : ∀ a, off a + (![m0, m1, m2, m3] : Fin 4 → ℕ) a ≤ (⟨4, ![n0, n1, n2, n3]⟩ : Shape).size a)
    (a0 : Fin m0) (a1 : Fin m1) (a2 : Fin m2) (a3 : Fin m3) (b0 : Fin n0) (b1 : Fin n1) (b2 : Fin n2) (b3 : Fin n3)
    (h0 : off 0 + a0.val = b0.val) (h1 : off 1 + a1.val = b1.val) (h2 : off 2 + a2.val = b2.val) (h3 : off 3 + a3.val = b3.val) :
    (Rect.unit (s := ⟨4, ![n0, n1, n2, n3]⟩) off ![m0, m1, m2, m3] inb).emb (ix4 a0 a1 a2 a3) = ix4 b0 b1 b2 b3 :=
  funext fun a => Fin.ext (by
    match a with
    | ⟨0, _⟩ => show off 0 + 1 * a0.val = b0.val; omega
    | ⟨1, _⟩ => show off 1 + 1 * a1.val = b1.val; omega
    | ⟨2, _⟩ => show off 2 + 1 * a2.val = b2.val; omega
    | ⟨3, _⟩ => show off 3 + 1 * a3.val = b3.val; omega)

/-- An index `(b0, b1, b2, b3)` with one coordinate outside the rectangle's range on its axis is not in the rectangle. -/
private theorem not_mem4 {n0 n1 n2 n3 : ℕ} (off size : Fin 4 → ℕ)
    (inb : ∀ a, off a + size a ≤ (⟨4, ![n0, n1, n2, n3]⟩ : Shape).size a)
    (b0 : Fin n0) (b1 : Fin n1) (b2 : Fin n2) (b3 : Fin n3)
    (h : b1.val < off 1 ∨ off 1 + size 1 ≤ b1.val ∨ b3.val < off 3 ∨ off 3 + size 3 ≤ b3.val) :
    ix4 b0 b1 b2 b3 ∉ (Rect.unit (s := ⟨4, ![n0, n1, n2, n3]⟩) off size inb).set := fun hm => by
  have h1 : off 1 ≤ b1.val ∧ b1.val < off 1 + size 1 := (Rect.mem_set_unit.mp hm) 1
  have h3 : off 3 ≤ b3.val ∧ b3.val < off 3 + size 3 := (Rect.mem_set_unit.mp hm) 3
  omega

/-! ## Shape casts that drop or add leading unit axes; a column broadcast along the rows -/

/-- `[1, 1, 1, a, b]` cast to `[a, b]` reads, at `(i, j)`, the operand at `(0, 0, 0, i, j)`. -/
private theorem cast_111ab_ab {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show ((((0 * 1 + 0) * 1 + 0) * a + i.val) * b + j.val) = i.val * b + j.val
    simp only [Nat.zero_mul, Nat.zero_add, Nat.mul_one, Nat.add_zero])

/-- `[1, 1, a, b]` cast to `[a, b]` reads, at `(i, j)`, the operand at `(0, 0, i, j)`. -/
private theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show (((0 * 1 + 0) * a + i.val) * b + j.val) = i.val * b + j.val
    simp only [Nat.zero_mul, Nat.zero_add])

/-- `[a, b]` cast to `[1, 1, a, b]` reads, at `(u, v, i, j)`, the operand at `(i, j)`. -/
private theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = (((u.val * 1 + v.val) * a + i.val) * b + j.val)
    rw [hu, hv]
    simp only [Nat.zero_mul, Nat.zero_add])

/-- `[1, a, 1]` cast to `[a, 1]` reads, at `(i, u)`, the operand at `(0, i, u)`. -/
private theorem cast_1a1_a1 {a : ℕ} (x : (⟨3, ![1, a, 1]⟩ : Shape).Idx → α)
    (h : (⟨3, ![1, a, 1]⟩ : Shape).ShapeCasts ⟨2, ![a, 1]⟩) (i : Fin a) (u : Fin 1) :
    shapeCast ⟨2, ![a, 1]⟩ x h (ix2 i u) = x (ix3 (0 : Fin 1) i u) :=
  shapeCast_apply x h _ _ (by
    rw [Shape.rowMajor_val_three, Shape.rowMajor_val_two]
    show ((0 * a + i.val) * 1 + u.val) = i.val * 1 + u.val
    simp only [Nat.zero_mul, Nat.zero_add])

/-- A column `[a, 1]` broadcast to `[a, b]` reads, at `(p, c)`, the column's entry of row `p`. -/
private theorem bcast_a1_ab {a b : ℕ} (v : (⟨2, ![a, 1]⟩ : Shape).Idx → α) (h : (⟨2, ![a, 1]⟩ : Shape).Broadcasts ⟨2, ![a, b]⟩)
    (hb : a ≠ 1) (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg hb]
  | ⟨1, _⟩ => rfl

end Coordinates

/-! ## Reading the stores' canonical contents at coordinates

Which store holds an index is read off two coordinates: the plane axis and the bin axis. -/

section Canon
variable {Val : EltTy → Type} [∀ e, Nonempty (Val e)] {e : EltTy}

/-- An index outside the last store's rectangle on the plane axis or on the bin axis reads the earlier stores. -/
private theorem canon_skip4 {n0 n1 n2 n3 : ℕ} (off size : Fin 4 → ℕ)
    (inb : ∀ a, off a + size a ≤ (⟨4, ![n0, n1, n2, n3]⟩ : Shape).size a)
    (w : (Rect.unit (s := ⟨4, ![n0, n1, n2, n3]⟩) off size inb).shape.Idx → Val e)
    (L : List (View.Piece Val ⟨4, ![n0, n1, n2, n3]⟩ e)) (b0 : Fin n0) (b1 : Fin n1) (b2 : Fin n2) (b3 : Fin n3)
    (h : b1.val < off 1 ∨ off 1 + size 1 ≤ b1.val ∨ b3.val < off 3 ∨ off 3 + size 3 ≤ b3.val) :
    View.canon (⟨Rect.unit (s := ⟨4, ![n0, n1, n2, n3]⟩) off size inb, w⟩ :: L) (ix4 b0 b1 b2 b3) = View.canon L (ix4 b0 b1 b2 b3) :=
  View.canon_cons_of_not_mem ⟨Rect.unit (s := ⟨4, ![n0, n1, n2, n3]⟩) off size inb, w⟩ L (not_mem4 off size inb b0 b1 b2 b3 h)

/-- An index `(b0, b1, b2, b3)` that is the last store's element `(a0, a1, a2, a3)` reads that store's payload there. -/
private theorem canon_hit4 {n0 n1 n2 n3 m0 m1 m2 m3 : ℕ} (off : Fin 4 → ℕ)
    (inb : ∀ a, off a + (![m0, m1, m2, m3] : Fin 4 → ℕ) a ≤ (⟨4, ![n0, n1, n2, n3]⟩ : Shape).size a)
    (w : (Rect.unit (s := ⟨4, ![n0, n1, n2, n3]⟩) off ![m0, m1, m2, m3] inb).shape.Idx → Val e)
    (L : List (View.Piece Val ⟨4, ![n0, n1, n2, n3]⟩ e))
    (a0 : Fin m0) (a1 : Fin m1) (a2 : Fin m2) (a3 : Fin m3) (b0 : Fin n0) (b1 : Fin n1) (b2 : Fin n2) (b3 : Fin n3)
    (h0 : off 0 + a0.val = b0.val) (h1 : off 1 + a1.val = b1.val) (h2 : off 2 + a2.val = b2.val) (h3 : off 3 + a3.val = b3.val) :
    View.canon (⟨Rect.unit (s := ⟨4, ![n0, n1, n2, n3]⟩) off ![m0, m1, m2, m3] inb, w⟩ :: L) (ix4 b0 b1 b2 b3) = w (ix4 a0 a1 a2 a3) := by
  rw [← emb4 off inb a0 a1 a2 a3 b0 b1 b2 b3 h0 h1 h2 h3]
  exact View.canon_cons_emb _ w L _

end Canon

/-! ## The payloads' leaves at an index -/

section Leaves

local notation "o₁" => (0 : Fin 1)
/-- Row `r + k` of a 404-row haloed plane: where tap `k` of frame `r` sits. -/
private abbrev row (r : Fin 400) (k : Fin 5) : Fin 404 := ⟨r.val + k.val, by omega⟩

/-- Tap `k` of a plane: cast to `[404, 96]` and cut from row `k`, it reads at `(r, g)` the plane's row `r + k`. -/
private theorem tapk (k : Fin 5) (t : Vec Ideal S1x1x1x404x96 .f32) (hs : S404x96.Slices ![k.val, 0] S400x96) (r : Fin 400) (g : Fin 96) :
    extractStridedSlice S400x96 ![k.val, 0] (shapeCast S404x96 t shapeCasts_S1x1x1x404x96_S404x96) hs (ix2 r g)
      = t (ix5 o₁ o₁ o₁ (row r k) g) :=
  (slice2_axis0_apply k.val _ hs r g (row r k) (Nat.add_comm _ _)).trans (cast_111ab_ab t _ _ g)

/-- A coefficient plane cast to `[400, 96]` reads at `(r, g)` the plane at `(0, 0, 0, r, g)`. -/
private theorem coefk (c : Vec Ideal S1x1x1x400x96 .f32) (r : Fin 400) (g : Fin 96) :
    shapeCast S400x96 c shapeCasts_S1x1x1x400x96_S400x96 (ix2 r g) = c (ix5 o₁ o₁ o₁ r g) :=
  cast_111ab_ab c _ r g

variable (tr ti : Vec Ideal S1x1x1x404x96 .f32) (c : Vec Ideal S1x1x1x400x96 .f32) (al : Vec Ideal S1x400x1 .f32)
  (r : Fin 400) (g : Fin 96)

/-! The five taps of the real and of the imaginary plane. -/
private theorem pay6_apply : k0_pay6 (F := Ideal) tr (ix2 r g) = tr (ix5 o₁ o₁ o₁ (row r 0) g) := tapk 0 tr slices_S404x96_o0_0_S400x96 r g
private theorem pay7_apply : k0_pay7 (F := Ideal) ti (ix2 r g) = ti (ix5 o₁ o₁ o₁ (row r 0) g) := tapk 0 ti slices_S404x96_o0_0_S400x96 r g
private theorem pay12_apply : k0_pay12 (F := Ideal) tr (ix2 r g) = tr (ix5 o₁ o₁ o₁ (row r 1) g) := tapk 1 tr slices_S404x96_o1_0_S400x96 r g
private theorem pay13_apply : k0_pay13 (F := Ideal) ti (ix2 r g) = ti (ix5 o₁ o₁ o₁ (row r 1) g) := tapk 1 ti slices_S404x96_o1_0_S400x96 r g
private theorem pay16_apply : k0_pay16 (F := Ideal) (k0_pay4 tr) (ix2 r g) = tr (ix5 o₁ o₁ o₁ (row r 2) g) := tapk 2 tr slices_S404x96_o2_0_S400x96 r g
private theorem pay17_apply : k0_pay17 (F := Ideal) (k0_pay5 ti) (ix2 r g) = ti (ix5 o₁ o₁ o₁ (row r 2) g) := tapk 2 ti slices_S404x96_o2_0_S400x96 r g
private theorem pay20_apply : k0_pay20 (F := Ideal) (k0_pay4 tr) (ix2 r g) = tr (ix5 o₁ o₁ o₁ (row r 3) g) := tapk 3 tr slices_S404x96_o3_0_S400x96 r g
private theorem pay21_apply : k0_pay21 (F := Ideal) (k0_pay5 ti) (ix2 r g) = ti (ix5 o₁ o₁ o₁ (row r 3) g) := tapk 3 ti slices_S404x96_o3_0_S400x96 r g
private theorem pay26_apply : k0_pay26 (F := Ideal) (k0_pay4 tr) (ix2 r g) = tr (ix5 o₁ o₁ o₁ (row r 4) g) := tapk 4 tr slices_S404x96_o4_0_S400x96 r g
private theorem pay27_apply : k0_pay27 (F := Ideal) (k0_pay5 ti) (ix2 r g) = ti (ix5 o₁ o₁ o₁ (row r 4) g) := tapk 4 ti slices_S404x96_o4_0_S400x96 r g

/-! The ten coefficient planes. -/
private theorem pay8_apply : k0_pay8 (F := Ideal) c (ix2 r g) = c (ix5 o₁ o₁ o₁ r g) := coefk c r g
private theorem pay9_apply : k0_pay9 (F := Ideal) c (ix2 r g) = c (ix5 o₁ o₁ o₁ r g) := coefk c r g
private theorem pay14_apply : k0_pay14 (F := Ideal) c (ix2 r g) = c (ix5 o₁ o₁ o₁ r g) := coefk c r g
private theorem pay15_apply : k0_pay15 (F := Ideal) c (ix2 r g) = c (ix5 o₁ o₁ o₁ r g) := coefk c r g
private theorem pay18_apply : k0_pay18 (F := Ideal) c (ix2 r g) = c (ix5 o₁ o₁ o₁ r g) := coefk c r g
private theorem pay19_apply : k0_pay19 (F := Ideal) c (ix2 r g) = c (ix5 o₁ o₁ o₁ r g) := coefk c r g
private theorem pay22_apply : k0_pay22 (F := Ideal) c (ix2 r g) = c (ix5 o₁ o₁ o₁ r g) := coefk c r g
private theorem pay23_apply : k0_pay23 (F := Ideal) c (ix2 r g) = c (ix5 o₁ o₁ o₁ r g) := coefk c r g
private theorem pay28_apply : k0_pay28 (F := Ideal) c (ix2 r g) = c (ix5 o₁ o₁ o₁ r g) := coefk c r g
private theorem pay29_apply : k0_pay29 (F := Ideal) c (ix2 r g) = c (ix5 o₁ o₁ o₁ r g) := coefk c r g

/-! The blend weight's column and its complement to one. -/
private theorem pay30_apply (u : Fin 1) : k0_pay30 (F := Ideal) al (ix2 r u) = al (ix3 o₁ r u) := cast_1a1_a1 al _ r u
private theorem pay31_apply (u : Fin 1) : k0_pay31 (F := Ideal) al (ix2 r u) = Cert.FirBlend.oneLit - al (ix3 o₁ r u) := by
  show Cert.FirBlend.oneLit - k0_pay30 (F := Ideal) al (ix2 r u) = _
  rw [pay30_apply]

/-- The weight column spread over the 96 bins reads the weight of row `r`. -/
private theorem weight_apply : broadcastTo S400x96 (k0_pay30 (F := Ideal) al) broadcasts_S400x1_S400x96 (ix2 r g) = al (ix3 o₁ r o₁) :=
  (bcast_a1_ab _ _ (by decide) r g).trans (pay30_apply al r o₁)
/-- Its complement spread the same way. -/
private theorem coweight_apply : broadcastTo S400x96 (k0_pay31 (F := Ideal) al) broadcasts_S400x1_S400x96 (ix2 r g)
    = Cert.FirBlend.oneLit - al (ix3 o₁ r o₁) :=
  (bcast_a1_ab _ _ (by decide) r g).trans (pay31_apply al r o₁)

/-! ## The accumulation, stage by stage -/

variable (cr0 ci0 cr1 ci1 cr2 ci2 cr3 ci3 cr4 ci4 : Vec Ideal S1x1x1x400x96 .f32)

/-- The real accumulator after tap 0: the starting word plus re·re minus im·im. -/
private theorem pay10_apply : k0_pay10 (F := Ideal) tr ti cr0 ci0 (ix2 r g)
    = (Cert.FirBlend.zeroLit + tr (ix5 o₁ o₁ o₁ (row r 0) g) * cr0 (ix5 o₁ o₁ o₁ r g))
      - ti (ix5 o₁ o₁ o₁ (row r 0) g) * ci0 (ix5 o₁ o₁ o₁ r g) := by
  show (Cert.FirBlend.zeroLit + k0_pay6 (F := Ideal) tr (ix2 r g) * k0_pay8 (F := Ideal) cr0 (ix2 r g))
      - k0_pay7 (F := Ideal) ti (ix2 r g) * k0_pay9 (F := Ideal) ci0 (ix2 r g) = _
  rw [pay6_apply, pay7_apply, pay8_apply, pay9_apply]

/-- The imaginary accumulator after tap 0: the starting word plus im·re plus re·im. -/
private theorem pay11_apply : k0_pay11 (F := Ideal) tr ti cr0 ci0 (ix2 r g)
    = (Cert.FirBlend.zeroLit + ti (ix5 o₁ o₁ o₁ (row r 0) g) * cr0 (ix5 o₁ o₁ o₁ r g))
      + tr (ix5 o₁ o₁ o₁ (row r 0) g) * ci0 (ix5 o₁ o₁ o₁ r g) := by
  show (Cert.FirBlend.zeroLit + k0_pay7 (F := Ideal) ti (ix2 r g) * k0_pay8 (F := Ideal) cr0 (ix2 r g))
      + k0_pay6 (F := Ideal) tr (ix2 r g) * k0_pay9 (F := Ideal) ci0 (ix2 r g) = _
  rw [pay6_apply, pay7_apply, pay8_apply, pay9_apply]

variable (v15 v19 v20 v21 v23 v25 v57 v61 : FVec Ideal S400x96 .f32) (xp : Vec Ideal S1x1x400x96 .f32)

/-- The real accumulator after taps 1, 2 and 3, from its value after tap 0 and tap 1's four planes. -/
private theorem pay24_apply : k0_pay24 (F := Ideal) (k0_pay4 tr) (k0_pay5 ti) v15 v20 v21 v23 v25 cr2 ci2 cr3 ci3 (ix2 r g)
    = (((((v15 (ix2 r g) + v20 (ix2 r g) * v23 (ix2 r g)) - v21 (ix2 r g) * v25 (ix2 r g))
        + tr (ix5 o₁ o₁ o₁ (row r 2) g) * cr2 (ix5 o₁ o₁ o₁ r g)) - ti (ix5 o₁ o₁ o₁ (row r 2) g) * ci2 (ix5 o₁ o₁ o₁ r g))
        + tr (ix5 o₁ o₁ o₁ (row r 3) g) * cr3 (ix5 o₁ o₁ o₁ r g)) - ti (ix5 o₁ o₁ o₁ (row r 3) g) * ci3 (ix5 o₁ o₁ o₁ r g) := by
  show (((((v15 (ix2 r g) + v20 (ix2 r g) * v23 (ix2 r g)) - v21 (ix2 r g) * v25 (ix2 r g))
        + k0_pay16 (F := Ideal) (k0_pay4 tr) (ix2 r g) * k0_pay18 (F := Ideal) cr2 (ix2 r g))
        - k0_pay17 (F := Ideal) (k0_pay5 ti) (ix2 r g) * k0_pay19 (F := Ideal) ci2 (ix2 r g))
        + k0_pay20 (F := Ideal) (k0_pay4 tr) (ix2 r g) * k0_pay22 (F := Ideal) cr3 (ix2 r g))
        - k0_pay21 (F := Ideal) (k0_pay5 ti) (ix2 r g) * k0_pay23 (F := Ideal) ci3 (ix2 r g) = _
  rw [pay16_apply, pay17_apply, pay18_apply, pay19_apply, pay20_apply, pay21_apply, pay22_apply, pay23_apply]

/-- The imaginary accumulator after taps 1, 2 and 3. -/
private theorem pay25_apply : k0_pay25 (F := Ideal) (k0_pay4 tr) (k0_pay5 ti) v19 v20 v21 v23 v25 cr2 ci2 cr3 ci3 (ix2 r g)
    = (((((v19 (ix2 r g) + v21 (ix2 r g) * v23 (ix2 r g)) + v20 (ix2 r g) * v25 (ix2 r g))
        + ti (ix5 o₁ o₁ o₁ (row r 2) g) * cr2 (ix5 o₁ o₁ o₁ r g)) + tr (ix5 o₁ o₁ o₁ (row r 2) g) * ci2 (ix5 o₁ o₁ o₁ r g))
        + ti (ix5 o₁ o₁ o₁ (row r 3) g) * cr3 (ix5 o₁ o₁ o₁ r g)) + tr (ix5 o₁ o₁ o₁ (row r 3) g) * ci3 (ix5 o₁ o₁ o₁ r g) := by
  show (((((v19 (ix2 r g) + v21 (ix2 r g) * v23 (ix2 r g)) + v20 (ix2 r g) * v25 (ix2 r g))
        + k0_pay17 (F := Ideal) (k0_pay5 ti) (ix2 r g) * k0_pay18 (F := Ideal) cr2 (ix2 r g))
        + k0_pay16 (F := Ideal) (k0_pay4 tr) (ix2 r g) * k0_pay19 (F := Ideal) ci2 (ix2 r g))
        + k0_pay21 (F := Ideal) (k0_pay5 ti) (ix2 r g) * k0_pay22 (F := Ideal) cr3 (ix2 r g))
        + k0_pay20 (F := Ideal) (k0_pay4 tr) (ix2 r g) * k0_pay23 (F := Ideal) ci3 (ix2 r g) = _
  rw [pay16_apply, pay17_apply, pay18_apply, pay19_apply, pay20_apply, pay21_apply, pay22_apply, pay23_apply]

/-- The input's low band cast to `[400, 96]`. -/
private theorem band_apply : shapeCast S400x96 xp shapeCasts_S1x1x400x96_S400x96 (ix2 r g) = xp (ix4 o₁ o₁ r g) :=
  cast_11ab_ab xp _ r g

/-- The stored real low band: tap 4 added, times the weight, plus the input times the weight's complement. -/
private theorem pay33_apply (u v : Fin 1) :
    k0_pay33 (F := Ideal) v57 (k0_pay26 (k0_pay4 tr)) (k0_pay27 (k0_pay5 ti)) cr4 ci4 al xp (ix4 u v r g)
    = ((v57 (ix2 r g) + tr (ix5 o₁ o₁ o₁ (row r 4) g) * cr4 (ix5 o₁ o₁ o₁ r g)) - ti (ix5 o₁ o₁ o₁ (row r 4) g) * ci4 (ix5 o₁ o₁ o₁ r g))
        * al (ix3 o₁ r o₁) + xp (ix4 o₁ o₁ r g) * (Cert.FirBlend.oneLit - al (ix3 o₁ r o₁)) := by
  unfold k0_pay33
  refine (cast_ab_11ab _ shapeCasts_S400x96_S1x1x400x96 u v r g).trans ?_
  show ((v57 (ix2 r g) + k0_pay26 (F := Ideal) (k0_pay4 tr) (ix2 r g) * k0_pay28 (F := Ideal) cr4 (ix2 r g))
        - k0_pay27 (F := Ideal) (k0_pay5 ti) (ix2 r g) * k0_pay29 (F := Ideal) ci4 (ix2 r g))
        * broadcastTo S400x96 (k0_pay30 (F := Ideal) al) broadcasts_S400x1_S400x96 (ix2 r g)
      + shapeCast S400x96 xp shapeCasts_S1x1x400x96_S400x96 (ix2 r g)
        * broadcastTo S400x96 (k0_pay31 (F := Ideal) al) broadcasts_S400x1_S400x96 (ix2 r g) = _
  rw [pay26_apply, pay27_apply, pay28_apply, pay29_apply, weight_apply, coweight_apply, band_apply]

/-- The stored imaginary low band. -/
private theorem pay32_apply (u v : Fin 1) :
    k0_pay1 (F := Ideal) (k0_pay32 v61 (k0_pay26 (k0_pay4 tr)) (k0_pay27 (k0_pay5 ti)) cr4 ci4 al xp) (ix4 u v r g)
    = ((v61 (ix2 r g) + ti (ix5 o₁ o₁ o₁ (row r 4) g) * cr4 (ix5 o₁ o₁ o₁ r g)) + tr (ix5 o₁ o₁ o₁ (row r 4) g) * ci4 (ix5 o₁ o₁ o₁ r g))
        * al (ix3 o₁ r o₁) + xp (ix4 o₁ o₁ r g) * (Cert.FirBlend.oneLit - al (ix3 o₁ r o₁)) := by
  unfold k0_pay1
  refine (cast_ab_11ab _ shapeCasts_S400x96_S1x1x400x96 u v r g).trans ?_
  show ((v61 (ix2 r g) + k0_pay27 (F := Ideal) (k0_pay5 ti) (ix2 r g) * k0_pay28 (F := Ideal) cr4 (ix2 r g))
        + k0_pay26 (F := Ideal) (k0_pay4 tr) (ix2 r g) * k0_pay29 (F := Ideal) ci4 (ix2 r g))
        * broadcastTo S400x96 (k0_pay30 (F := Ideal) al) broadcasts_S400x1_S400x96 (ix2 r g)
      + shapeCast S400x96 xp shapeCasts_S1x1x400x96_S400x96 (ix2 r g)
        * broadcastTo S400x96 (k0_pay31 (F := Ideal) al) broadcasts_S400x1_S400x96 (ix2 r g) = _
  rw [pay26_apply, pay27_apply, pay28_apply, pay29_apply, weight_apply, coweight_apply, band_apply]

/-! ## The two blended low bands at an index -/

/-- The real low band at `(0, 0, r, g)`: the blend of the real chain over the five taps with the input sample. -/
private theorem lowRe_apply (wr wi cr ci : Fin 5 → EReal) (a xv : EReal)
    (hwr : ∀ k : Fin 5, tr (ix5 o₁ o₁ o₁ (row r k) g) = wr k) (hwi : ∀ k : Fin 5, ti (ix5 o₁ o₁ o₁ (row r k) g) = wi k)
    (hr0 : cr0 (ix5 o₁ o₁ o₁ r g) = cr 0) (hi0 : ci0 (ix5 o₁ o₁ o₁ r g) = ci 0)
    (hr1 : cr1 (ix5 o₁ o₁ o₁ r g) = cr 1) (hi1 : ci1 (ix5 o₁ o₁ o₁ r g) = ci 1)
    (hr2 : cr2 (ix5 o₁ o₁ o₁ r g) = cr 2) (hi2 : ci2 (ix5 o₁ o₁ o₁ r g) = ci 2)
    (hr3 : cr3 (ix5 o₁ o₁ o₁ r g) = cr 3) (hi3 : ci3 (ix5 o₁ o₁ o₁ r g) = ci 3)
    (hr4 : cr4 (ix5 o₁ o₁ o₁ r g) = cr 4) (hi4 : ci4 (ix5 o₁ o₁ o₁ r g) = ci 4)
    (ha : al (ix3 o₁ r o₁) = a) (hx : xp (ix4 o₁ o₁ r g) = xv) :
    lowRe (F := Ideal) tr ti cr0 ci0 cr1 ci1 cr2 ci2 cr3 ci3 cr4 ci4 al xp (ix4 o₁ o₁ r g)
      = Cert.FirBlend.blend (Cert.FirBlend.chainRe Cert.FirBlend.zeroLit wr wi cr ci) a xv := by
  unfold lowRe
  rw [pay33_apply, pay24_apply, pay10_apply, pay12_apply, pay13_apply, pay14_apply, pay15_apply]
  unfold Cert.FirBlend.blend Cert.FirBlend.chainRe
  rw [← hwr 0, ← hwr 1, ← hwr 2, ← hwr 3, ← hwr 4, ← hwi 0, ← hwi 1, ← hwi 2, ← hwi 3, ← hwi 4,
    ← hr0, ← hi0, ← hr1, ← hi1, ← hr2, ← hi2, ← hr3, ← hi3, ← hr4, ← hi4, ← ha, ← hx]

/-- The imaginary low band at `(0, 0, r, g)`: the blend of the imaginary chain with the input sample. -/
private theorem lowIm_apply (wr wi cr ci : Fin 5 → EReal) (a xv : EReal)
    (hwr : ∀ k : Fin 5, tr (ix5 o₁ o₁ o₁ (row r k) g) = wr k) (hwi : ∀ k : Fin 5, ti (ix5 o₁ o₁ o₁ (row r k) g) = wi k)
    (hr0 : cr0 (ix5 o₁ o₁ o₁ r g) = cr 0) (hi0 : ci0 (ix5 o₁ o₁ o₁ r g) = ci 0)
    (hr1 : cr1 (ix5 o₁ o₁ o₁ r g) = cr 1) (hi1 : ci1 (ix5 o₁ o₁ o₁ r g) = ci 1)
    (hr2 : cr2 (ix5 o₁ o₁ o₁ r g) = cr 2) (hi2 : ci2 (ix5 o₁ o₁ o₁ r g) = ci 2)
    (hr3 : cr3 (ix5 o₁ o₁ o₁ r g) = cr 3) (hi3 : ci3 (ix5 o₁ o₁ o₁ r g) = ci 3)
    (hr4 : cr4 (ix5 o₁ o₁ o₁ r g) = cr 4) (hi4 : ci4 (ix5 o₁ o₁ o₁ r g) = ci 4)
    (ha : al (ix3 o₁ r o₁) = a) (hx : xp (ix4 o₁ o₁ r g) = xv) :
    lowIm (F := Ideal) tr ti cr0 ci0 cr1 ci1 cr2 ci2 cr3 ci3 cr4 ci4 al xp (ix4 o₁ o₁ r g)
      = Cert.FirBlend.blend (Cert.FirBlend.chainIm Cert.FirBlend.zeroLit wr wi cr ci) a xv := by
  unfold lowIm
  rw [pay32_apply, pay25_apply, pay11_apply, pay12_apply, pay13_apply, pay14_apply, pay15_apply]
  unfold Cert.FirBlend.blend Cert.FirBlend.chainIm
  rw [← hwr 0, ← hwr 1, ← hwr 2, ← hwr 3, ← hwr 4, ← hwi 0, ← hwi 1, ← hwi 2, ← hwi 3, ← hwi 4,
    ← hr0, ← hi0, ← hr1, ← hi1, ← hr2, ← hi2, ← hr3, ← hi3, ← hr4, ← hi4, ← ha, ← hx]

end Leaves

/-! ## The copied high bands -/

/-- A high band is stored as loaded: the cast to `[400, 385]` and back is the identity. -/
private theorem pay2_eq (v : Vec Ideal S1x1x400x385 .f32) : k0_pay2 (F := Ideal) v = v := shapeCast_shapeCast v _ _
private theorem pay3_eq (v : Vec Ideal S1x1x400x385 .f32) : k0_pay3 (F := Ideal) v = v := shapeCast_shapeCast v _ _

/-! ## The block -/

/-- The output block at [0, ch, r, f], from the four input blocks. -/
theorem leftInOut_apply (x0 : Vec Ideal S1x2x400x481 .f32) (x1 : Vec Ideal S1x2x5x400x96 .f32) (x2 : Vec Ideal S1x2x1x404x96 .f32)
    (x3 : Vec Ideal S1x400x1 .f32) (ch : Fin 2) (r : Fin 400) (f : Fin 481) :
    leftInOut (F := Ideal) x0 x1 x2 x3 (ix4 0 ch r f) = Cert.FirBlend.blockOut x0 x1 x2 x3 ch r f := by
  unfold leftInOut Cert.FirBlend.blockOut
  have hch : ch.val = 0 ∨ ch.val = 1 := by omega
  by_cases h : f.val < 96
  · -- bins 0–95: neither high band holds the index
    rw [dif_pos h]
    refine (canon_skip4 _ _ _ _ _ _ _ _ _ (Or.inr (Or.inr (Or.inl h)))).trans ?_
    refine (canon_skip4 _ _ _ _ _ _ _ _ _ (Or.inr (Or.inr (Or.inl h)))).trans ?_
    unfold Cert.FirBlend.mixK
    rcases hch with hc | hc
    · -- the real plane: the imaginary low band does not hold it, the real one does
      rw [if_pos hc]
      refine (canon_skip4 _ _ _ _ _ _ _ _ _ (Or.inl (by show ch.val < 1; omega))).trans ?_
      refine (canon_hit4 _ _ _ _ (0 : Fin 1) (0 : Fin 1) r ⟨f.val, h⟩ _ _ _ _ rfl (by show 0 + 0 = ch.val; omega) (Nat.zero_add _) (Nat.zero_add _)).trans ?_
      apply lowRe_apply
      · intro k; exact ld5 x2 _ _ _ _ _ _ _ _ _ _ _ _ rfl rfl rfl (Nat.zero_add _) (Nat.zero_add _)
      · intro k; exact ld5 x2 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld3 x3 _ _ _ _ _ _ _ _ rfl (Nat.zero_add _) rfl
      · exact ld4 x0 _ _ _ _ _ _ _ _ _ _ rfl (by show 0 + 0 = ch.val; omega) (Nat.zero_add _) (Nat.zero_add _)
    · -- the imaginary plane: the imaginary low band holds it
      rw [if_neg (show ¬ch.val = 0 by omega)]
      refine (canon_hit4 _ _ _ _ (0 : Fin 1) (0 : Fin 1) r ⟨f.val, h⟩ _ _ _ _ rfl (by show 1 + 0 = ch.val; omega) (Nat.zero_add _) (Nat.zero_add _)).trans ?_
      apply lowIm_apply
      · intro k; exact ld5 x2 _ _ _ _ _ _ _ _ _ _ _ _ rfl rfl rfl (Nat.zero_add _) (Nat.zero_add _)
      · intro k; exact ld5 x2 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld5 x1 _ _ _ _ _ _ _ _ _ _ _ _ rfl rfl rfl (Nat.zero_add _) (Nat.zero_add _)
      · exact ld3 x3 _ _ _ _ _ _ _ _ rfl (Nat.zero_add _) rfl
      · exact ld4 x0 _ _ _ _ _ _ _ _ _ _ rfl (by show 1 + 0 = ch.val; omega) (Nat.zero_add _) (Nat.zero_add _)
  · -- bins 96–480: the sample is copied
    rw [dif_neg h]
    rcases hch with hc | hc
    · -- the real plane: the imaginary high band does not hold it, the real one does
      refine (canon_skip4 _ _ _ _ _ _ _ _ _ (Or.inl (by show ch.val < 1; omega))).trans ?_
      refine (canon_hit4 _ _ _ _ (0 : Fin 1) (0 : Fin 1) r (⟨f.val - 96, by omega⟩ : Fin 385) _ _ _ _ rfl (by show 0 + 0 = ch.val; omega) (Nat.zero_add _)
        (by show 96 + (f.val - 96) = f.val; omega)).trans ?_
      rw [pay2_eq]
      exact ld4 x0 _ _ _ _ _ _ _ _ _ _ rfl (by show 0 + 0 = ch.val; omega) (Nat.zero_add _) (by show 96 + (f.val - 96) = f.val; omega)
    · -- the imaginary plane: the last store holds it
      refine (canon_hit4 _ _ _ _ (0 : Fin 1) (0 : Fin 1) r (⟨f.val - 96, by omega⟩ : Fin 385) _ _ _ _ rfl (by show 1 + 0 = ch.val; omega) (Nat.zero_add _)
        (by show 96 + (f.val - 96) = f.val; omega)).trans ?_
      rw [pay3_eq]
      exact ld4 x0 _ _ _ _ _ _ _ _ _ _ rfl (by show 1 + 0 = ch.val; omega) (Nat.zero_add _) (by show 96 + (f.val - 96) = f.val; omega)

end Cert.KernelIdeal.BlockValue

end
-- ==== Proof.ArrayValue.lean ====
/-
  What the pipeline leaves in the channel-first result array: the 80 grid points' blocks tile it, and block (b, j) is
  the blend of frames 400 j … 400 j + 399 of batch b.
-/
import proofs.«131335_j30185030156318_1_alg».proof.Proof.RegionIdeal
import proofs.«131335_j30185030156318_1_alg».proof.Proof.BlockValue
import proofs.«131335_j30185030156318_1_alg».proof.Proof.Spec
import Idealize.ShloMosaic.Lib.ValueIdx
import Idealize.ShloMosaic.Lib.Pipeline.Value

noncomputable section

open scoped BigOperators

namespace Cert.KernelIdeal.ArrayValue

open Idealize.ShloMosaic Idealize.ShloMosaic.TcCoe Idealize.ShloMosaic.ValueIdx Idealize.SL.Sem
open Cert.KernelIdeal Cert.KernelIdeal.Gen Cert.KernelIdeal.Region

variable (m : (ℓ : Loc nD τ sig) → Buf (Elt Ideal) ℓ)

/-- The channel-first result as one function of the four arrays the windows stage. -/
def outArray (c : Dev nD) : S16x2x2000x481.Idx → EReal :=
  fun j => Cert.FirBlend.regionOut (entry m c main_v1) (entry m c main_v2) (entry m c main_v15) (entry m c main_arg2) (j 0) (j 1) (j 2) (j 3)

/-- The printed index maps, decided once over the 80 grid points: every input window sits at the output window's batch
    and time-tile on the axes that move, at block 0 on the others; the output's batch index is at most 15 and its
    time-tile index at most 4. -/
theorem idx_facts : ∀ t : Fin cfg0.N,
    win0_0.index t (0 : Fin 4) = win0_4.index t (0 : Fin 4) ∧ win0_0.index t (1 : Fin 4) = 0
    ∧ win0_0.index t (2 : Fin 4) = win0_4.index t (2 : Fin 4) ∧ win0_0.index t (3 : Fin 4) = 0
    ∧ win0_1.index t (0 : Fin 5) = win0_4.index t (0 : Fin 4) ∧ win0_1.index t (1 : Fin 5) = 0
    ∧ win0_1.index t (2 : Fin 5) = 0 ∧ win0_1.index t (3 : Fin 5) = win0_4.index t (2 : Fin 4)
    ∧ win0_1.index t (4 : Fin 5) = 0
    ∧ win0_2.index t (0 : Fin 5) = win0_4.index t (0 : Fin 4) ∧ win0_2.index t (1 : Fin 5) = 0
    ∧ win0_2.index t (2 : Fin 5) = win0_4.index t (2 : Fin 4) ∧ win0_2.index t (3 : Fin 5) = 0
    ∧ win0_2.index t (4 : Fin 5) = 0
    ∧ win0_3.index t (0 : Fin 3) = win0_4.index t (0 : Fin 4) ∧ win0_3.index t (1 : Fin 3) = win0_4.index t (2 : Fin 4)
    ∧ win0_3.index t (2 : Fin 3) = 0
    ∧ win0_4.index t (1 : Fin 4) = 0 ∧ win0_4.index t (3 : Fin 4) = 0
    ∧ win0_4.index t (0 : Fin 4) ≤ 15 ∧ win0_4.index t (2 : Fin 4) ≤ 4 :=
  (by decide +kernel : ∀ t : Fin grid0.N, _)

/-- Every (batch, time-tile) pair is some grid point's. -/
theorem idx_onto : ∀ (q0 : Fin 16) (q2 : Fin 5), ∃ t : Fin cfg0.N,
    win0_4.index t (0 : Fin 4) = q0.val ∧ win0_4.index t (2 : Fin 4) = q2.val :=
  (by decide +kernel : ∀ (q0 : Fin 16) (q2 : Fin 5), ∃ t : Fin grid0.N,
    win0_4.index t (0 : Fin 4) = q0.val ∧ win0_4.index t (2 : Fin 4) = q2.val)

/-! ## Each input block as a stretch of its array

A block's element sits in the array, on each axis, at the block index times the block's extent plus its own coordinate. -/

/-- The spectrum block at a point, read at (0, ch, r, f), is the spectrum array at the point's batch, plane ch, frame
    400 · tile + r, bin f. -/
theorem block0_apply (c : Dev nD) (t : Fin cfg0.N) (ch : Fin 2) (r : Fin 400) (f : Fin 481) (b : Fin 16) (s : Fin 2000)
    (hb : b.val = win0_4.index t (0 : Fin 4)) (hs : s.val = win0_4.index t (2 : Fin 4) * 400 + r.val) :
    blockAt m c 0 t (ix4 0 ch r f) = (entry m c main_v1 : S16x2x2000x481.Idx → EReal) (ix4 b ch s f) := by
  obtain ⟨e0, e1, e2, e3, -⟩ := idx_facts t
  unfold blockAt
  rw [View.read_apply]
  show (entry m c main_v1 : S16x2x2000x481.Idx → EReal) (((cfg0.win 0).blk t).view.emb (ix4 0 ch r f)) = _
  refine congrArg _ (funext fun a => Fin.ext ?_)
  match a with
  | ⟨0, _⟩ => show win0_0.index t (0 : Fin 4) * 1 + 1 * 0 = b.val; omega
  | ⟨1, _⟩ => show win0_0.index t (1 : Fin 4) * 2 + 1 * ch.val = ch.val; omega
  | ⟨2, _⟩ => show win0_0.index t (2 : Fin 4) * 400 + 1 * r.val = s.val; omega
  | ⟨3, _⟩ => show win0_0.index t (3 : Fin 4) * 481 + 1 * f.val = f.val; omega

/-- The coefficient block at a point, read at (0, p, k, r, g), is the coefficient array at the point's batch, plane p,
    tap k, frame 400 · tile + r, bin g. -/
theorem block1_apply (c : Dev nD) (t : Fin cfg0.N) (p : Fin 2) (k : Fin 5) (r : Fin 400) (g : Fin 96) (b : Fin 16) (s : Fin 2000)
    (hb : b.val = win0_4.index t (0 : Fin 4)) (hs : s.val = win0_4.index t (2 : Fin 4) * 400 + r.val) :
    blockAt m c 1 t (ix5 0 p k r g) = (entry m c main_v2 : S16x2x5x2000x96.Idx → EReal) (ix5 b p k s g) := by
  obtain ⟨-, -, -, -, e0, e1, e2, e3, e4, -⟩ := idx_facts t
  unfold blockAt
  rw [View.read_apply]
  show (entry m c main_v2 : S16x2x5x2000x96.Idx → EReal) (((cfg0.win 1).blk t).view.emb (ix5 0 p k r g)) = _
  refine congrArg _ (funext fun a => Fin.ext ?_)
  match a with
  | ⟨0, _⟩ => show win0_1.index t (0 : Fin 5) * 1 + 1 * 0 = b.val; omega
  | ⟨1, _⟩ => show win0_1.index t (1 : Fin 5) * 2 + 1 * p.val = p.val; omega
  | ⟨2, _⟩ => show win0_1.index t (2 : Fin 5) * 5 + 1 * k.val = k.val; omega
  | ⟨3, _⟩ => show win0_1.index t (3 : Fin 5) * 400 + 1 * r.val = s.val; omega
  | ⟨4, _⟩ => show win0_1.index t (4 : Fin 5) * 96 + 1 * g.val = g.val; omega

/-- The haloed tap block at a point, read at (0, p, 0, q, g), is the haloed array at the point's batch, plane p, the
    point's tile, row q of the stretch, bin g. -/
theorem block2_apply (c : Dev nD) (t : Fin cfg0.N) (p : Fin 2) (q : Fin 404) (g : Fin 96) (b : Fin 16) (j : Fin 5) (q' : Fin 404)
    (hb : b.val = win0_4.index t (0 : Fin 4)) (hj : j.val = win0_4.index t (2 : Fin 4)) (hq : q'.val = q.val) :
    blockAt m c 2 t (ix5 0 p 0 q g) = (entry m c main_v15 : S16x2x5x404x96.Idx → EReal) (ix5 b p j q' g) := by
  obtain ⟨-, -, -, -, -, -, -, -, -, e0, e1, e2, e3, e4, -⟩ := idx_facts t
  unfold blockAt
  rw [View.read_apply]
  show (entry m c main_v15 : S16x2x5x404x96.Idx → EReal) (((cfg0.win 2).blk t).view.emb (ix5 0 p 0 q g)) = _
  refine congrArg _ (funext fun a => Fin.ext ?_)
  match a with
  | ⟨0, _⟩ => show win0_2.index t (0 : Fin 5) * 1 + 1 * 0 = b.val; omega
  | ⟨1, _⟩ => show win0_2.index t (1 : Fin 5) * 2 + 1 * p.val = p.val; omega
  | ⟨2, _⟩ => show win0_2.index t (2 : Fin 5) * 1 + 1 * 0 = j.val; omega
  | ⟨3, _⟩ => show win0_2.index t (3 : Fin 5) * 404 + 1 * q.val = q'.val; omega
  | ⟨4, _⟩ => show win0_2.index t (4 : Fin 5) * 96 + 1 * g.val = g.val; omega

/-- The blend-weight block at a point, read at (0, r, 0), is the weight array at the point's batch, frame
    400 · tile + r. -/
theorem block3_apply (c : Dev nD) (t : Fin cfg0.N) (r : Fin 400) (b : Fin 16) (s : Fin 2000)
    (hb : b.val = win0_4.index t (0 : Fin 4)) (hs : s.val = win0_4.index t (2 : Fin 4) * 400 + r.val) :
    blockAt m c 3 t (ix3 0 r 0) = (entry m c main_arg2 : S16x2000x1.Idx → EReal) (ix3 b s 0) := by
  obtain ⟨-, -, -, -, -, -, -, -, -, -, -, -, -, -, e0, e1, e2, -⟩ := idx_facts t
  unfold blockAt
  rw [View.read_apply]
  show (entry m c main_arg2 : S16x2000x1.Idx → EReal) (((cfg0.win 3).blk t).view.emb (ix3 0 r 0)) = _
  refine congrArg _ (funext fun a => Fin.ext ?_)
  match a with
  | ⟨0, _⟩ => show win0_3.index t (0 : Fin 3) * 1 + 1 * 0 = b.val; omega
  | ⟨1, _⟩ => show win0_3.index t (1 : Fin 3) * 400 + 1 * r.val = s.val; omega
  | ⟨2, _⟩ => show win0_3.index t (2 : Fin 3) * 1 + 1 * 0 = 0; omega

/-! ## One point's block against the array -/

/-- The blended sample depends on its arguments only. -/
private theorem mixK_congr (ch : Fin 2) {wr wi cr ci wr' wi' cr' ci' : Fin 5 → EReal} {a xv a' xv' : EReal}
    (h1 : wr = wr') (h2 : wi = wi') (h3 : cr = cr') (h4 : ci = ci') (h5 : a = a') (h6 : xv = xv') :
    Cert.FirBlend.mixK ch wr wi cr ci a xv = Cert.FirBlend.mixK ch wr' wi' cr' ci' a' xv' := by
  subst h1 h2 h3 h4 h5 h6; rfl

/-- The block expression over the four input blocks of a point is the array expression over the four arrays at the
    point's batch and frame 400 · tile + r: the frame's tile is the point's, its row in the tile is r, and every block
    read is the array read at the block's place. -/
theorem blockOut_eq (c : Dev nD) (t : Fin cfg0.N) (ch : Fin 2) (r : Fin 400) (f : Fin 481) (b : Fin 16) (s : Fin 2000)
    (hb : b.val = win0_4.index t (0 : Fin 4)) (hs : s.val = win0_4.index t (2 : Fin 4) * 400 + r.val) :
    Cert.FirBlend.blockOut (blockAt m c 0 t) (blockAt m c 1 t) (blockAt m c 2 t) (blockAt m c 3 t) ch r f
      = Cert.FirBlend.regionOut (entry m c main_v1) (entry m c main_v2) (entry m c main_v15) (entry m c main_arg2) b ch s f := by
  unfold Cert.FirBlend.blockOut Cert.FirBlend.regionOut
  by_cases h : f.val < 96
  · rw [dif_pos h, dif_pos h]
    exact mixK_congr ch
      (funext fun k => block2_apply m c t 0 ⟨r.val + k.val, by omega⟩ ⟨f.val, h⟩ b ⟨s.val / 400, by omega⟩ ⟨s.val % 400 + k.val, by omega⟩ hb
        (by show s.val / 400 = _; omega) (by show s.val % 400 + k.val = r.val + k.val; omega))
      (funext fun k => block2_apply m c t 1 ⟨r.val + k.val, by omega⟩ ⟨f.val, h⟩ b ⟨s.val / 400, by omega⟩ ⟨s.val % 400 + k.val, by omega⟩ hb
        (by show s.val / 400 = _; omega) (by show s.val % 400 + k.val = r.val + k.val; omega))
      (funext fun k => block1_apply m c t 0 k r ⟨f.val, h⟩ b s hb hs)
      (funext fun k => block1_apply m c t 1 k r ⟨f.val, h⟩ b s hb hs)
      (block3_apply m c t r b s hb hs)
      (block0_apply m c t ch r f b s hb hs)
  · rw [dif_neg h, dif_neg h]
    exact block0_apply m c t ch r f b s hb hs

/-- An index of a block whose leading extent is one has leading coordinate zero. -/
private theorem eq_ix4_unit {n1 n2 n3 : ℕ} (y : (⟨4, ![1, n1, n2, n3]⟩ : Shape).Idx) : y = ix4 0 (y 1) (y 2) (y 3) :=
  funext fun a => match a with
    | ⟨0, _⟩ => Fin.ext (Nat.lt_one_iff.mp (y 0).isLt)
    | ⟨1, _⟩ => rfl
    | ⟨2, _⟩ => rfl
    | ⟨3, _⟩ => rfl

/-- What point `t` writes back, read at (0, ch, r, f), is the result array at the block's place. -/
theorem flushed_apply (c : Dev nD) (t : Fin cfg0.N) (ch : Fin 2) (r : Fin 400) (f : Fin 481) :
    (cfg0.win 4).cut (grid0.coords t) (leftInOut (F := Ideal) (blockAt m c 0 t) (blockAt m c 1 t) (blockAt m c 2 t) (blockAt m c 3 t)) (ix4 0 ch r f)
      = ((cfg0.win 4).blk t).view.read (Elt Ideal) (outArray m c) (ix4 0 ch r f) := by
  obtain ⟨-, -, -, -, -, -, -, -, -, -, -, -, -, -, -, -, -, e1, e3, l0, l2⟩ := idx_facts t
  show leftInOut (F := Ideal) (blockAt m c 0 t) (blockAt m c 1 t) (blockAt m c 2 t) (blockAt m c 3 t) (ix4 0 ch r f) = _
  rw [BlockValue.leftInOut_apply, View.read_apply]
  show _ = outArray m c (((cfg0.win 4).blk t).view.emb (ix4 0 ch r f))
  have he : ((cfg0.win 4).blk t).view.emb (ix4 0 ch r f)
      = (ix4 ⟨win0_4.index t (0 : Fin 4), by omega⟩ ch ⟨win0_4.index t (2 : Fin 4) * 400 + r.val, by omega⟩ f : S16x2x2000x481.Idx) :=
    funext fun a => Fin.ext (by
      match a with
      | ⟨0, _⟩ => show win0_4.index t (0 : Fin 4) * 1 + 1 * 0 = win0_4.index t (0 : Fin 4); omega
      | ⟨1, _⟩ => show win0_4.index t (1 : Fin 4) * 2 + 1 * ch.val = ch.val; omega
      | ⟨2, _⟩ => show win0_4.index t (2 : Fin 4) * 400 + 1 * r.val = win0_4.index t (2 : Fin 4) * 400 + r.val; omega
      | ⟨3, _⟩ => show win0_4.index t (3 : Fin 4) * 481 + 1 * f.val = f.val; omega)
  refine Eq.trans ?_ (congrArg (outArray m c) he).symm
  exact blockOut_eq m c t ch r f _ _ rfl rfl

/-- What point `t` writes back is block `t` of the result array. -/
theorem flushed_eq (c : Dev nD) (t : Fin cfg0.N) :
    (dats (F := Ideal) m 0 c).flushed 4 t = ((cfg0.win 4).blk t).view.read (Elt Ideal) (outArray m c) := by
  show (cfg0.win 4).cut (grid0.coords t) ((dats m 0 c).after 4 t) = _
  rw [after4]
  funext y
  rw [eq_ix4_unit (n1 := 2) (n2 := 400) (n3 := 481) y]
  exact flushed_apply m c t (y 1) (y 2) (y 3)

/-! ## The blocks tile the array -/

/-- An index of the array is in point `t`'s block iff each coordinate is in the block's range on its axis. -/
theorem mem_blk (t : Fin cfg0.N) (i : S16x2x2000x481.Idx) :
    i ∈ ((cfg0.win 4).blk t).view.set ↔ ∀ a : Fin 4, win0_4.index t a * S1x2x400x481.size a ≤ (i a).val
      ∧ (i a).val < win0_4.index t a * S1x2x400x481.size a + S1x2x400x481.size a := by
  show i ∈ ((View.whole main_v16).slice (win0_4.rect t)).set ↔ _
  rw [View.set_slice_whole, Rect.mem_set_unit]
  exact Iff.rfl

/-- Frame `s` of batch `b` lies in the block of the point at batch `b`, time-tile `s / 400`. -/
theorem cover (i : S16x2x2000x481.Idx) :
    ∃ t : Fin cfg0.N, (cfg0.win 4).flush t = true ∧ i ∈ ((cfg0.win 4).blk t).view.set := by
  have hi0 : (i 0).val < 16 := (i 0).isLt
  have hi1 : (i 1).val < 2 := (i 1).isLt
  have hi2 : (i 2).val < 2000 := (i 2).isLt
  have hi3 : (i 3).val < 481 := (i 3).isLt
  obtain ⟨t, ht0, ht2⟩ := idx_onto ⟨(i 0).val, hi0⟩ ⟨(i 2).val / 400, by omega⟩
  have q0 : win0_4.index t (0 : Fin 4) = (i 0).val := ht0
  have q2 : win0_4.index t (2 : Fin 4) = (i 2).val / 400 := ht2
  obtain ⟨-, -, -, -, -, -, -, -, -, -, -, -, -, -, -, -, -, e1, e3, -, -⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 2 ≤ (i 1).val ∧ (i 1).val < win0_4.index t (1 : Fin 4) * 2 + 2; omega
  | ⟨2, _⟩ => show win0_4.index t (2 : Fin 4) * 400 ≤ (i 2).val ∧ (i 2).val < win0_4.index t (2 : Fin 4) * 400 + 400; omega
  | ⟨3, _⟩ => show win0_4.index t (3 : Fin 4) * 481 ≤ (i 3).val ∧ (i 3).val < win0_4.index t (3 : Fin 4) * 481 + 481; omega

/-- After the region the result array holds it. -/
theorem region_result (c : Dev nD) : (dats (F := Ideal) m 0 c).arrAt 4 cfg0.N = outArray m c :=
  (dats (F := Ideal) m 0 c).arrAt_eq_of_cover 4 (outArray m c) (fun t _ => flushed_eq m c t) cover

end Cert.KernelIdeal.ArrayValue

end
-- ==== Proof.EntryValue.lean ====
/-
  The arrays the pipeline's windows stage, as the host lines before the region compute them from the arguments: the
  channel-first spectrum, the channel-first coefficients, and the haloed taps (the low band padded four frames deep,
  cut into five overlapping 404-frame stretches).
-/
import proofs.«131335_j30185030156318_1_alg».proof.Proof.RegionIdeal
import proofs.«131335_j30185030156318_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

noncomputable section

open scoped BigOperators

namespace Cert.KernelIdeal.EntryValue

open Idealize.ShloMosaic Idealize.ShloMosaic.TcCoe Idealize.ShloMosaic.ValueIdx Idealize.SL.Sem
open Cert.KernelIdeal Cert.KernelIdeal.Gen Cert.KernelIdeal.Region

variable (m : (ℓ : Loc nD τ sig) → Buf (Elt Ideal) ℓ)

/-! ## The channel-first spectrum -/

/-- The transpose [0, 3, 1, 2] of the rank-4 reading of a spectrum, at coordinates: entry [b, ch, t, f] is the
    spectrum's [b, 0, t, f, ch] (the rank-4 reading only drops the unit axis: the two row-major positions agree). -/
private theorem chanFirst_read (x : S16x1x2000x481x2.Idx → EReal) (b : Fin 16) (ch : Fin 2) (t : Fin 2000) (f : Fin 481) :
    transpose S16x2x2000x481 [0, 3, 1, 2] (shapeCast S16x2000x481x2 x shapeCasts_S16x1x2000x481x2_S16x2000x481x2)
        transposes_S16x2000x481x2_S16x2x2000x481_0_3_1_2 (ix4 b ch t f) = x (ix5 b 0 t f ch) := by
  refine (transpose_apply [0, 3, 1, 2] _ transposes_S16x2000x481x2_S16x2x2000x481_0_3_1_2 (ix4 b ch t f) (ix4 b t f ch)
    (fun a => match a with | ⟨0, _⟩ => rfl | ⟨1, _⟩ => rfl | ⟨2, _⟩ => rfl | ⟨3, _⟩ => rfl)).trans ?_
  exact shapeCast_apply x shapeCasts_S16x1x2000x481x2_S16x2000x481x2 (ix4 b t f ch) (ix5 b 0 t f ch)
    (by rw [Shape.rowMajor_val_five, Shape.rowMajor_val_four]
        show (((b.val * 1 + 0) * 2000 + t.val) * 481 + f.val) * 2 + ch.val = ((b.val * 2000 + t.val) * 481 + f.val) * 2 + ch.val
        omega)

/-- The array the first host lines leave in `main_v1`, as one term over the launched spectrum. -/
private theorem chanFirst_term (c : Dev nD) :
    (entry (F := Ideal) m c main_v1 : S16x2x2000x481.Idx → EReal)
      = transpose S16x2x2000x481 [0, 3, 1, 2]
          (shapeCast S16x2000x481x2 (m ((c : Thread nD τ).loc main_arg0)) shapeCasts_S16x1x2000x481x2_S16x2000x481x2)
          transposes_S16x2000x481x2_S16x2x2000x481_0_3_1_2 := by
  dsimp only [entry, entry0]
  simp only [hostOps0, hostOps0_1, hostOps0_2, List.flatten_cons, List.flatten_nil, List.append_nil, List.cons_append, List.nil_append]
  after_results
  rfl

theorem entry_chanFirst (c : Dev nD) :
    (entry (F := Ideal) m c main_v1 : S16x2x2000x481.Idx → EReal) = Cert.FirBlend.chanFirst (m ((c : Thread nD τ).loc main_arg0)) := by
  rw [chanFirst_term m c]
  funext j
  obtain ⟨b, ch, t, f, rfl⟩ : ∃ (b : Fin 16) (ch : Fin 2) (t : Fin 2000) (f : Fin 481), j = ix4 b ch t f :=
    ⟨j 0, j 1, j 2, j 3, eq_ix4 j⟩
  exact chanFirst_read _ b ch t f

/-! ## The channel-first coefficients -/

/-- The transpose [0, 4, 2, 1, 3] of the coefficients, at coordinates: entry [b, ch, k, t, n] is the coefficients'
    [b, t, k, n, ch]. -/
private theorem coefFirst_read (cf : S16x2000x5x96x2.Idx → EReal) (b : Fin 16) (ch : Fin 2) (k : Fin 5) (t : Fin 2000) (n : Fin 96) :
    transpose S16x2x5x2000x96 [0, 4, 2, 1, 3] cf transposes_S16x2000x5x96x2_S16x2x5x2000x96_0_4_2_1_3 (ix5 b ch k t n)
      = cf (ix5 b t k n ch) :=
  transpose_apply [0, 4, 2, 1, 3] cf transposes_S16x2000x5x96x2_S16x2x5x2000x96_0_4_2_1_3 (ix5 b ch k t n) (ix5 b t k n ch)
    (fun a => match a with | ⟨0, _⟩ => rfl | ⟨1, _⟩ => rfl | ⟨2, _⟩ => rfl | ⟨3, _⟩ => rfl | ⟨4, _⟩ => rfl)

/-- The array the first host lines leave in `main_v2`, as one term over the launched coefficients. -/
private theorem coefFirst_term (c : Dev nD) :
    (entry (F := Ideal) m c main_v2 : S16x2x5x2000x96.Idx → EReal)
      = transpose S16x2x5x2000x96 [0, 4, 2, 1, 3] (m ((c : Thread nD τ).loc main_arg1))
          transposes_S16x2000x5x96x2_S16x2x5x2000x96_0_4_2_1_3 := by
  dsimp only [entry, entry0]
  simp only [hostOps0, hostOps0_1, hostOps0_2, List.flatten_cons, List.flatten_nil, List.append_nil, List.cons_append, List.nil_append]
  after_results

theorem entry_coefFirst (c : Dev nD) :
    (entry (F := Ideal) m c main_v2 : S16x2x5x2000x96.Idx → EReal) = Cert.FirBlend.coefFirst (m ((c : Thread nD τ).loc main_arg1)) := by
  rw [coefFirst_term m c]
  funext j
  obtain ⟨b, ch, k, t, n, rfl⟩ : ∃ (b : Fin 16) (ch : Fin 2) (k : Fin 5) (t : Fin 2000) (n : Fin 96), j = ix5 b ch k t n :=
    ⟨j 0, j 1, j 2, j 3, j 4, eq_ix5 j⟩
  exact coefFirst_read _ b ch k t n

/-! ## The haloed taps -/

/-- The low band of a channel-first spectrum padded four frames deep, on the frame axis, with the converted integer zero. -/
private def padTerm (x1 : S16x2x2000x481.Idx → EReal) : S16x2x2004x96.Idx → EReal :=
  pad S16x2x2004x96 ![0, 0, 4, 0] ![0, 0, 0, 0] ![0, 0, 0, 0]
    (extractStridedSlice S16x2x2000x96 ![0, 0, 0, 0] x1 slices_S16x2x2000x481_S16x2x2000x96_0_0_0_0)
    (sitofp (F := Ideal) .f32 (constantI S_ 32 0#32)) pads_S16x2x2000x96_S16x2x2004x96_000_000_400_000 h_S_

/-- One 404-frame stretch of a padded band, from frame `off 2` on, given a unit tile axis. -/
private def tile (p : S16x2x2004x96.Idx → EReal) (off : Fin 4 → Nat) (h : S16x2x2004x96.Slices off S16x2x404x96) :
    S16x2x1x404x96.Idx → EReal :=
  broadcastInDim S16x2x1x404x96 ![0, 1, 3, 4] bcast_S16x2x404x96_S16x2x1x404x96_0_1_3_4 (extractStridedSlice S16x2x404x96 off p h)

/-- The five stretches, from frames 0, 400, 800, 1200, 1600 of the padded band … -/
private def pieces (p : S16x2x2004x96.Idx → EReal) : List ((s : Shape) × (s.Idx → EReal)) :=
  [⟨S16x2x1x404x96, tile p ![0, 0, 0, 0] slices_S16x2x2004x96_S16x2x404x96_0_0_0_0⟩,
   ⟨S16x2x1x404x96, tile p ![0, 0, 400, 0] slices_S16x2x2004x96_S16x2x404x96_0_0_400_0⟩,
   ⟨S16x2x1x404x96, tile p ![0, 0, 800, 0] slices_S16x2x2004x96_S16x2x404x96_0_0_800_0⟩,
   ⟨S16x2x1x404x96, tile p ![0, 0, 1200, 0] slices_S16x2x2004x96_S16x2x404x96_0_0_1200_0⟩,
   ⟨S16x2x1x404x96, tile p ![0, 0, 1600, 0] slices_S16x2x2004x96_S16x2x404x96_0_0_1600_0⟩]

/-- … laid along the tile axis. -/
private def haloTerm (p : S16x2x2004x96.Idx → EReal) : S16x2x5x404x96.Idx → EReal :=
  concatenate S16x2x5x404x96 2 (pieces p)
    concatenates_S16x2x1x404x96_S16x2x1x404x96_S16x2x1x404x96_S16x2x1x404x96_S16x2x1x404x96_S16x2x5x404x96_d2

/-- What the first stretch of host lines leaves in the low band's buffer, from any contents. -/
private theorem stage0_v3 (W : Valuation τ sig (Elt Ideal)) :
    (StableHlo.after (hostOps0 (F := Ideal)) W (Proc.devRef .tc main_v3) : S16x2x2000x96.Idx → EReal)
      = extractStridedSlice S16x2x2000x96 ![0, 0, 0, 0]
          (transpose S16x2x2000x481 [0, 3, 1, 2]
            (shapeCast S16x2000x481x2 (W (Proc.devRef .tc main_arg0) : S16x1x2000x481x2.Idx → EReal) shapeCasts_S16x1x2000x481x2_S16x2000x481x2)
            transposes_S16x2000x481x2_S16x2x2000x481_0_3_1_2)
          slices_S16x2x2000x481_S16x2x2000x96_0_0_0_0 := by
  simp only [hostOps0]
  after_results
  rfl

/-- … and in the integer zero's. -/
private theorem stage0_c (W : Valuation τ sig (Elt Ideal)) :
    (StableHlo.after (hostOps0 (F := Ideal)) W (Proc.devRef .tc main_c) : S_.Idx → BitVec 32) = constantI S_ 32 0#32 := by
  simp only [hostOps0]
  after_results

/-- What the called padding function's two lines leave in the padded band's buffer, from any contents. -/
private theorem stage1_v4 (W : Valuation τ sig (Elt Ideal)) :
    (StableHlo.after (hostOps0_1 (F := Ideal)) W (Proc.devRef .tc main_v4) : S16x2x2004x96.Idx → EReal)
      = pad S16x2x2004x96 ![0, 0, 4, 0] ![0, 0, 0, 0] ![0, 0, 0, 0] (W (Proc.devRef .tc main_v3) : S16x2x2000x96.Idx → EReal)
          (sitofp (F := Ideal) .f32 (W (Proc.devRef .tc main_c) : S_.Idx → BitVec 32))
          pads_S16x2x2000x96_S16x2x2004x96_000_000_400_000 h_S_ := by
  simp only [hostOps0_1]
  after_results
  rfl

/-- A five-operand line's result at its own buffer, each operand's contents at its own reference. -/
private theorem nary5_result {x0 x1 x2 x3 x4 y : Ref sig .tc}
    (f : ((k : Fin 5) → ((![x0, x1, x2, x3, x4] : Fin 5 → Ref sig .tc) k).ty.Contents (Elt Ideal)) → y.ty.Contents (Elt Ideal)) (hxs hy)
    (W : Valuation τ sig (Elt Ideal)) :
    (StableHlo.nary (τ := τ) ![x0, x1, x2, x3, x4] y f hxs hy).result W (Proc.devRef .tc y)
      = f (Fin.cons (W (Proc.devRef .tc x0)) (Fin.cons (W (Proc.devRef .tc x1)) (Fin.cons (W (Proc.devRef .tc x2))
          (Fin.cons (W (Proc.devRef .tc x3)) (Fin.cons (W (Proc.devRef .tc x4)) (fun i => i.elim0)))))) := by
  rw [StableHlo.nary_result]; congr 1; funext k; fin_cases k <;> rfl

/-- What the last stretch of host lines leaves in the haloed taps' buffer, from any contents: the five stretches of
    the padded band's buffer. -/
private theorem stage2_v15 (W : Valuation τ sig (Elt Ideal)) :
    (StableHlo.after (hostOps0_2 (F := Ideal)) W (Proc.devRef .tc main_v15) : S16x2x5x404x96.Idx → EReal)
      = haloTerm (W (Proc.devRef .tc main_v4) : S16x2x2004x96.Idx → EReal) := by
  simp only [hostOps0_2, StableHlo.after_cons, StableHlo.after_nil]
  rw [nary5_result]
  repeat (first
    | rw [StableHlo.unary_result]
    | (rw [StableHlo.unary_result_ne]; rotate_left; decide))
  rfl

/-- A stretch at coordinates: frame `u` of the stretch from frame `o` on is frame `o + u` of the padded band. -/
private theorem tile_read (p : S16x2x2004x96.Idx → EReal) (o : Nat) (ho : o + 404 ≤ 2004)
    (h : S16x2x2004x96.Slices ![0, 0, o, 0] S16x2x404x96) (b : Fin 16) (ch : Fin 2) (u : Fin 404) (n : Fin 96) :
    tile p ![0, 0, o, 0] h (ix5 b ch 0 u n) = p (ix4 b ch ⟨o + u.val, by omega⟩ n) := by
  unfold tile
  refine (broadcastInDim_apply _ bcast_S16x2x404x96_S16x2x1x404x96_0_1_3_4 _ (ix5 b ch 0 u n) (ix4 b ch u n) (fun a => match a with
    | ⟨0, _⟩ => by show b.val = if (16 : Nat) = 1 then 0 else b.val; rw [if_neg (by decide)]
    | ⟨1, _⟩ => by show ch.val = if (2 : Nat) = 1 then 0 else ch.val; rw [if_neg (by decide)]
    | ⟨2, _⟩ => by show u.val = if (404 : Nat) = 1 then 0 else u.val; rw [if_neg (by decide)]
    | ⟨3, _⟩ => by show n.val = if (96 : Nat) = 1 then 0 else n.val; rw [if_neg (by decide)])).trans ?_
  exact extractStridedSlice_apply ![0, 0, o, 0] p h (ix4 b ch u n) (ix4 b ch ⟨o + u.val, by omega⟩ n) (fun a => match a with
    | ⟨0, _⟩ => by show b.val = 0 + b.val; omega
    | ⟨1, _⟩ => by show ch.val = 0 + ch.val; omega
    | ⟨2, _⟩ => by show o + u.val = o + u.val; rfl
    | ⟨3, _⟩ => by show n.val = 0 + n.val; omega)

/-- The five stretches at coordinates: frame `u` of stretch `j` is frame `400 j + u` of the padded band (the stretches
    have extent one along the tile axis: the tile coordinate names the stretch). -/
private theorem haloTerm_read (p : S16x2x2004x96.Idx → EReal) (b : Fin 16) (ch : Fin 2) (j : Fin 5) (u : Fin 404) (n : Fin 96) :
    haloTerm p (ix5 b ch j u n) = p (ix4 b ch ⟨400 * j.val + u.val, by omega⟩ n) := by
  unfold haloTerm
  match j with
  | ⟨0, _⟩ =>
    exact (concatenate_apply_piece (2 : Fin S16x2x5x404x96.rank) (pieces p)
      concatenates_S16x2x1x404x96_S16x2x1x404x96_S16x2x1x404x96_S16x2x1x404x96_S16x2x1x404x96_S16x2x5x404x96_d2
      (ix5 b ch 0 u n) 0 (by show (0 : Nat) < 5; omega) S16x2x1x404x96
      (tile p ![0, 0, 0, 0] slices_S16x2x2004x96_S16x2x404x96_0_0_0_0) rfl rfl 0 rfl
      (ix5 b ch 0 u n : S16x2x1x404x96.Idx)
      (fun a ha => match a, ha with
        | ⟨0, _⟩, _ => rfl | ⟨1, _⟩, _ => rfl | ⟨2, _⟩, ha => absurd rfl ha | ⟨3, _⟩, _ => rfl | ⟨4, _⟩, _ => rfl) rfl).trans
      (tile_read p 0 (by omega) _ b ch u n)
  | ⟨1, _⟩ =>
    exact (concatenate_apply_piece (2 : Fin S16x2x5x404x96.rank) (pieces p)
      concatenates_S16x2x1x404x96_S16x2x1x404x96_S16x2x1x404x96_S16x2x1x404x96_S16x2x1x404x96_S16x2x5x404x96_d2
      (ix5 b ch 1 u n) 1 (by show (1 : Nat) < 5; omega) S16x2x1x404x96
      (tile p ![0, 0, 400, 0] slices_S16x2x2004x96_S16x2x404x96_0_0_400_0) rfl rfl 1 rfl
      (ix5 b ch 0 u n : S16x2x1x404x96.Idx)
      (fun a ha => match a, ha with
        | ⟨0, _⟩, _ => rfl | ⟨1, _⟩, _ => rfl | ⟨2, _⟩, ha => absurd rfl ha | ⟨3, _⟩, _ => rfl | ⟨4, _⟩, _ => rfl) rfl).trans
      (tile_read p 400 (by omega) _ b ch u n)
  | ⟨2, _⟩ =>
    exact (concatenate_apply_piece (2 : Fin S16x2x5x404x96.rank) (pieces p)
      concatenates_S16x2x1x404x96_S16x2x1x404x96_S16x2x1x404x96_S16x2x1x404x96_S16x2x1x404x96_S16x2x5x404x96_d2
      (ix5 b ch 2 u n) 2 (by show (2 : Nat) < 5; omega) S16x2x1x404x96
      (tile p ![0, 0, 800, 0] slices_S16x2x2004x96_S16x2x404x96_0_0_800_0) rfl rfl 2 rfl
      (ix5 b ch 0 u n : S16x2x1x404x96.Idx)
      (fun a ha => match a, ha with
        | ⟨0, _⟩, _ => rfl | ⟨1, _⟩, _ => rfl | ⟨2, _⟩, ha => absurd rfl ha | ⟨3, _⟩, _ => rfl | ⟨4, _⟩, _ => rfl) rfl).trans
      (tile_read p 800 (by omega) _ b ch u n)
  | ⟨3, _⟩ =>
    exact (concatenate_apply_piece (2 : Fin S16x2x5x404x96.rank) (pieces p)
      concatenates_S16x2x1x404x96_S16x2x1x404x96_S16x2x1x404x96_S16x2x1x404x96_S16x2x1x404x96_S16x2x5x404x96_d2
      (ix5 b ch 3 u n) 3 (by show (3 : Nat) < 5; omega) S16x2x1x404x96
      (tile p ![0, 0, 1200, 0] slices_S16x2x2004x96_S16x2x404x96_0_0_1200_0) rfl rfl 3 rfl
      (ix5 b ch 0 u n : S16x2x1x404x96.Idx)
      (fun a ha => match a, ha with
        | ⟨0, _⟩, _ => rfl | ⟨1, _⟩, _ => rfl | ⟨2, _⟩, ha => absurd rfl ha | ⟨3, _⟩, _ => rfl | ⟨4, _⟩, _ => rfl) rfl).trans
      (tile_read p 1200 (by omega) _ b ch u n)
  | ⟨4, _⟩ =>
    exact (concatenate_apply_piece (2 : Fin S16x2x5x404x96.rank) (pieces p)
      concatenates_S16x2x1x404x96_S16x2x1x404x96_S16x2x1x404x96_S16x2x1x404x96_S16x2x1x404x96_S16x2x5x404x96_d2
      (ix5 b ch 4 u n) 4 (by show (4 : Nat) < 5; omega) S16x2x1x404x96
      (tile p ![0, 0, 1600, 0] slices_S16x2x2004x96_S16x2x404x96_0_0_1600_0) rfl rfl 4 rfl
      (ix5 b ch 0 u n : S16x2x1x404x96.Idx)
      (fun a ha => match a, ha with
        | ⟨0, _⟩, _ => rfl | ⟨1, _⟩, _ => rfl | ⟨2, _⟩, ha => absurd rfl ha | ⟨3, _⟩, _ => rfl | ⟨4, _⟩, _ => rfl) rfl).trans
      (tile_read p 1600 (by omega) _ b ch u n)

/-- The padded band at coordinates: at frame `s` from the fourth on the low band's frame `s − 4`, before it the padding
    value, the converted integer zero. -/
private theorem padTerm_read (x1 : S16x2x2000x481.Idx → EReal) (b : Fin 16) (ch : Fin 2) (s : Fin 2004) (n : Fin 96) :
    padTerm x1 (ix4 b ch s n)
      = if h : 4 ≤ s.val then x1 (ix4 b ch ⟨s.val - 4, by omega⟩ ⟨n.val, by omega⟩) else Cert.FirBlend.padLit := by
  unfold padTerm
  split
  · next h =>
    refine (pad_apply_of_inside _ _ _ _ _ pads_S16x2x2000x96_S16x2x2004x96_000_000_400_000 h_S_ (ix4 b ch s n)
      (ix4 b ch ⟨s.val - 4, by omega⟩ n) (fun a => match a with
        | ⟨0, _⟩ => by show b.val = 0 + b.val * (0 + 1); omega
        | ⟨1, _⟩ => by show ch.val = 0 + ch.val * (0 + 1); omega
        | ⟨2, _⟩ => by show s.val = 4 + (s.val - 4) * (0 + 1); omega
        | ⟨3, _⟩ => by show n.val = 0 + n.val * (0 + 1); omega)).trans ?_
    exact extractStridedSlice_apply ![0, 0, 0, 0] x1 slices_S16x2x2000x481_S16x2x2000x96_0_0_0_0
      (ix4 b ch ⟨s.val - 4, by omega⟩ n) (ix4 b ch ⟨s.val - 4, by omega⟩ ⟨n.val, by omega⟩) (fun a => match a with
        | ⟨0, _⟩ => by show b.val = 0 + b.val; omega
        | ⟨1, _⟩ => by show ch.val = 0 + ch.val; omega
        | ⟨2, _⟩ => by show s.val - 4 = 0 + (s.val - 4); omega
        | ⟨3, _⟩ => by show n.val = 0 + n.val; omega)
  · next h =>
    refine (pad_apply_of_not_inside _ _ _ _ _ pads_S16x2x2000x96_S16x2x2004x96_000_000_400_000 h_S_ (ix4 b ch s n)
      (2 : Fin 4) ?_).trans rfl
    show ¬(4 ≤ s.val ∧ (s.val - 4) % (0 + 1) = 0 ∧ (s.val - 4) / (0 + 1) < 2000)
    omega

/-- The haloed taps' term over a spectrum, at coordinates: the padded sample `400 j + u`. -/
private theorem halo_read (x : S16x1x2000x481x2.Idx → EReal) (b : Fin 16) (ch : Fin 2) (j : Fin 5) (u : Fin 404) (n : Fin 96) :
    haloTerm (padTerm (transpose S16x2x2000x481 [0, 3, 1, 2] (shapeCast S16x2000x481x2 x shapeCasts_S16x1x2000x481x2_S16x2000x481x2)
        transposes_S16x2000x481x2_S16x2x2000x481_0_3_1_2)) (ix5 b ch j u n)
      = Cert.FirBlend.padded x Cert.FirBlend.padLit b ch ⟨400 * j.val + u.val, by omega⟩ n := by
  rw [haloTerm_read, padTerm_read]
  unfold Cert.FirBlend.padded
  by_cases h : 4 ≤ 400 * j.val + u.val
  · rw [dif_pos h, dif_pos h]
    exact chanFirst_read x b ch _ _
  · rw [dif_neg h, dif_neg h]

/-- The array the host lines before the region leave in `main_v15`, as one term over the launched spectrum: the three
    stretches of lines one after the other. -/
private theorem halo_term (c : Dev nD) :
    (entry (F := Ideal) m c main_v15 : S16x2x5x404x96.Idx → EReal)
      = haloTerm (padTerm (transpose S16x2x2000x481 [0, 3, 1, 2]
          (shapeCast S16x2000x481x2 (m ((c : Thread nD τ).loc main_arg0)) shapeCasts_S16x1x2000x481x2_S16x2000x481x2)
          transposes_S16x2000x481x2_S16x2x2000x481_0_3_1_2)) := by
  dsimp only [entry, entry0]
  simp only [List.flatten_cons, List.flatten_nil, List.append_nil]
  rw [StableHlo.after_append, StableHlo.after_append, stage2_v15, stage1_v4, stage0_v3, stage0_c]
  rfl

theorem entry_halo (c : Dev nD) :
    (entry (F := Ideal) m c main_v15 : S16x2x5x404x96.Idx → EReal)
      = Cert.FirBlend.halo (m ((c : Thread nD τ).loc main_arg0)) Cert.FirBlend.padLit := by
  rw [halo_term m c]
  funext i
  obtain ⟨b, ch, j, u, n, rfl⟩ : ∃ (b : Fin 16) (ch : Fin 2) (j : Fin 5) (u : Fin 404) (n : Fin 96), i = ix5 b ch j u n :=
    ⟨i 0, i 1, i 2, i 3, i 4, eq_ix5 i⟩
  exact halo_read _ b ch j u n

end Cert.KernelIdeal.EntryValue

end
-- ==== Proof.ExitValue.lean ====
/-
  The program's result: the two host lines after the region transpose the channel-first result back to
  [batch, frame, bin, re/im] and give it the unit axis again.
-/
import proofs.«131335_j30185030156318_1_alg».proof.Proof.RegionIdeal
import proofs.«131335_j30185030156318_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.ExitValue

open Idealize.ShloMosaic Idealize.ShloMosaic.TcCoe Idealize.ShloMosaic.ValueIdx Idealize.SL.Sem
open Cert.KernelIdeal Cert.KernelIdeal.Gen Cert.KernelIdeal.Region

variable (m : (ℓ : Loc nD τ sig) → Buf (Elt Ideal) ℓ)

/-- The result buffer after the two lines, as the lines' operations applied to the array the region wrote back. -/
theorem exit_term (c : Dev nD) :
    Pipeline.afterTail₀ cfgs (dats (F := Ideal) m) 0 (entry0 m) [hostOps1] c main_v18
      = broadcastInDim S16x1x2000x481x2 ![0, 2, 3, 4] bcast_S16x2000x481x2_S16x1x2000x481x2_0_2_3_4
          (transpose S16x2000x481x2 [0, 2, 3, 1] ((dats (F := Ideal) m 0 c).arrAt 4 cfg0.N) transposes_S16x2x2000x481_S16x2000x481x2_0_2_3_1) := by
  unfold Pipeline.afterTail₀
  show StableHlo.after hostOps1 _ (Proc.devRef .tc main_v18) = _
  after_results
  rw [Pipeline.withArrays_arr spec0 launch0.win.arr_inj c _ _ 4]

/-- Entry [b, 0, t, f, ch] of the result is entry [b, ch, t, f] of the channel-first array. -/
theorem exit_result (c : Dev nD) :
    (Pipeline.afterTail₀ cfgs (dats (F := Ideal) m) 0 (entry0 m) [hostOps1] c main_v18 : S16x1x2000x481x2.Idx → EReal)
      = Cert.FirBlend.lastAgain (fun b ch t f => (dats (F := Ideal) m 0 c).arrAt 4 cfg0.N (ix4 b ch t f)) := by
  rw [exit_term]
  funext i
  unfold Cert.FirBlend.lastAgain
  rw [broadcastInDim_apply _ bcast_S16x2000x481x2_S16x1x2000x481x2_0_2_3_4 _ i (ix4 (i 0) (i 2) (i 3) (i 4))
    (fun a => by match a with | ⟨0, _⟩ => rfl | ⟨1, _⟩ => rfl | ⟨2, _⟩ => rfl | ⟨3, _⟩ => rfl)]
  exact transpose_apply _ _ transposes_S16x2x2000x481_S16x2000x481x2_0_2_3_1 (ix4 (i 0) (i 2) (i 3) (i 4)) (ix4 (i 0) (i 4) (i 2) (i 3))
    (fun b => by match b with | ⟨0, _⟩ => rfl | ⟨1, _⟩ => rfl | ⟨2, _⟩ => rfl | ⟨3, _⟩ => rfl)

end Cert.KernelIdeal.ExitValue

end
-- ==== Proof.SpecLaws.lean ====
/-
  Two laws of the specification. The channel-first arrays read back at a frame's tile and row are the argument arrays
  read at the frame: 400 (t / 400) + t % 400 = t. And the kernel's accumulation is the reference's sum: ten products
  added one after the other, or five differences summed, differ only in bracketing, which addition on the extended reals
  does not see (a − b is a + (−b) there).
-/
import proofs.«131335_j30185030156318_1_alg».proof.Proof.Spec
import Mathlib.Data.EReal.Basic
import Mathlib.Algebra.BigOperators.Fin
import Mathlib.Tactic.Abel

noncomputable section

open scoped BigOperators

namespace Cert.FirBlend

open Idealize.ShloMosaic Idealize.ShloMosaic.ValueIdx

/-! ## The sum, re-bracketed -/

/-- The real accumulator: the chain of additions and subtractions is the initial word plus the sum of the per-tap
    differences. Only associativity and commutativity of addition are used, so no finiteness is asked. -/
theorem chainRe_eq_sumRe (o : EReal) (wr wi cr ci : Fin 5 → EReal) : chainRe o wr wi cr ci = sumRe o wr wi cr ci := by
  unfold chainRe sumRe
  simp only [Fin.sum_univ_five, sub_eq_add_neg]
  ac_rfl

/-- The imaginary accumulator, likewise. -/
theorem chainIm_eq_sumIm (o : EReal) (wr wi cr ci : Fin 5 → EReal) : chainIm o wr wi cr ci = sumIm o wr wi cr ci := by
  unfold chainIm sumIm
  simp only [Fin.sum_univ_five]
  ac_rfl

/-- So the kernel's blended sample is the reference's. -/
theorem mixK_eq_mixR (ch : Fin 2) (wr wi cr ci : Fin 5 → EReal) (a xv : EReal) : mixK ch wr wi cr ci a xv = mixR ch wr wi cr ci a xv := by
  unfold mixK mixR
  rw [chainRe_eq_sumRe, chainIm_eq_sumIm]

theorem specK_eq_specR (x : SpecS.Idx → EReal) (cf : CoefS.Idx → EReal) (al : AlphaS.Idx → EReal) (z : EReal) :
    specK x cf al z = specR x cf al z := by
  funext i
  unfold specK specR resultK resultR
  split
  · exact mixK_eq_mixR _ _ _ _ _ _ _
  · rfl

/-! ## Tiles and rows -/

/-- Row `t % 400 + k` of tile `t / 400`'s haloed stretch is padded sample `t + k`. -/
theorem halo_tile (x : SpecS.Idx → EReal) (z : EReal) (b : Fin 16) (ch : Fin 2) (t : Fin 2000) (k : Fin 5) (n : Fin 96) :
    halo x z (ix5 b ch ⟨t.val / 400, by omega⟩ ⟨t.val % 400 + k.val, by omega⟩ n) = padded x z b ch ⟨t.val + k.val, by omega⟩ n := by
  unfold halo
  refine congrArg (fun s => padded x z b ch s n) (Fin.ext ?_)
  show 400 * (t.val / 400) + (t.val % 400 + k.val) = t.val + k.val
  have := Nat.div_add_mod t.val 400
  omega

/-- At explicit coordinates: the channel-first result over the channel-first arrays of the arguments is the kernel's
    result over the arguments. -/
theorem regionOut_resultK (x : SpecS.Idx → EReal) (cf : CoefS.Idx → EReal) (al : AlphaS.Idx → EReal) (z : EReal)
    (b : Fin 16) (ch : Fin 2) (t : Fin 2000) (f : Fin 481) :
    regionOut (chanFirst x) (coefFirst cf) (halo x z) al b ch t f = resultK x cf al z b t f ch := by
  unfold regionOut resultK
  split
  · rename_i h
    unfold tapRe tapIm coefRe coefIm
    simp only [halo_tile]
    rfl
  · rfl

theorem regionOut_args (x : SpecS.Idx → EReal) (cf : CoefS.Idx → EReal) (al : AlphaS.Idx → EReal) (z : EReal) :
    lastAgain (regionOut (chanFirst x) (coefFirst cf) (halo x z) al) = specK x cf al z := by
  funext i
  exact regionOut_resultK x cf al z (i 0) (i 4) (i 2) (i 3)

end Cert.FirBlend

end
-- ==== Proof.KernelValue.lean ====
/-
  The idealized kernel's run with its result named: from any memory, @main terminates with the result buffer at the
  kernel's specification of the three argument arrays, and the arguments as launched. The chain: the result buffer is
  what the two lines after the region make of the channel-first array; that array is the blend over the arrays the
  windows stage; those are the channel-first spectrum, the channel-first coefficients and the haloed taps of the
  arguments; and read back at a frame's tile and row they give the specification.
-/
import proofs.«131335_j30185030156318_1_alg».proof.Proof.RegionIdeal
import proofs.«131335_j30185030156318_1_alg».proof.Proof.ArrayValue
import proofs.«131335_j30185030156318_1_alg».proof.Proof.EntryValue
import proofs.«131335_j30185030156318_1_alg».proof.Proof.ExitValue
import proofs.«131335_j30185030156318_1_alg».proof.Proof.SpecLaws

noncomputable section

open scoped BigOperators

namespace Cert.KernelIdeal.KernelValue

open Idealize.ShloMosaic Idealize.ShloMosaic.TcCoe Idealize.ShloMosaic.ValueIdx Idealize.SL.Sem
open Cert.KernelIdeal Cert.KernelIdeal.Gen Cert.KernelIdeal.Region
open Idealize.ShloMosaic.Pipeline (Dat)

variable (m : (ℓ : Loc nD τ sig) → Buf (Elt Ideal) ℓ) (ρ : Dev nD → PrngReg)

/-- The result buffer after the run, in terms of the argument arrays. -/
theorem result_value (c : Dev nD) :
    (Pipeline.afterTail₀ cfgs (dats (F := Ideal) m) 0 (entry0 m) [hostOps1] c main_v18 : S16x1x2000x481x2.Idx → EReal)
      = Cert.FirBlend.specK (m ((c : Thread nD τ).loc main_arg0)) (m ((c : Thread nD τ).loc main_arg1)) (m ((c : Thread nD τ).loc main_arg2))
          Cert.FirBlend.padLit := by
  rw [Cert.KernelIdeal.ExitValue.exit_result, Cert.KernelIdeal.ArrayValue.region_result]
  unfold Cert.KernelIdeal.ArrayValue.outArray
  rw [Cert.KernelIdeal.EntryValue.entry_chanFirst, Cert.KernelIdeal.EntryValue.entry_coefFirst,
    Cert.KernelIdeal.EntryValue.entry_halo, entry_main_arg2]
  exact Cert.FirBlend.regionOut_args _ _ _ _

/-- The run. -/
theorem run : θ_run defs (onTc (τ := τ) (main (F := Ideal))) ⟨m, fun _ => 0, ρ⟩ (fun r => ∀ c : Dev nD,
      r.2.mem ((c.tc : Thread nD τ).loc main_v18)
        = Cert.FirBlend.specK (m ((c.tc : Thread nD τ).loc main_arg0)) (m ((c.tc : Thread nD τ).loc main_arg1))
            (m ((c.tc : Thread nD τ).loc main_arg2)) Cert.FirBlend.padLit
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v18 (Pipeline.mem_restRefs_of main_v18 (by decide) (by decide))).trans (result_value m c),
      ((h c).2 main_arg0 (Pipeline.mem_restRefs_of main_arg0 (by decide) (by decide))).trans (exit_main_arg0 m (dats m) c),
      ((h c).2 main_arg1 (Pipeline.mem_restRefs_of main_arg1 (by decide) (by decide))).trans (exit_main_arg1 m (dats m) c),
      ((h c).1 3).trans ((((dats m) 0 c).arrAt_in 3 rfl _).trans ((A_eq m c 3).trans (entry_main_arg2 m c)))⟩)
    (run_main m ρ)

end Cert.KernelIdeal.KernelValue

end
-- ==== Proof.RefTaps.lean ====
/-
  The reference's five stacked tap windows: entry [b, t, k, n, c] is sample t + k of the low band padded four frames
  deep.
-/
import proofs.«131335_j30185030156318_1_alg».proof.Proof.RefRead
import proofs.«131335_j30185030156318_1_alg».proof.Proof.Spec
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.ReferenceIdeal.RefTaps

open Idealize.ShloMosaic Idealize.ShloMosaic.TcCoe Idealize.ShloMosaic.ValueIdx Idealize.SL.Sem
open Cert.ReferenceIdeal Cert.ReferenceIdeal.Gen Cert.ReferenceIdeal.ReadP

/-- The low band with its unit axis dropped: entry [b, t, n, c] is the spectrum's [b, 0, t, n, c]. -/
private theorem low_apply (x0 : (⟨S16x1x2000x481x2, .f32⟩ : BufTy).Contents (Elt Ideal)) (b : Fin 16) (t : Fin 2000) (n : Fin 96) (ch : Fin 2) :
    val_main_v1 (F := Ideal) x0 (ix4 b t n ch) = x0 (ix5 b 0 t ⟨n.val, by omega⟩ ch) := by
  rw [val_main_v1_apply, val_main_v0_apply]
  refine congrArg x0 (funext fun a => Fin.ext ?_)
  have hb := b.isLt; have ht := t.isLt; have hn := n.isLt; have hc := ch.isLt
  match a with
  | ⟨0, _⟩ => show (((b.val * 2000 + t.val) * 96 + n.val) * 2 + ch.val) / 384000 = b.val; omega
  | ⟨1, _⟩ => rfl
  | ⟨2, _⟩ => show (((b.val * 2000 + t.val) * 96 + n.val) * 2 + ch.val) / 192 % 2000 = t.val; omega
  | ⟨3, _⟩ => show (((b.val * 2000 + t.val) * 96 + n.val) * 2 + ch.val) / 2 % 96 = n.val; omega
  | ⟨4, _⟩ => show (((b.val * 2000 + t.val) * 96 + n.val) * 2 + ch.val) % 2 = ch.val; omega

/-- The padded low band: entry [b, s, n, c] is padded sample s. -/
private theorem padded_apply (x0 : (⟨S16x1x2000x481x2, .f32⟩ : BufTy).Contents (Elt Ideal)) (b : Fin 16) (s : Fin 2004) (n : Fin 96) (ch : Fin 2) :
    val_main_v2 (F := Ideal) x0 (ix4 b s n ch) = Cert.FirBlend.padded x0 Cert.FirBlend.padLit b ch s n := by
  unfold Cert.FirBlend.padded val_main_v2
  by_cases h : 4 ≤ s.val
  · rw [dif_pos h]
    have hs := s.isLt
    rw [pad_apply_of_inside _ _ _ _ _ _ _ (ix4 b s n ch) (ix4 b (⟨s.val - 4, by omega⟩ : Fin 2000) n ch) (fun a => by
      match a with
      | ⟨0, _⟩ => show b.val = 0 + b.val * (0 + 1); omega
      | ⟨1, _⟩ => show s.val = 4 + (s.val - 4) * (0 + 1); omega
      | ⟨2, _⟩ => show n.val = 0 + n.val * (0 + 1); omega
      | ⟨3, _⟩ => show ch.val = 0 + ch.val * (0 + 1); omega)]
    exact low_apply x0 b _ n ch
  · rw [dif_neg h]
    rw [pad_apply_of_not_inside _ _ _ _ _ _ _ (ix4 b s n ch) (1 : Fin 4) (fun hin => h hin.1)]
    rfl

/-- Window 0: entry [b, t, n, c] is entry [b, t + 0, n, c] of the padded low band. -/
private theorem window0_apply (x0 : (⟨S16x1x2000x481x2, .f32⟩ : BufTy).Contents (Elt Ideal)) (b : Fin 16) (t : Fin 2000) (n : Fin 96) (ch : Fin 2) :
    val_main_v8 (F := Ideal) x0 (ix5 b t (0 : Fin 1) n ch) = Cert.FirBlend.padded x0 Cert.FirBlend.padLit b ch ⟨t.val + 0, by omega⟩ n := by
  rw [val_main_v8_apply, val_main_v3_apply, ← padded_apply]
  refine congrArg (val_main_v2 (F := Ideal) x0) (funext fun a => Fin.ext ?_)
  match a with
  | ⟨0, _⟩ => rfl
  | ⟨1, _⟩ => rfl
  | ⟨2, _⟩ => rfl
  | ⟨3, _⟩ => rfl

/-- Window 1: entry [b, t, n, c] is entry [b, t + 1, n, c] of the padded low band. -/
private theorem window1_apply (x0 : (⟨S16x1x2000x481x2, .f32⟩ : BufTy).Contents (Elt Ideal)) (b : Fin 16) (t : Fin 2000) (n : Fin 96) (ch : Fin 2) :
    val_main_v9 (F := Ideal) x0 (ix5 b t (0 : Fin 1) n ch) = Cert.FirBlend.padded x0 Cert.FirBlend.padLit b ch ⟨t.val + 1, by omega⟩ n := by
  rw [val_main_v9_apply, val_main_v4_apply, ← padded_apply]
  refine congrArg (val_main_v2 (F := Ideal) x0) (funext fun a => Fin.ext ?_)
  match a with
  | ⟨0, _⟩ => rfl
  | ⟨1, _⟩ => show 1 + t.val = t.val + 1; omega
  | ⟨2, _⟩ => rfl
  | ⟨3, _⟩ => rfl

/-- Window 2: entry [b, t, n, c] is entry [b, t + 2, n, c] of the padded low band. -/
private theorem window2_apply (x0 : (⟨S16x1x2000x481x2, .f32⟩ : BufTy).Contents (Elt Ideal)) (b : Fin 16) (t : Fin 2000) (n : Fin 96) (ch : Fin 2) :
    val_main_v10 (F := Ideal) x0 (ix5 b t (0 : Fin 1) n ch) = Cert.FirBlend.padded x0 Cert.FirBlend.padLit b ch ⟨t.val + 2, by omega⟩ n := by
  rw [val_main_v10_apply, val_main_v5_apply, ← padded_apply]
  refine congrArg (val_main_v2 (F := Ideal) x0) (funext fun a => Fin.ext ?_)
  match a with
  | ⟨0, _⟩ => rfl
  | ⟨1, _⟩ => show 2 + t.val = t.val + 2; omega
  | ⟨2, _⟩ => rfl
  | ⟨3, _⟩ => rfl

/-- Window 3: entry [b, t, n, c] is entry [b, t + 3, n, c] of the padded low band. -/
private theorem window3_apply (x0 : (⟨S16x1x2000x481x2, .f32⟩ : BufTy).Contents (Elt Ideal)) (b : Fin 16) (t : Fin 2000) (n : Fin 96) (ch : Fin 2) :
    val_main_v11 (F := Ideal) x0 (ix5 b t (0 : Fin 1) n ch) = Cert.FirBlend.padded x0 Cert.FirBlend.padLit b ch ⟨t.val + 3, by omega⟩ n := by
  rw [val_main_v11_apply, val_main_v6_apply, ← padded_apply]
  refine congrArg (val_main_v2 (F := Ideal) x0) (funext fun a => Fin.ext ?_)
  match a with
  | ⟨0, _⟩ => rfl
  | ⟨1, _⟩ => show 3 + t.val = t.val + 3; omega
  | ⟨2, _⟩ => rfl
  | ⟨3, _⟩ => rfl

/-- Window 4: entry [b, t, n, c] is entry [b, t + 4, n, c] of the padded low band. -/
private theorem window4_apply (x0 : (⟨S16x1x2000x481x2, .f32⟩ : BufTy).Contents (Elt Ideal)) (b : Fin 16) (t : Fin 2000) (n : Fin 96) (ch : Fin 2) :
    val_main_v12 (F := Ideal) x0 (ix5 b t (0 : Fin 1) n ch) = Cert.FirBlend.padded x0 Cert.FirBlend.padLit b ch ⟨t.val + 4, by omega⟩ n := by
  rw [val_main_v12_apply, val_main_v7_apply, ← padded_apply]
  refine congrArg (val_main_v2 (F := Ideal) x0) (funext fun a => Fin.ext ?_)
  match a with
  | ⟨0, _⟩ => rfl
  | ⟨1, _⟩ => show 4 + t.val = t.val + 4; omega
  | ⟨2, _⟩ => rfl
  | ⟨3, _⟩ => rfl

/-- The stack of the five windows along a new axis: entry [b, t, k, n, c] is window k at [b, t, 0, n, c], which is
    padded sample t + k. -/
theorem taps_apply (x0 : (⟨S16x1x2000x481x2, .f32⟩ : BufTy).Contents (Elt Ideal)) (b : Fin 16) (t : Fin 2000) (k : Fin 5) (n : Fin 96) (ch : Fin 2) :
    val_main_v13 (F := Ideal) x0 (ix5 b t k n ch) = Cert.FirBlend.padded x0 Cert.FirBlend.padLit b ch ⟨t.val + k.val, by omega⟩ n := by
  unfold val_main_v13
  match k with
  | ⟨0, _⟩ =>
    exact Eq.trans (concatenate_apply_piece (2 : Fin 5) _ _ (ix5 b t (⟨0, by omega⟩ : Fin 5) n ch) 0 (by show 0 < 5; omega) S16x2000x1x96x2
      (val_main_v8 (F := Ideal) x0) rfl rfl 0 rfl (ix5 b t (0 : Fin 1) n ch)
      (fun c => match c with
        | ⟨0, _⟩ => fun _ => rfl
        | ⟨1, _⟩ => fun _ => rfl
        | ⟨2, _⟩ => fun hc => absurd rfl hc
        | ⟨3, _⟩ => fun _ => rfl
        | ⟨4, _⟩ => fun _ => rfl) rfl) (window0_apply x0 b t n ch)
  | ⟨1, _⟩ =>
    exact Eq.trans (concatenate_apply_piece (2 : Fin 5) _ _ (ix5 b t (⟨1, by omega⟩ : Fin 5) n ch) 1 (by show 1 < 5; omega) S16x2000x1x96x2
      (val_main_v9 (F := Ideal) x0) rfl rfl 1 rfl (ix5 b t (0 : Fin 1) n ch)
      (fun c => match c with
        | ⟨0, _⟩ => fun _ => rfl
        | ⟨1, _⟩ => fun _ => rfl
        | ⟨2, _⟩ => fun hc => absurd rfl hc
        | ⟨3, _⟩ => fun _ => rfl
        | ⟨4, _⟩ => fun _ => rfl) rfl) (window1_apply x0 b t n ch)
  | ⟨2, _⟩ =>
    exact Eq.trans (concatenate_apply_piece (2 : Fin 5) _ _ (ix5 b t (⟨2, by omega⟩ : Fin 5) n ch) 2 (by show 2 < 5; omega) S16x2000x1x96x2
      (val_main_v10 (F := Ideal) x0) rfl rfl 2 rfl (ix5 b t (0 : Fin 1) n ch)
      (fun c => match c with
        | ⟨0, _⟩ => fun _ => rfl
        | ⟨1, _⟩ => fun _ => rfl
        | ⟨2, _⟩ => fun hc => absurd rfl hc
        | ⟨3, _⟩ => fun _ => rfl
        | ⟨4, _⟩ => fun _ => rfl) rfl) (window2_apply x0 b t n ch)
  | ⟨3, _⟩ =>
    exact Eq.trans (concatenate_apply_piece (2 : Fin 5) _ _ (ix5 b t (⟨3, by omega⟩ : Fin 5) n ch) 3 (by show 3 < 5; omega) S16x2000x1x96x2
      (val_main_v11 (F := Ideal) x0) rfl rfl 3 rfl (ix5 b t (0 : Fin 1) n ch)
      (fun c => match c with
        | ⟨0, _⟩ => fun _ => rfl
        | ⟨1, _⟩ => fun _ => rfl
        | ⟨2, _⟩ => fun hc => absurd rfl hc
        | ⟨3, _⟩ => fun _ => rfl
        | ⟨4, _⟩ => fun _ => rfl) rfl) (window3_apply x0 b t n ch)
  | ⟨4, _⟩ =>
    exact Eq.trans (concatenate_apply_piece (2 : Fin 5) _ _ (ix5 b t (⟨4, by omega⟩ : Fin 5) n ch) 4 (by show 4 < 5; omega) S16x2000x1x96x2
      (val_main_v12 (F := Ideal) x0) rfl rfl 4 rfl (ix5 b t (0 : Fin 1) n ch)
      (fun c => match c with
        | ⟨0, _⟩ => fun _ => rfl
        | ⟨1, _⟩ => fun _ => rfl
        | ⟨2, _⟩ => fun hc => absurd rfl hc
        | ⟨3, _⟩ => fun _ => rfl
        | ⟨4, _⟩ => fun _ => rfl) rfl) (window4_apply x0 b t n ch)

end Cert.ReferenceIdeal.RefTaps

end
-- ==== Proof.RefSum.lean ====
/-
  The reference's blended low band: per tap the complex product of the stacked window with the coefficients, the sum
  over the five taps from the initial word, and the blend with the input by the frame's weight.
-/
import proofs.«131335_j30185030156318_1_alg».proof.Proof.RefTaps
import proofs.«131335_j30185030156318_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefSum

open Idealize.ShloMosaic Idealize.ShloMosaic.TcCoe Idealize.ShloMosaic.ValueIdx Idealize.SL.Sem
open Cert.ReferenceIdeal Cert.ReferenceIdeal.Gen Cert.ReferenceIdeal.ReadP
open Cert.FirBlend

/-! ## The index maps at explicit coordinates -/

/-- Dropping the unit last axis keeps the four coordinates: the row-major position of [b, t, k, n] splits back into
    b, t, k, n. -/
private theorem idx_drop (b : Fin 16) (t : Fin 2000) (k : Fin 5) (n : Fin 96) :
    idx_main_v15 (ix4 b t k n) = ix5 b t k n 0 := by
  funext a
  match a with
  | ⟨0, _⟩ => exact Fin.ext (by show (((b.val * 2000 + t.val) * 5 + k.val) * 96 + n.val) / 960000 = b.val; omega)
  | ⟨1, _⟩ => exact Fin.ext (by show (((b.val * 2000 + t.val) * 5 + k.val) * 96 + n.val) / 480 % 2000 = t.val; omega)
  | ⟨2, _⟩ => exact Fin.ext (by show (((b.val * 2000 + t.val) * 5 + k.val) * 96 + n.val) / 96 % 5 = k.val; omega)
  | ⟨3, _⟩ => exact Fin.ext (by show (((b.val * 2000 + t.val) * 5 + k.val) * 96 + n.val) / 1 % 96 = n.val; omega)
  | ⟨4, _⟩ => rfl

/-- The slice of the real plane reads plane 0. -/
private theorem idx_lo (b : Fin 16) (t : Fin 2000) (k : Fin 5) (n : Fin 96) :
    idx_main_v14 (ix5 b t k n 0) = ix5 b t k n 0 := by
  funext a
  match a with
  | ⟨0, _⟩ => rfl
  | ⟨1, _⟩ => rfl
  | ⟨2, _⟩ => rfl
  | ⟨3, _⟩ => rfl
  | ⟨4, _⟩ => rfl

/-- The slice of the imaginary plane reads plane 1. -/
private theorem idx_hi (b : Fin 16) (t : Fin 2000) (k : Fin 5) (n : Fin 96) :
    idx_main_v19 (ix5 b t k n 0) = ix5 b t k n 1 := by
  funext a
  match a with
  | ⟨0, _⟩ => rfl
  | ⟨1, _⟩ => rfl
  | ⟨2, _⟩ => rfl
  | ⟨3, _⟩ => rfl
  | ⟨4, _⟩ => rfl

/-! ## The planes of the taps and of the coefficients -/

private theorem tap_re15 (x0 : (⟨S16x1x2000x481x2, .f32⟩ : BufTy).Contents (Elt Ideal)) (b : Fin 16) (t : Fin 2000) (k : Fin 5) (n : Fin 96) :
    val_main_v15 (F := Ideal) x0 (ix4 b t k n) = tapRe x0 padLit b t n k := by
  rw [val_main_v15_apply, idx_drop, val_main_v14_apply, idx_lo, RefTaps.taps_apply]
  rfl

private theorem tap_im20 (x0 : (⟨S16x1x2000x481x2, .f32⟩ : BufTy).Contents (Elt Ideal)) (b : Fin 16) (t : Fin 2000) (k : Fin 5) (n : Fin 96) :
    val_main_v20 (F := Ideal) x0 (ix4 b t k n) = tapIm x0 padLit b t n k := by
  rw [val_main_v20_apply, show idx_main_v20 (ix4 b t k n) = ix5 b t k n 0 from idx_drop b t k n, val_main_v19_apply,
    idx_hi, RefTaps.taps_apply]
  rfl

private theorem tap_im26 (x0 : (⟨S16x1x2000x481x2, .f32⟩ : BufTy).Contents (Elt Ideal)) (b : Fin 16) (t : Fin 2000) (k : Fin 5) (n : Fin 96) :
    val_main_v26 (F := Ideal) x0 (ix4 b t k n) = tapIm x0 padLit b t n k := by
  rw [val_main_v26_apply, show idx_main_v26 (ix4 b t k n) = ix5 b t k n 0 from idx_drop b t k n, val_main_v25_apply,
    show idx_main_v25 (ix5 b t k n 0) = ix5 b t k n 1 from idx_hi b t k n, RefTaps.taps_apply]
  rfl

private theorem tap_re31 (x0 : (⟨S16x1x2000x481x2, .f32⟩ : BufTy).Contents (Elt Ideal)) (b : Fin 16) (t : Fin 2000) (k : Fin 5) (n : Fin 96) :
    val_main_v31 (F := Ideal) x0 (ix4 b t k n) = tapRe x0 padLit b t n k := by
  rw [val_main_v31_apply, show idx_main_v31 (ix4 b t k n) = ix5 b t k n 0 from idx_drop b t k n, val_main_v30_apply,
    show idx_main_v30 (ix5 b t k n 0) = ix5 b t k n 0 from idx_lo b t k n, RefTaps.taps_apply]
  rfl

private theorem coef_re17 (x1 : (⟨S16x2000x5x96x2, .f32⟩ : BufTy).Contents (Elt Ideal)) (b : Fin 16) (t : Fin 2000) (k : Fin 5) (n : Fin 96) :
    val_main_v17 (F := Ideal) x1 (ix4 b t k n) = coefRe x1 b t n k := by
  rw [val_main_v17_apply, show idx_main_v17 (ix4 b t k n) = ix5 b t k n 0 from idx_drop b t k n, val_main_v16_apply,
    show idx_main_v16 (ix5 b t k n 0) = ix5 b t k n 0 from idx_lo b t k n]
  rfl

private theorem coef_im22 (x1 : (⟨S16x2000x5x96x2, .f32⟩ : BufTy).Contents (Elt Ideal)) (b : Fin 16) (t : Fin 2000) (k : Fin 5) (n : Fin 96) :
    val_main_v22 (F := Ideal) x1 (ix4 b t k n) = coefIm x1 b t n k := by
  rw [val_main_v22_apply, show idx_main_v22 (ix4 b t k n) = ix5 b t k n 0 from idx_drop b t k n, val_main_v21_apply,
    show idx_main_v21 (ix5 b t k n 0) = ix5 b t k n 1 from idx_hi b t k n]
  rfl

private theorem coef_re28 (x1 : (⟨S16x2000x5x96x2, .f32⟩ : BufTy).Contents (Elt Ideal)) (b : Fin 16) (t : Fin 2000) (k : Fin 5) (n : Fin 96) :
    val_main_v28 (F := Ideal) x1 (ix4 b t k n) = coefRe x1 b t n k := by
  rw [val_main_v28_apply, show idx_main_v28 (ix4 b t k n) = ix5 b t k n 0 from idx_drop b t k n, val_main_v27_apply,
    show idx_main_v27 (ix5 b t k n 0) = ix5 b t k n 0 from idx_lo b t k n]
  rfl

private theorem coef_im33 (x1 : (⟨S16x2000x5x96x2, .f32⟩ : BufTy).Contents (Elt Ideal)) (b : Fin 16) (t : Fin 2000) (k : Fin 5) (n : Fin 96) :
    val_main_v33 (F := Ideal) x1 (ix4 b t k n) = coefIm x1 b t n k := by
  rw [val_main_v33_apply, show idx_main_v33 (ix4 b t k n) = ix5 b t k n 0 from idx_drop b t k n, val_main_v32_apply,
    show idx_main_v32 (ix5 b t k n 0) = ix5 b t k n 1 from idx_hi b t k n]
  rfl

/-! ## One tap's complex product -/

/-- The real part of tap k's product: re·re − im·im. -/
private theorem prod_re (x0 : (⟨S16x1x2000x481x2, .f32⟩ : BufTy).Contents (Elt Ideal)) (x1 : (⟨S16x2000x5x96x2, .f32⟩ : BufTy).Contents (Elt Ideal)) (b : Fin 16) (t : Fin 2000) (k : Fin 5) (n : Fin 96) :
    val_main_v24 (F := Ideal) x0 x1 (ix4 b t k n)
      = tapRe x0 padLit b t n k * coefRe x1 b t n k - tapIm x0 padLit b t n k * coefIm x1 b t n k := by
  rw [val_main_v24_apply, val_main_v18_apply, val_main_v23_apply, tap_re15, coef_re17, tap_im20, coef_im22]
  rfl

/-- The imaginary part of tap k's product: im·re + re·im. -/
private theorem prod_im (x0 : (⟨S16x1x2000x481x2, .f32⟩ : BufTy).Contents (Elt Ideal)) (x1 : (⟨S16x2000x5x96x2, .f32⟩ : BufTy).Contents (Elt Ideal)) (b : Fin 16) (t : Fin 2000) (k : Fin 5) (n : Fin 96) :
    val_main_v35 (F := Ideal) x0 x1 (ix4 b t k n)
      = tapIm x0 padLit b t n k * coefRe x1 b t n k + tapRe x0 padLit b t n k * coefIm x1 b t n k := by
  rw [val_main_v35_apply, val_main_v29_apply, val_main_v34_apply, tap_im26, coef_re28, tap_re31, coef_im33]
  rfl

/-! ## The two parts joined along the last axis -/

private theorem joined_re (x0 : (⟨S16x1x2000x481x2, .f32⟩ : BufTy).Contents (Elt Ideal)) (x1 : (⟨S16x2000x5x96x2, .f32⟩ : BufTy).Contents (Elt Ideal)) (b : Fin 16) (t : Fin 2000) (k : Fin 5) (n : Fin 96) :
    val_main_v38 (F := Ideal) x0 x1 (ix5 b t k n 0)
      = tapRe x0 padLit b t n k * coefRe x1 b t n k - tapIm x0 padLit b t n k * coefIm x1 b t n k := by
  have h : val_main_v38 (F := Ideal) x0 x1 (ix5 b t k n 0) = val_main_v36 (F := Ideal) x0 x1 (ix5 b t k n 0) := by
    unfold val_main_v38
    exact concatenate_pair_apply_left 4 _ _ concatenates_S16x2000x5x96x1_S16x2000x5x96x1_S16x2000x5x96x2_d4 _ rfl _
      (fun c => by
        match c with
        | ⟨0, _⟩ => rfl
        | ⟨1, _⟩ => rfl
        | ⟨2, _⟩ => rfl
        | ⟨3, _⟩ => rfl
        | ⟨4, _⟩ => rfl)
  have hi : idx_main_v36 (ix5 b t k n 0) = ix4 b t k n := by
    funext a
    match a with
    | ⟨0, _⟩ => rfl
    | ⟨1, _⟩ => rfl
    | ⟨2, _⟩ => rfl
    | ⟨3, _⟩ => rfl
  rw [h, val_main_v36_apply, hi, prod_re]

private theorem joined_im (x0 : (⟨S16x1x2000x481x2, .f32⟩ : BufTy).Contents (Elt Ideal)) (x1 : (⟨S16x2000x5x96x2, .f32⟩ : BufTy).Contents (Elt Ideal)) (b : Fin 16) (t : Fin 2000) (k : Fin 5) (n : Fin 96) :
    val_main_v38 (F := Ideal) x0 x1 (ix5 b t k n 1)
      = tapIm x0 padLit b t n k * coefRe x1 b t n k + tapRe x0 padLit b t n k * coefIm x1 b t n k := by
  have h : val_main_v38 (F := Ideal) x0 x1 (ix5 b t k n 1) = val_main_v37 (F := Ideal) x0 x1 (ix5 b t k n 0) := by
    unfold val_main_v38
    exact concatenate_pair_apply_right 4 _ _ concatenates_S16x2000x5x96x1_S16x2000x5x96x1_S16x2000x5x96x2_d4 _ rfl rfl _
      (fun c hc => by
        match c with
        | ⟨0, _⟩ => rfl
        | ⟨1, _⟩ => rfl
        | ⟨2, _⟩ => rfl
        | ⟨3, _⟩ => rfl
        | ⟨4, _⟩ => exact absurd rfl hc)
      rfl
  have hi : idx_main_v37 (ix5 b t k n 0) = ix4 b t k n := by
    funext a
    match a with
    | ⟨0, _⟩ => rfl
    | ⟨1, _⟩ => rfl
    | ⟨2, _⟩ => rfl
    | ⟨3, _⟩ => rfl
  rw [h, val_main_v37_apply, hi, prod_im]

/-! ## The sum over the five taps -/

private theorem summed_apply (x0 : (⟨S16x1x2000x481x2, .f32⟩ : BufTy).Contents (Elt Ideal)) (x1 : (⟨S16x2000x5x96x2, .f32⟩ : BufTy).Contents (Elt Ideal)) (b : Fin 16) (t : Fin 2000) (n : Fin 96) (ch : Fin 2) :
    val_main_v39 (F := Ideal) x0 x1 (ix4 b t n ch)
      = if ch.val = 0 then sumRe zeroLit (tapRe x0 padLit b t n) (tapIm x0 padLit b t n) (coefRe x1 b t n) (coefIm x1 b t n)
        else sumIm zeroLit (tapRe x0 padLit b t n) (tapIm x0 padLit b t n) (coefRe x1 b t n) (coefIm x1 b t n) := by
  have hidx : ∀ k : Fin 5, idx_main_v39 (ix4 b t n ch) k = ix5 b t k n ch := fun k => by
    funext a
    match a with
    | ⟨0, _⟩ => rfl
    | ⟨1, _⟩ => rfl
    | ⟨2, _⟩ => rfl
    | ⟨3, _⟩ => rfl
    | ⟨4, _⟩ => rfl
  rw [val_main_v39_apply, val_main_cst_apply, Ideal.ofBits_def]
  simp only [hidx]
  rcases (by decide : ∀ c : Fin 2, c = 0 ∨ c = 1) ch with rfl | rfl
  · rw [if_pos (show ((0 : Fin 2).val = 0) from rfl)]
    unfold sumRe
    refine congrArg (zeroLit + ·) (Finset.sum_congr rfl fun k _ => ?_)
    exact joined_re x0 x1 b t k n
  · rw [if_neg (show ¬ ((1 : Fin 2).val = 0) by decide)]
    unfold sumIm
    refine congrArg (zeroLit + ·) (Finset.sum_congr rfl fun k _ => ?_)
    exact joined_im x0 x1 b t k n

/-! ## The weight, one minus the weight, and the input sample -/

private theorem weight_idx (b : Fin 16) (t : Fin 2000) :
    idx_main_v40 (ix5 b 0 t 0 0) = ix3 b t 0 := by
  funext a
  match a with
  | ⟨0, _⟩ => exact Fin.ext (by show ((((b.val * 1 + 0) * 2000 + t.val) * 1 + 0) * 1 + 0) / 2000 = b.val; omega)
  | ⟨1, _⟩ => exact Fin.ext (by show ((((b.val * 1 + 0) * 2000 + t.val) * 1 + 0) * 1 + 0) / 1 % 2000 = t.val; omega)
  | ⟨2, _⟩ => rfl

private theorem weight_apply (x2 : (⟨S16x2000x1, .f32⟩ : BufTy).Contents (Elt Ideal)) (b : Fin 16) (t : Fin 2000) (n : Fin 96) (ch : Fin 2) :
    val_main_v42 (F := Ideal) x2 (ix5 b 0 t n ch) = x2 (ix3 b t 0) := by
  have hi : idx_main_v42 (ix5 b 0 t n ch) = ix5 b 0 t 0 0 := by
    funext a
    match a with
    | ⟨0, _⟩ => rfl
    | ⟨1, _⟩ => rfl
    | ⟨2, _⟩ => rfl
    | ⟨3, _⟩ => rfl
    | ⟨4, _⟩ => rfl
  rw [val_main_v42_apply, hi, val_main_v40_apply, weight_idx]

private theorem coweight_apply (x2 : (⟨S16x2000x1, .f32⟩ : BufTy).Contents (Elt Ideal)) (b : Fin 16) (t : Fin 2000) (n : Fin 96) (ch : Fin 2) :
    val_main_v47 (F := Ideal) x2 (ix5 b 0 t n ch) = oneLit - x2 (ix3 b t 0) := by
  have hi : idx_main_v47 (ix5 b 0 t n ch) = ix5 b 0 t 0 0 := by
    funext a
    match a with
    | ⟨0, _⟩ => rfl
    | ⟨1, _⟩ => rfl
    | ⟨2, _⟩ => rfl
    | ⟨3, _⟩ => rfl
    | ⟨4, _⟩ => rfl
  rw [val_main_v47_apply, hi, val_main_v46_apply, val_main_v45_apply, val_main_cst_0_apply, val_main_v40_apply, weight_idx]
  rfl

private theorem input_apply (x0 : (⟨S16x1x2000x481x2, .f32⟩ : BufTy).Contents (Elt Ideal)) (b : Fin 16) (t : Fin 2000) (n : Fin 96) (ch : Fin 2) :
    val_main_v44 (F := Ideal) x0 (ix5 b 0 t n ch) = x0 (ix5 b 0 t ⟨n.val, by omega⟩ ch) := by
  have hi : idx_main_v44 (ix5 b 0 t n ch) = ix5 b 0 t ⟨n.val, by omega⟩ ch := by
    funext a
    match a with
    | ⟨0, _⟩ => rfl
    | ⟨1, _⟩ => rfl
    | ⟨2, _⟩ => rfl
    | ⟨3, _⟩ => rfl
    | ⟨4, _⟩ => rfl
  rw [val_main_v44_apply, hi]

/-! ## The blend -/

theorem mixed_apply (x0 : (⟨S16x1x2000x481x2, .f32⟩ : BufTy).Contents (Elt Ideal)) (x1 : (⟨S16x2000x5x96x2, .f32⟩ : BufTy).Contents (Elt Ideal))
    (x2 : (⟨S16x2000x1, .f32⟩ : BufTy).Contents (Elt Ideal)) (b : Fin 16) (t : Fin 2000) (n : Fin 96) (ch : Fin 2) :
    val_main_v49 (F := Ideal) x0 x1 x2 (ix5 b 0 t n ch)
      = mixR ch (tapRe x0 padLit b t n) (tapIm x0 padLit b t n) (coefRe x1 b t n) (coefIm x1 b t n) (x2 (ix3 b t 0))
          (x0 (ix5 b 0 t ⟨n.val, by omega⟩ ch)) := by
  have hi : idx_main_v41 (ix5 b 0 t n ch) = ix4 b t n ch := by
    funext a
    match a with
    | ⟨0, _⟩ => rfl
    | ⟨1, _⟩ => rfl
    | ⟨2, _⟩ => rfl
    | ⟨3, _⟩ => rfl
  rw [val_main_v49_apply, val_main_v43_apply, val_main_v48_apply, val_main_v41_apply, hi, summed_apply, weight_apply,
    coweight_apply, input_apply]
  rfl

end Cert.ReferenceIdeal.RefSum

end
-- ==== Proof.LibScatterSet.lean ====
/-
  A host scatter that SETS (its update function returns the update) one number per index word into a vector, read at
  one element. The scatter is a left fold over the updates in order: update `k` writes its number at the element its
  index word names, read signed, and is dropped when the word names no element of the vector. A write at one element
  leaves every other element as it was, so when exactly one update names element `c` the fold ends with that update's
  number at `c`, whatever the other updates write and in whatever order they come.
-/
import Idealize.ShloMosaic.PureOps.ShapeOps
import Idealize.ShloMosaic.Lib.StableHlo.Predicate

noncomputable section

namespace Cert.LibScatterSet

open Idealize.ShloMosaic Idealize.ShloMosaic.StableHlo.Predicate

/-! ## A fold of single-element writes -/

section Fold
variable {ι κ α : Type}

/-- Writes none of which names element `j` leave it alone. Here `stp` is one write and `tgt n` the element update `n`
    names, if any; all that is asked of a write is that it leaves the elements it does not name as they were. -/
theorem foldl_of_forall_ne (stp : (κ → α) → ι → κ → α) (tgt : ι → Option κ)
    (hother : ∀ r n j, tgt n ≠ some j → stp r n j = r j)
    (l : List ι) (r : κ → α) (j : κ) (h : ∀ n ∈ l, tgt n ≠ some j) : (l.foldl stp r) j = r j := by
  induction l generalizing r with
  | nil => rfl
  | cons a l ih =>
    rw [List.foldl_cons, ih _ (fun n hn => h n (List.mem_cons_of_mem _ hn))]
    exact hother r a j (h a List.mem_cons_self)

/-- Over a list without repeats in which `n₀` is the only update naming element `j`, the fold ends with `n₀`'s number
    at `j`: whatever was there before `n₀`'s write is replaced by it, and the writes after it are elsewhere. -/
theorem foldl_of_unique (stp : (κ → α) → ι → κ → α) (tgt : ι → Option κ) (val : ι → α)
    (hother : ∀ r n j, tgt n ≠ some j → stp r n j = r j) (hhit : ∀ r n j, tgt n = some j → stp r n j = val n)
    (l : List ι) (hl : l.Nodup) (r : κ → α) (j : κ) (n₀ : ι)
    (hn₀ : n₀ ∈ l) (ht : tgt n₀ = some j) (hu : ∀ n ∈ l, tgt n = some j → n = n₀) :
    (l.foldl stp r) j = val n₀ := by
  induction l generalizing r with
  | nil => cases hn₀
  | cons a l ih =>
    rw [List.foldl_cons]
    have hnd := List.nodup_cons.1 hl
    rcases List.mem_cons.1 hn₀ with e | hmem
    · subst e
      have hnot : ∀ n ∈ l, tgt n ≠ some j := fun n hn e =>
        hnd.1 (hu n (List.mem_cons_of_mem _ hn) e ▸ hn)
      rw [foldl_of_forall_ne stp tgt hother l _ j hnot]
      exact hhit r n₀ j ht
    · exact ih hnd.2 _ hmem (fun n hn => hu n (List.mem_cons_of_mem _ hn))

end Fold

/-! ## Where an update lands -/

/-- An update lands on element `i` exactly when, on every operand axis, its window start plus its window coordinate is
    that axis's coordinate of `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e2 := congrArg (fun f : s.Idx => (f a).val) (Option.some.inj e)
      simp only at e2
      have := h a
      omega
    · intro e
      congr 1
      funext a
      apply Fin.ext
      have := e a
      have := h a
      show (d.start j idx a + d.window j a).toNat = (i a).val
      omega
  · constructor
    · intro e; exact absurd e (by simp)
    · intro e; exfalso; apply h; intro a
      have := e a
      have := (i a).isLt
      omega

/-- On the vector's one axis an update's window starts at its own index word, read signed. -/
theorem vec_start {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (a : Fin 1) :
    d.start j idx a = (idx (ixP (j 0))).toInt := by
  obtain ⟨uw, iw, sd, iv, wf⟩ := d
  dsimp only at h1 h2 h3 h4
  subst h1 h2 h3 h4
  fin_cases a
  unfold ScatterDims.start
  split_ifs with ha
  · refine congrArg (fun v => (idx v).toInt) ?_
    funext b
    apply Fin.ext
    fin_cases b <;> rfl
  · exact absurd (List.mem_singleton.2 rfl) ha

/-- The vector's one axis is an inserted one: the window coordinate there is zero. -/
theorem vec_window {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (j : (⟨1, ![n]⟩ : Shape).Idx) (a : Fin 1) :
    d.window j a = 0 := by
  obtain ⟨uw, iw, sd, iv, wf⟩ := d
  dsimp only at h1 h2 h3 h4
  subst h1 h2 h3 h4
  fin_cases a
  unfold ScatterDims.window
  split_ifs with ha
  · exact absurd (show _ ∈ ([] : List (Fin 1)) from ha) List.not_mem_nil
  · rfl

/-- Update `j` lands on element `c` of the vector exactly when its index word, read signed, is `c`. -/
theorem resultIdx?_vec_iff {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (c : Fin C) :
    d.resultIdx? j idx = some (Shape.Idx.ofFin c) ↔ (idx (ixP (j 0))).toInt = (c.val : ℤ) := by
  rw [resultIdx?_eq_some_iff]
  constructor
  · intro e
    have e0 : d.start j idx 0 + (d.window j 0 : ℤ) = (((Shape.Idx.ofFin c : (⟨1, ![C]⟩ : Shape).Idx) 0).val : ℤ) := e 0
    rw [vec_start d h1 h2 h3 h4, vec_window d h1 h2 h3 h4] at e0
    simpa using e0
  · intro e a
    obtain rfl : a = 0 := Subsingleton.elim _ _
    rw [vec_start d h1 h2 h3 h4, vec_window d h1 h2 h3 h4]
    simpa using e

/-! ## The scatter read at an element -/

/-- THE SET-SCATTER AT ELEMENT `c`, when update `e₀` is the one whose index word (read signed) is `c`: that update's
    number. Neither the operand's old element nor any other update shows there. -/
theorem scatter_set_vec_read {α : Type} {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1)
    (x : (⟨1, ![C]⟩ : Shape).Idx → α) (idx : IVec ⟨2, ![n, 1]⟩ 32) (upd : (⟨1, ![n]⟩ : Shape).Idx → α)
    (c : Fin C) (e₀ : Fin n) (he₀ : (idx (ixP e₀)).toInt = (c.val : ℤ))
    (hu : ∀ e : Fin n, (idx (ixP e)).toInt = (c.val : ℤ) → e = e₀) :
    Host.scatter d (fun _ b => b) x idx upd (Shape.Idx.ofFin c) = upd (Shape.Idx.ofFin e₀) := by
  unfold Host.scatter
  refine (foldl_of_unique _ (fun k => d.resultIdx? ((⟨1, ![n]⟩ : Shape).rowMajor.symm k) idx)
    (fun k => upd ((⟨1, ![n]⟩ : Shape).rowMajor.symm k)) ?_ ?_ _ (List.nodup_finRange _) x (Shape.Idx.ofFin c)
    ((⟨1, ![n]⟩ : Shape).rowMajor (Shape.Idx.ofFin e₀)) (List.mem_finRange _) ?_ ?_).trans ?_
  · -- a write leaves the elements it does not name
    intro r k j hne
    dsimp only
    cases hk : d.resultIdx? ((⟨1, ![n]⟩ : Shape).rowMajor.symm k) idx with
    | none => rfl
    | some i =>
      have hji : ¬ j = i := fun e => hne (hk.trans (congrArg some e.symm))
      exact if_neg hji
  · -- a write puts the update's number at the element it names
    intro r k j he
    dsimp only
    rw [he]
    exact if_pos rfl
  · rw [Equiv.symm_apply_apply]
    exact (resultIdx?_vec_iff d h1 h2 h3 h4 idx _ c).2 (by simpa using he₀)
  · intro k _ hk
    have he := hu _ ((resultIdx?_vec_iff d h1 h2 h3 h4 idx _ c).1 hk)
    rw [← Equiv.symm_apply_eq, Shape.Idx.eq_ofFin ((⟨1, ![n]⟩ : Shape).rowMajor.symm k), he]
    rfl
  · rw [Equiv.symm_apply_apply]

end Cert.LibScatterSet

end
-- ==== Proof.LibScatterWindow.lean ====
/-
  A host scatter that SETS one window of a rank-5 array, read at an element. The update has the operand's extents on
  every axis but the fourth, where it is shorter, and the one index word places it on that axis; with the word zero the
  window is the leading stretch of the fourth axis. Inside the window the result is the update, outside it the operand.
-/
import Idealize.ShloMosaic.PureOps.ShapeOps
import Idealize.ShloMosaic.Lib.ValueIdx
import proofs.«131335_j30185030156318_1_alg».proof.Proof.LibScatterSet

noncomputable section

open scoped BigOperators

namespace Cert.LibScatterWindow

open Idealize.ShloMosaic Idealize.ShloMosaic.ValueIdx

/-! ## Start and window coordinate of an update for this layout -/

/-- All five axes are window axes in order and none is inserted: the window coordinate on an axis is the update
    index's own coordinate there. -/
private theorem window_eq {A B C D D' E : Nat}
    (d : ScatterDims ⟨5, ![A, B, C, D, E]⟩ ⟨1, ![1]⟩ ⟨5, ![A, B, C, D', E]⟩)
    (h1 : d.updateWindowDims = [0, 1, 2, 3, 4]) (h2 : d.insertedWindowDims = []) (h3 : d.scatterDimsToOperandDims = [3])
    (h4 : d.indexVectorDim = 0) (j : (⟨5, ![A, B, C, D', E]⟩ : Shape).Idx) (a : Fin 5) :
    d.window j a = (j a).val := by
  obtain ⟨uw, iw, sd, iv, wf⟩ := d
  dsimp only at h1 h2 h3 h4
  subst h1 h2 h3 h4
  unfold ScatterDims.window
  fin_cases a <;> rfl

/-- The one index word is the start on axis 3; every other axis starts at zero. -/
private theorem start_eq {A B C D D' E : Nat}
    (d : ScatterDims ⟨5, ![A, B, C, D, E]⟩ ⟨1, ![1]⟩ ⟨5, ![A, B, C, D', E]⟩)
    (h1 : d.updateWindowDims = [0, 1, 2, 3, 4]) (h2 : d.insertedWindowDims = []) (h3 : d.scatterDimsToOperandDims = [3])
    (h4 : d.indexVectorDim = 0) (idx : IVec ⟨1, ![1]⟩ 32) (j : (⟨5, ![A, B, C, D', E]⟩ : Shape).Idx) (a : Fin 5) :
    d.start j idx a = if a = 3 then (idx (ix1 0)).toInt else 0 := by
  obtain ⟨uw, iw, sd, iv, wf⟩ := d
  dsimp only at h1 h2 h3 h4
  subst h1 h2 h3 h4
  unfold ScatterDims.start
  split_ifs with ha h3' h3'
  · subst h3'
    refine congrArg (fun v => (idx v).toInt) ?_
    funext b
    apply Fin.ext
    fin_cases b
    rfl
  · exact absurd (List.mem_singleton.1 ha) h3'
  · exact absurd (List.mem_singleton.2 h3') ha
  · rfl

/-- With the index word zero every axis starts at zero. -/
private theorem start_zero {A B C D D' E : Nat}
    (d : ScatterDims ⟨5, ![A, B, C, D, E]⟩ ⟨1, ![1]⟩ ⟨5, ![A, B, C, D', E]⟩)
    (h1 : d.updateWindowDims = [0, 1, 2, 3, 4]) (h2 : d.insertedWindowDims = []) (h3 : d.scatterDimsToOperandDims = [3])
    (h4 : d.indexVectorDim = 0) (idx : IVec ⟨1, ![1]⟩ 32) (hidx : (idx (ix1 0)).toInt = 0)
    (j : (⟨5, ![A, B, C, D', E]⟩ : Shape).Idx) (a : Fin 5) :
    d.start j idx a = 0 := by
  rw [start_eq d h1 h2 h3 h4, hidx, ite_self]

/-- With the index word zero, update index `j` lands on element `i` exactly when the two have the same coordinates. -/
private theorem resultIdx?_iff {A B C D D' E : Nat}
    (d : ScatterDims ⟨5, ![A, B, C, D, E]⟩ ⟨1, ![1]⟩ ⟨5, ![A, B, C, D', E]⟩)
    (h1 : d.updateWindowDims = [0, 1, 2, 3, 4]) (h2 : d.insertedWindowDims = []) (h3 : d.scatterDimsToOperandDims = [3])
    (h4 : d.indexVectorDim = 0) (idx : IVec ⟨1, ![1]⟩ 32) (hidx : (idx (ix1 0)).toInt = 0)
    (j : (⟨5, ![A, B, C, D', E]⟩ : Shape).Idx) (i : (⟨5, ![A, B, C, D, E]⟩ : Shape).Idx) :
    d.resultIdx? j idx = some i ↔ ∀ a : Fin 5, (j a).val = (i a).val := by
  rw [LibScatterSet.resultIdx?_eq_some_iff]
  constructor
  · intro e a
    have ea := e a
    rw [start_zero d h1 h2 h3 h4 idx hidx, window_eq d h1 h2 h3 h4] at ea
    omega
  · intro e a
    rw [start_zero d h1 h2 h3 h4 idx hidx, window_eq d h1 h2 h3 h4]
    have ea := e a
    omega

/-- The set-scatter of a full-rank window placed by one index word on axis 3, the word zero, at element [a, b, c, f, e]:
    the update's element when `f` is inside the window's extent, the operand's otherwise. -/
theorem scatter_window_axis3_read {α : Type} {A B C D D' E : Nat}
    (d : ScatterDims ⟨5, ![A, B, C, D, E]⟩ ⟨1, ![1]⟩ ⟨5, ![A, B, C, D', E]⟩)
    (h1 : d.updateWindowDims = [0, 1, 2, 3, 4]) (h2 : d.insertedWindowDims = []) (h3 : d.scatterDimsToOperandDims = [3])
    (h4 : d.indexVectorDim = 0)
    (x : (⟨5, ![A, B, C, D, E]⟩ : Shape).Idx → α) (idx : IVec ⟨1, ![1]⟩ 32) (hidx : (idx (ix1 0)).toInt = 0)
    (upd : (⟨5, ![A, B, C, D', E]⟩ : Shape).Idx → α) (a : Fin A) (b : Fin B) (c : Fin C) (f : Fin D) (e : Fin E) :
    Host.scatter d (fun _ v => v) x idx upd (ix5 a b c f e)
      = if h : f.val < D' then upd (ix5 a b c ⟨f.val, h⟩ e) else x (ix5 a b c f e) := by
  unfold Host.scatter
  by_cases h : f.val < D'
  · rw [dif_pos h]
    refine (LibScatterSet.foldl_of_unique _
      (fun k => d.resultIdx? ((⟨5, ![A, B, C, D', E]⟩ : Shape).rowMajor.symm k) idx)
      (fun k => upd ((⟨5, ![A, B, C, D', E]⟩ : Shape).rowMajor.symm k)) ?_ ?_ _ (List.nodup_finRange _) x
      (ix5 a b c f e) ((⟨5, ![A, B, C, D', E]⟩ : Shape).rowMajor (ix5 a b c ⟨f.val, h⟩ e)) (List.mem_finRange _) ?_ ?_).trans ?_
    · -- a write leaves the elements it does not name
      intro r k j hne
      dsimp only
      cases hk : d.resultIdx? ((⟨5, ![A, B, C, D', E]⟩ : Shape).rowMajor.symm k) idx with
      | none => rfl
      | some i =>
        have hji : ¬ j = i := fun e => hne (hk.trans (congrArg some e.symm))
        exact if_neg hji
    · -- a write puts the update's element at the element it names
      intro r k j he
      dsimp only
      rw [he]
      exact if_pos rfl
    · -- the update index with the same coordinates lands on the element
      rw [Equiv.symm_apply_apply]
      refine (resultIdx?_iff d h1 h2 h3 h4 idx hidx _ _).2 ?_
      intro a'
      fin_cases a' <;> rfl
    · -- and it is the only one
      intro k _ hk
      have hc := (resultIdx?_iff d h1 h2 h3 h4 idx hidx _ _).1 hk
      rw [← Equiv.symm_apply_eq]
      funext a'
      apply Fin.ext
      have := hc a'
      fin_cases a' <;> exact this
    · rw [Equiv.symm_apply_apply]
  · rw [dif_neg h]
    refine LibScatterSet.foldl_of_forall_ne _
      (fun k => d.resultIdx? ((⟨5, ![A, B, C, D', E]⟩ : Shape).rowMajor.symm k) idx) ?_ _ x (ix5 a b c f e) ?_
    · intro r k j hne
      dsimp only
      cases hk : d.resultIdx? ((⟨5, ![A, B, C, D', E]⟩ : Shape).rowMajor.symm k) idx with
      | none => rfl
      | some i =>
        have hji : ¬ j = i := fun e => hne (hk.trans (congrArg some e.symm))
        exact if_neg hji
    · -- an update's coordinate on axis 3 is below the window's extent, so none lands at `f`
      intro k _ hk
      have hc : (((⟨5, ![A, B, C, D', E]⟩ : Shape).rowMajor.symm k) 3).val = f.val :=
        (resultIdx?_iff d h1 h2 h3 h4 idx hidx _ _).1 hk 3
      have hlt : (((⟨5, ![A, B, C, D', E]⟩ : Shape).rowMajor.symm k) 3).val < D' :=
        (((⟨5, ![A, B, C, D', E]⟩ : Shape).rowMajor.symm k) 3).isLt
      exact h (lt_of_eq_of_lt hc.symm hlt)

end Cert.LibScatterWindow

end
-- ==== Proof.RefValue.lean ====
/-
  The reference's result: the blended low band set into bins 0–95 of the spectrum, the other bins as they were.
-/
import proofs.«131335_j30185030156318_1_alg».proof.Proof.RefSum
import proofs.«131335_j30185030156318_1_alg».proof.Proof.LibScatterWindow
import proofs.«131335_j30185030156318_1_alg».proof.Proof.Spec
import Idealize.ShloMosaic.Lib.ValueIdx

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.ReadP
open Cert.FirBlend

theorem result_eq (x0 : (⟨S16x1x2000x481x2, .f32⟩ : BufTy).Contents (Elt Ideal)) (x1 : (⟨S16x2000x5x96x2, .f32⟩ : BufTy).Contents (Elt Ideal))
    (x2 : (⟨S16x2000x1, .f32⟩ : BufTy).Contents (Elt Ideal)) :
    val_main_v51 (F := Ideal) x0 x1 x2 = specR x0 x1 x2 padLit := by
  funext i
  obtain ⟨b, z, t, f, ch, rfl⟩ : ∃ (b : Fin 16) (z : Fin 1) (t : Fin 2000) (f : Fin 481) (ch : Fin 2), i = ix5 b z t f ch :=
    ⟨i 0, i 1, i 2, i 3, i 4, eq_ix5 i⟩
  obtain rfl : z = 0 := Subsingleton.elim _ _
  -- the index word is the constant zero
  have hidx : ((val_main_v50 (F := Ideal)) (ix1 0)).toInt = 0 := by
    rw [val_main_v50_apply, val_main_c_1_apply]
    rfl
  unfold val_main_v51
  rw [Cert.LibScatterWindow.scatter_window_axis3_read _ rfl rfl rfl rfl x0 _ hidx _ b 0 t f ch]
  show _ = resultR x0 x1 x2 padLit b t f ch
  unfold resultR
  split_ifs with h
  · -- inside the low band: the blended sample
    exact RefSum.mixed_apply x0 x1 x2 b t ⟨f.val, h⟩ ch
  · -- above it: the spectrum itself
    rfl

end Cert.ReferenceIdeal.RefValue

end
-- ==== Proof.lean ====
/-
  An order-5 causal complex FIR over time on the first 96 frequency bins of a spectrum, blended with the input by a
  per-frame weight, the other bins passed through: the Pallas kernel (one pipeline over batch × 400-frame tiles, on
  channel-first copies of the spectrum and the coefficients, each tile's four-frame halo materialised beforehand)
  against the plain reference (five shifted windows of the padded low band stacked, multiplied with the coefficients,
  summed over the taps, blended, and set into the spectrum's low bins).

  At the exact instance both programs leave, at [b, 0, t, f, c]:  acc · a + x · (1 − a)  for f < 96, where acc is the
  c-part of  Σ_k (padded sample t + k) · (coefficient k)  started from the zero word, and x for f ≥ 96. The kernel adds
  the ten real products one after the other, the reference sums five per-tap differences: the same sum re-bracketed,
  so the claim needs no finiteness of the inputs. The three frames: the kernel's two (as printed at the word level and
  idealized) from the launch of its one region with the body run symbolically; the reference's from its host run.
  The ideal pass rewrote nothing, so `preserves` is trivial.
-/
import proofs.«131335_j30185030156318_1_alg».proof.Defs
import proofs.«131335_j30185030156318_1_alg».proof.Proof.Gen.Kernel
import proofs.«131335_j30185030156318_1_alg».proof.Proof.Gen.KernelIdeal
import proofs.«131335_j30185030156318_1_alg».proof.Proof.Gen.ReferenceIdeal
import proofs.«131335_j30185030156318_1_alg».proof.Proof.Gen.Pre_finite_inputs
import proofs.«131335_j30185030156318_1_alg».proof.Proof.RegionKernel
import proofs.«131335_j30185030156318_1_alg».proof.Proof.KernelValue
import proofs.«131335_j30185030156318_1_alg».proof.Proof.RefValue
import Idealize.ShloMosaic.Adequacy
import Idealize.ShloMosaic.Init

noncomputable section

namespace Cert.Proof

open Idealize.ShloMosaic Idealize.SL.Sem

/-- The kernel as printed: it runs to the end and its arguments end as launched. -/
theorem frame_kernel : Cert.frame_Kernel := fun m ρ _ => Cert.Kernel.Region.frame m ρ

/-- The idealized kernel: likewise. -/
theorem frame_kernelIdeal : Cert.frame_KernelIdeal := fun m ρ _ => Cert.KernelIdeal.Region.frame m ρ

/-- The reference: its host run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- From memories agreeing on the arguments both programs end with the kernel's specification of the arguments in their
    result buffers: the kernel by its run, the reference because its result is the reference's specification, which is
    the kernel's with the sum re-bracketed. -/
theorem algebraic : Cert.algebraic_KernelIdeal_ReferenceIdeal := by
  intro m ρ m' ρ' _ hagree
  refine ⟨fun c => Cert.FirBlend.specK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) Cert.FirBlend.padLit,
    Cert.KernelIdeal.KernelValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v51_eq, Cert.ReferenceIdeal.RefValue.result_eq, (hagree c).1, (hagree c).2.1, (hagree c).2.2]
  exact (Cert.FirBlend.specK_eq_specR _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
